-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S32x64 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg14
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S32x64 .f32) (main_arg15 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x800000 : Shape := ⟨2, ![1, 800000]⟩
abbrev S800000 : Shape := ⟨1, ![800000]⟩
abbrev S50000x1 : Shape := ⟨2, ![50000, 1]⟩
abbrev S64x32 : Shape := ⟨2, ![64, 32]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S1x32 : Shape := ⟨2, ![1, 32]⟩
abbrev S5000x1 : Shape := ⟨2, ![5000, 1]⟩
abbrev S64x1 : Shape := ⟨2, ![64, 1]⟩

abbrev nBuf : Space → Nat
  | .hbm => 77
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x1, .i32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x32, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S1x64, .f32⟩
  | .hbm, ⟨75, _⟩ => ⟨S1x32, .f32⟩
  | .hbm, ⟨76, _⟩ => ⟨S64x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .i32⟩
  | .local _ .vmem, ⟨30, _⟩ => ⟨S5000x1, .i32⟩
  | .local _ .vmem, ⟨31, _⟩ => ⟨S64x64, .f32⟩
  | .local _ .vmem, ⟨32, _⟩ => ⟨S1x64, .f32⟩
  | .local _ .vmem, ⟨33, _⟩ => ⟨S64x32, .f32⟩
  | .local _ .vmem, ⟨34, _⟩ => ⟨S1x32, .f32⟩
  | .local _ .vmem, ⟨35, _⟩ => ⟨S64x32, .f32⟩
  | .local _ .vmem, ⟨36, _⟩ => ⟨S64x64, .f32⟩
  | .local _ .vmem, ⟨37, _⟩ => ⟨S64x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_scratch0 : Ref sig .tc := ⟨.vmem, 36, rfl⟩
abbrev cc3_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_15 : BitVec 32 := 0#32
  let v31 : BitVec 1 := Scalar.cmpi .ne v30 c0_i32_15
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  transposes_S64x64_S64x64_1_0 : S64x64.Transposes [1, 0] S64x64
  transposes_S32x64_S64x32_1_0 : S32x64.Transposes [1, 0] S64x32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  broadcasts_S64x1_S64x64 : S64x1.Broadcasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  broadcasts_S1x64_S64x64 : S1x64.Broadcasts S64x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  dot_S5000x64_S5000x1_S64x1_0_0_1_1_n_n_wf : DotDims.WF S5000x64 S5000x1 S64x1 [0] [0] [1] [1] [] []
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x32.size a ≤ S64x32.size a
  hwx3_6 : ∀ i : grid3.Coords, EltTy.bits .f32 = 32 ∨ (Rect.block (s := S64x32) S64x32.size (cc3_transform_6 i) (hinb3_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S64x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S64x32.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x1 : Shape := ⟨2, ![50000, 1]⟩
abbrev S64x1 : Shape := ⟨2, ![64, 1]⟩
abbrev S64x32 : Shape := ⟨2, ![64, 32]⟩
abbrev S1x32 : Shape := ⟨2, ![1, 32]⟩

abbrev nBuf : Space → Nat
  | .hbm => 117
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S64x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S64x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S64x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S64x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S64x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S64x64, .f32⟩
  | .hbm, ⟨94, _⟩ => ⟨S50000x1, .i32⟩
  | .hbm, ⟨95, _⟩ => ⟨S64x64, .f32⟩
  | .hbm, ⟨96, _⟩ => ⟨S_, .f32⟩
  | .hbm, ⟨97, _⟩ => ⟨S50000x1, .f32⟩
  | .hbm, ⟨98, _⟩ => ⟨S_, .f32⟩
  | .hbm, ⟨99, _⟩ => ⟨S64x1, .f32⟩
  | .hbm, ⟨100, _⟩ => ⟨S50000x1, .i32⟩
  | .hbm, ⟨101, _⟩ => ⟨S64x1, .f32⟩
  | .hbm, ⟨102, _⟩ => ⟨S_, .f32⟩
  | .hbm, ⟨103, _⟩ => ⟨S64x1, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S64x64, .f32⟩
  | .hbm, ⟨108, _⟩ => ⟨S64x64, .f32⟩
  | .hbm, ⟨109, _⟩ => ⟨S1x64, .f32⟩
  | .hbm, ⟨110, _⟩ => ⟨S64x64, .f32⟩
  | .hbm, ⟨111, _⟩ => ⟨S64x64, .f32⟩
  | .hbm, ⟨112, _⟩ => ⟨S64x32, .f32⟩
  | .hbm, ⟨113, _⟩ => ⟨S64x32, .f32⟩
  | .hbm, ⟨114, _⟩ => ⟨S1x32, .f32⟩
  | .hbm, ⟨115, _⟩ => ⟨S64x32, .f32⟩
  | .hbm, ⟨116, _⟩ => ⟨S64x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call0_cst : Ref sig .tc := ⟨.hbm, 41, rfl⟩
abbrev main_call0_v0 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_cst : Ref sig .tc := ⟨.hbm, 65, rfl⟩
abbrev main_call1_v0 : Ref sig .tc := ⟨.hbm, 66, rfl⟩
abbrev main_v41 : Ref sig .tc := ⟨.hbm, 67, rfl⟩
abbrev main_c_4 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call2_cst : Ref sig .tc := ⟨.hbm, 89, rfl⟩
abbrev main_call2_v0 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_8 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S32x64_S64x32_1_0 : S32x64.Transposes [1, 0] S64x32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.Kernel.Conv0.lean ====
/-
  One graph-convolution launch of the kernel program, at a parameter V (the buffer contents the launch is entered
  with).  Grid point t handles rows 5000·t … 5000·t+4999: the body loads the aggregated block, the feature block,
  the two transposed weight matrices and the bias row, and stores the layer's value over the whole output block —
  the launch's payload: agg·Wrelᵀ + x·Wrootᵀ + b, followed in the first two launches by max(·, 0).
  Stated here: what the output block holds after the body as a function of the five input blocks, the body's
  triple, the launch's proof data (every input window keeps its block, the output window holds that function of
  the blocks at the point), and the obligation the launch rule asks at every point.
-/
import proofs.«415663_j86775519249037_1_alg».proof.Proof.Kernel.LaunchP
import proofs.«415663_j86775519249037_1_alg».proof.Proof.Gen.Kernel.Skeleton
import proofs.«415663_j86775519249037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved.  One statement per window (the windows' block types differ). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rRows0 : Rect S5000x64 := Rect.unit (s := S5000x64) ![0, 0] S5000x64.size inb_S5000x64_S5000x64_0_0
abbrev rSq0 : Rect S64x64 := Rect.unit (s := S64x64) ![0, 0] S64x64.size inb_S64x64_S64x64_0_0
abbrev rRow0 : Rect S1x64 := Rect.unit (s := S1x64) ![0, 0] S1x64.size inb_S1x64_S1x64_0_0

/-- The output block after the body: its one whole-block store, over the five input blocks. -/
def out0_5 (xa xf : Vec F S5000x64 .f32) (wr : Vec F S64x64 .f32) (b : Vec F S1x64 .f32) (wo : Vec F S64x64 .f32) : Vec F S5000x64 .f32 :=
  View.canon [⟨rRows0, k0_pay1 (View.ld xa rRows0) (View.ld xf rRows0) (View.ld wr rSq0) (View.ld wo rSq0) (View.ld b rRow0)⟩]

theorem cover0_5 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body on whole staging memrefs: the inputs at read contents, the output at anything; it returns the inputs
    as they were and the output at out0_5 of them. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (xa xf : Vec F S5000x64 .f32) (wr : Vec F S64x64 .f32) (b : Vec F S1x64 .f32) (wo : Vec F S64x64 .f32) (K : PUnit → sProp 𝕄) :
    iprop(owns (c : Thread nD τ) arg1 fullShare xa ∗ owns (c : Thread nD τ) arg2 fullShare xf ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare xa ∗ owns (c : Thread nD τ) arg2 fullShare xf ∗ owns (c : Thread nD τ) arg3 fullShare wr
            ∗ owns (c : Thread nD τ) arg4 fullShare b ∗ owns (c : Thread nD τ) arg5 fullShare wo
            ∗ owns (c : Thread nD τ) arg6 fullShare (out0_5 xa xf wr b wo)) -∗ K ⟨⟩))
      ⊢ wp frame (wpE (defs₀ (F := F)) Variants.none c none) E (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-- The launch's proof data on core c: the arrays as the launch finds them; after the body at point t every input
    window at its block and the output window at out0_5 of the blocks; the scoped rest and the generator register
    pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Conv1.lean ====
/-
  One graph-convolution launch of the kernel program, at a parameter V (the buffer contents the launch is entered
  with).  Grid point t handles rows 5000·t … 5000·t+4999: the body loads the aggregated block, the feature block,
  the two transposed weight matrices and the bias row, and stores the layer's value over the whole output block —
  the launch's payload: agg·Wrelᵀ + x·Wrootᵀ + b, followed in the first two launches by max(·, 0).
  Stated here: what the output block holds after the body as a function of the five input blocks, the body's
  triple, the launch's proof data (every input window keeps its block, the output window holds that function of
  the blocks at the point), and the obligation the launch rule asks at every point.
-/
import proofs.«415663_j86775519249037_1_alg».proof.Proof.Kernel.LaunchP
import proofs.«415663_j86775519249037_1_alg».proof.Proof.Gen.Kernel.Skeleton
import proofs.«415663_j86775519249037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: an unfetched window's
    block index has not moved.  One statement per window (the windows' block types differ). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rRows1 : Rect S5000x64 := Rect.unit (s := S5000x64) ![0, 0] S5000x64.size inb_S5000x64_S5000x64_0_0
abbrev rSq1 : Rect S64x64 := Rect.unit (s := S64x64) ![0, 0] S64x64.size inb_S64x64_S64x64_0_0
abbrev rRow1 : Rect S1x64 := Rect.unit (s := S1x64) ![0, 0] S1x64.size inb_S1x64_S1x64_0_0

/-- The output block after the body: its one whole-block store, over the five input blocks. -/
def out1_5 (xa xf : Vec F S5000x64 .f32) (wr : Vec F S64x64 .f32) (b : Vec F S1x64 .f32) (wo : Vec F S64x64 .f32) : Vec F S5000x64 .f32 :=
  View.canon [⟨rRows1, k1_pay1 (View.ld xa rRows1) (View.ld xf rRows1) (View.ld wr rSq1) (View.ld wo rSq1) (View.ld b rRow1)⟩]

theorem cover1_5 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging memrefs: the inputs at read contents, the output at anything; it returns the inputs
    as they were and the output at out1_5 of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (xa xf : Vec F S5000x64 .f32) (wr : Vec F S64x64 .f32) (b : Vec F S1x64 .f32) (wo : Vec F S64x64 .f32) (K : PUnit → sProp 𝕄) :
    iprop(owns (c : Thread nD τ) arg1 fullShare xa ∗ owns (c : Thread nD τ) arg2 fullShare xf ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare xa ∗ owns (c : Thread nD τ) arg2 fullShare xf ∗ owns (c : Thread nD τ) arg3 fullShare wr
            ∗ owns (c : Thread nD τ) arg4 fullShare b ∗ owns (c : Thread nD τ) arg5 fullShare wo
            ∗ owns (c : Thread nD τ) arg6 fullShare (out1_5 xa xf wr b wo)) -∗ K ⟨⟩))
      ⊢ wp frame (wpE (defs₀ (F := F)) Variants.none c none) E (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-- The launch's proof data on core c: the arrays as the launch finds them; after the body at point t every input
    window at its block and the output window at out1_5 of the blocks; the scoped rest and the generator register
    pass through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Conv2.lean ====
/-
  One graph-convolution launch of the kernel program, at a parameter V (the buffer contents the launch is entered
  with).  Grid point t handles rows 5000·t … 5000·t+4999: the body loads the aggregated block, the feature block,
  the two transposed weight matrices and the bias row, and stores the layer's value over the whole output block —
  the launch's payload: agg·Wrelᵀ + x·Wrootᵀ + b, followed in the first two launches by max(·, 0).
  Stated here: what the output block holds after the body as a function of the five input blocks, the body's
  triple, the launch's proof data (every input window keeps its block, the output window holds that function of
  the blocks at the point), and the obligation the launch rule asks at every point.
-/
import proofs.«415663_j86775519249037_1_alg».proof.Proof.Kernel.LaunchP
import proofs.«415663_j86775519249037_1_alg».proof.Proof.Gen.Kernel.Skeleton
import proofs.«415663_j86775519249037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: an unfetched window's
    block index has not moved.  One statement per window (the windows' block types differ). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rRows2 : Rect S5000x64 := Rect.unit (s := S5000x64) ![0, 0] S5000x64.size inb_S5000x64_S5000x64_0_0
abbrev rSq2 : Rect S64x64 := Rect.unit (s := S64x64) ![0, 0] S64x64.size inb_S64x64_S64x64_0_0
abbrev rRow2 : Rect S1x64 := Rect.unit (s := S1x64) ![0, 0] S1x64.size inb_S1x64_S1x64_0_0

/-- The output block after the body: its one whole-block store, over the five input blocks. -/
def out2_5 (xa xf : Vec F S5000x64 .f32) (wr : Vec F S64x64 .f32) (b : Vec F S1x64 .f32) (wo : Vec F S64x64 .f32) : Vec F S5000x64 .f32 :=
  View.canon [⟨rRows2, k2_pay1 (View.ld xa rRows2) (View.ld xf rRows2) (View.ld wr rSq2) (View.ld wo rSq2) (View.ld b rRow2)⟩]

theorem cover2_5 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body on whole staging memrefs: the inputs at read contents, the output at anything; it returns the inputs
    as they were and the output at out2_5 of them. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (xa xf : Vec F S5000x64 .f32) (wr : Vec F S64x64 .f32) (b : Vec F S1x64 .f32) (wo : Vec F S64x64 .f32) (K : PUnit → sProp 𝕄) :
    iprop(owns (c : Thread nD τ) arg1 fullShare xa ∗ owns (c : Thread nD τ) arg2 fullShare xf ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare xa ∗ owns (c : Thread nD τ) arg2 fullShare xf ∗ owns (c : Thread nD τ) arg3 fullShare wr
            ∗ owns (c : Thread nD τ) arg4 fullShare b ∗ owns (c : Thread nD τ) arg5 fullShare wo
            ∗ owns (c : Thread nD τ) arg6 fullShare (out2_5 xa xf wr b wo)) -∗ K ⟨⟩))
      ⊢ wp frame (wpE (defs₀ (F := F)) Variants.none c none) E (cc2__graphconv_kernel i arg1 harg1 arg2 harg2 arg3 harg3 arg4 harg4 arg5 harg5 arg6 harg6) K := by
  simp only [cc2__graphconv_kernel_eq_skeleton]; unfold cc2__graphconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-- The launch's proof data on core c: the arrays as the launch finds them; after the body at point t every input
    window at its block and the output window at out2_5 of the blocks; the scoped rest and the generator register
    pass through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Pool.lean ====
/-
  The pooling launch of the kernel program, at a parameter V (the buffer contents the launch is entered with).
  Grid point t handles nodes 5000·t … 5000·t+4999.  Two scratch buffers are carried from point to point: the
  per-graph feature sums (64 × 64) and the per-graph node counts (64 × 1).  Point 0 first zeroes both; every
  point adds its block's contribution (the one-hot of the batch column, transposed, times max(emb, 0), and times
  a column of ones); the last point divides the sums by max(count, 1), applies the two linear maps and stores the
  64 × 32 result, which is written back once, after that point.
  S3 n, C3 n are the two scratch buffers after point n; out3_6 is what the last point stores.
-/
import proofs.«415663_j86775519249037_1_alg».proof.Proof.Kernel.LaunchP
import proofs.«415663_j86775519249037_1_alg».proof.Proof.Gen.Kernel.Skeleton
import proofs.«415663_j86775519249037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Grid point number n (a number past the grid reads as point 0; never used there). -/
def pt3 (n : ℕ) : Fin cfg3.N := if h : n < cfg3.N then ⟨n, h⟩ else ⟨0, by decide⟩

theorem pt3_val (t : Fin cfg3.N) : pt3 t.val = t := by unfold pt3; rw [dif_pos t.isLt]

/-- The feature-sum scratch after point n: point 0 starts from the zero store, a later point from what the
    point before left. -/
def S3 (c : Dev nD) : ℕ → Vec F S64x64 .f32
  | 0 => k3_pay4 (iblk3 V c 0 (pt3 0)) (iblk3 V c 1 (pt3 0)) (k3_pay1 (F := F))
  | n + 1 => k3_pay4 (iblk3 V c 0 (pt3 (n + 1))) (iblk3 V c 1 (pt3 (n + 1))) (S3 c n)

/-- The node-count scratch after point n. -/
def C3 (c : Dev nD) : ℕ → Vec F S64x1 .f32
  | 0 => k3_pay5 (iblk3 V c 1 (pt3 0)) (k3_pay2 (F := F))
  | n + 1 => k3_pay5 (iblk3 V c 1 (pt3 (n + 1))) (C3 c n)

/-- What the last point stores into the output window's buffer. -/
def out3_6 (c : Dev nD) : Vec F S64x32 .f32 :=
  k3_pay6 (S3 V c 9) (C3 V c 9) (iblk3 V c 2 (pt3 9)) (iblk3 V c 4 (pt3 9)) (iblk3 V c 3 (pt3 9)) (iblk3 V c 5 (pt3 9))

abbrev sc0 : Memref sig .tc .vmem S64x64 .f32 := Memref.whole cc3_scratch0
abbrev sc1 : Memref sig .tc .vmem S64x1 .f32 := Memref.whole cc3_scratch1

/-- The two scratch buffers before point n: before the first point at anything, later at what point n-1 left. -/
def scr3 (c : Dev nD) : ℕ → sProp 𝕄
  | 0 => iprop((∃ f, owns (c : Thread nD τ) sc0 fullShare f) ∗ (∃ f, owns (c : Thread nD τ) sc1 fullShare f))
  | n + 1 => iprop(owns (c : Thread nD τ) sc0 fullShare (S3 V c n) ∗ owns (c : Thread nD τ) sc1 fullShare (C3 V c n))

/-- The launch's invariant before point n: every other scoped buffer at anything, the generator register at some
    state, the two scratch buffers as scr3 says. -/
def Φ3 (c : Dev nD) (n : ℕ) : sProp 𝕄 :=
  iprop(Pipeline.scopedRestBut (Ix := Unit) (Name := ℕ) (U := UR sig nD τ) (Lvl := ℕ) (Val := Elt F) spec3 c [cc3_scratch0, cc3_scratch1]
    ∗ (∃ r, prngReg c r) ∗ scr3 V c n)

/-- The launch's proof data on core c. The output window's contents are named only where they are written back
    (after the last point); at the other points the window is idle and the name is not read. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 V c
  Φ t := Φ3 V c t.val
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 V c := by dsimp only [dat3]

/-- The body's first test (is this the first point?), from the grid coordinates. -/
abbrev cond3_1 (i : grid3.Coords) : Prop :=
  (Scalar.cmpi .ne (Scalar.extui (Scalar.cmpi .eq (BitVec.ofNat 32 (i 0).val) 0#32)) 0#32) = 1#1
/-- The body's second test (is this the last point?). -/
abbrev cond3_2 (i : grid3.Coords) : Prop := k3_cond2 i = 1#1

/-- The first test holds at point 0 only, the second at point 9 only: decided over the ten points. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 9 :=
  (by decide +kernel : ∀ t : Fin grid3.N, cond3_2 (grid3.coords t) ↔ t.val = 9)

/-- Where the second test fails the output window is idle and not written back; where it holds the window is live. -/
theorem idleAt3_6 : ∀ t : Fin cfg3.N, ¬cond3_2 (grid3.coords t) → cfg3.idle 6 (grid3.coords t) = true :=
  (by decide +kernel : ∀ t : Fin grid3.N, ¬cond3_2 (grid3.coords t) → idle3 6 (grid3.coords t) = true)
theorem noFlush3_6 : ∀ t : Fin cfg3.N, ¬cond3_2 (grid3.coords t) → (cfg3.win 6).flush t = false :=
  (by decide +kernel : ∀ t : Fin grid3.N, ¬cond3_2 (grid3.coords t) → win3_6.flush t = false)
theorem liveAt3_6 : ∀ t : Fin cfg3.N, cond3_2 (grid3.coords t) → cfg3.idle 6 (grid3.coords t) = false :=
  (by decide +kernel : ∀ t : Fin grid3.N, cond3_2 (grid3.coords t) → idle3 6 (grid3.coords t) = false)

/-- The offsets of every load and store of the body are zero. -/
theorem hz3 : (![0, 0] : Fin 2 → Nat) = fun _ => 0 := funext fun a => by fin_cases a <;> rfl

/-- A load of a whole buffer through the whole-shape rectangle at zero offsets reads its contents. -/
theorem readAt_unit_zero3 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- After stores the last of which goes through that rectangle, the buffer reads as the last payload. -/
theorem read_writes_cons_unit_zero3 {κ : Kind} {sp : Space} {S : Shape} {e : EltTy} (v : View sig κ sp S e) (f : v.ty.Contents (Elt F))
    {off : Fin S.rank → Nat} (h : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P := by
  rw [View.read_writes_eq_canon _ _ _ (fun y => ⟨_, List.mem_cons_self .., View.mem_set_unit_zero h inb y⟩),
    View.canon_cons_unit_zero h]

/-- Reads every whole-block load as the contents loaded, every load of a buffer just stored whole as the payload
    stored, and a buffer after whole-block stores as the last payload. -/
local macro "close_whole" : tactic => `(tactic| (sl_unfold_words; simp only [
  readAt_unit_zero3 (S := S5000x64) _ _ hz3,
  readAt_unit_zero3 (S := S5000x1) _ _ hz3,
  readAt_unit_zero3 (S := S64x64) _ _ hz3,
  readAt_unit_zero3 (S := S64x1) _ _ hz3,
  readAt_unit_zero3 (S := S64x32) _ _ hz3,
  readAt_unit_zero3 (S := S1x64) _ _ hz3,
  readAt_unit_zero3 (S := S1x32) _ _ hz3,
  View.readCov_unit_zero (S := S64x64) _ hz3, View.readCov_unit_zero (S := S64x1) _ hz3,
  read_writes_cons_unit_zero3 (S := S64x64) _ _ hz3, read_writes_cons_unit_zero3 (S := S64x1) _ _ hz3,
  read_writes_cons_unit_zero3 (S := S64x32) _ _ hz3]))

set_option maxHeartbeats 1000000 in
/-- The body at a point that is neither first nor last, on whole memrefs: it reads the two blocks and the two
    scratch buffers and leaves each scratch at its update; the other buffers are not touched. -/
theorem sound_kernel3_mid (c : Dev nD) (E : Set ℕ) (i : grid3.Coords) (hc1 : ¬cond3_1 i) (hc2 : ¬cond3_2 i)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S64x64 .f32) (harg8 : arg8.IsWhole)
    (arg9 : Memref sig .tc .vmem S64x1 .f32) (harg9 : arg9.IsWhole)
    (e : Vec F S5000x64 .f32) (bt : Vec F S5000x1 .i32) (s : Vec F S64x64 .f32) (cn : Vec F S64x1 .f32) (K : PUnit → sProp 𝕄) :
    iprop(owns (c : Thread nD τ) arg1 fullShare e ∗ owns (c : Thread nD τ) arg2 fullShare bt
        ∗ owns (c : Thread nD τ) arg8 fullShare s ∗ owns (c : Thread nD τ) arg9 fullShare cn
        ∗ (iprop(owns (c : Thread nD τ) arg1 fullShare e ∗ owns (c : Thread nD τ) arg2 fullShare bt
            ∗ owns (c : Thread nD τ) arg8 fullShare (k3_pay4 e bt s) ∗ owns (c : Thread nD τ) arg9 fullShare (k3_pay5 bt cn)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f1, %hf1, H1⟩, ⟨%f2, %hf2, H2⟩, ⟨%f8, %hf8, H8⟩, ⟨%f9, %hf9, H9⟩, Hk⟩
  subst hf1 hf2 hf8 hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    close_whole
  iexists _; isplitr
  swap; · iexact H9
  ipureintro
  close_whole

set_option maxHeartbeats 1000000 in
/-- The body at the first point: both scratch buffers, found at anything, are zeroed and then updated. -/
theorem sound_kernel3_first (c : Dev nD) (E : Set ℕ) (i : grid3.Coords) (hc1 : cond3_1 i) (hc2 : ¬cond3_2 i)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S64x64 .f32) (harg8 : arg8.IsWhole)
    (arg9 : Memref sig .tc .vmem S64x1 .f32) (harg9 : arg9.IsWhole)
    (e : Vec F S5000x64 .f32) (bt : Vec F S5000x1 .i32) (K : PUnit → sProp 𝕄) :
    iprop(owns (c : Thread nD τ) arg1 fullShare e ∗ owns (c : Thread nD τ) arg2 fullShare bt
        ∗ (∃ s, owns (c : Thread nD τ) arg8 fullShare s) ∗ (∃ cn, owns (c : Thread nD τ) arg9 fullShare cn)
        ∗ (iprop(owns (c : Thread nD τ) arg1 fullShare e ∗ owns (c : Thread nD τ) arg2 fullShare bt
            ∗ owns (c : Thread nD τ) arg8 fullShare (k3_pay4 e bt (k3_pay1 (F := F)))
            ∗ owns (c : Thread nD τ) arg9 fullShare (k3_pay5 bt (k3_pay2 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f1, %hf1, H1⟩, ⟨%f2, %hf2, H2⟩, ⟨%d8, %f8, -, H8⟩, ⟨%d9, %f9, -, H9⟩, Hk⟩
  subst hf1 hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    close_whole
  iexists _; isplitr
  swap; · iexact H9
  ipureintro
  close_whole

set_option maxHeartbeats 1000000 in
/-- The body at the last point: after the two updates it reads both scratch buffers and the four parameter
    blocks and stores the result over the whole output block, found at anything. -/
theorem sound_kernel3_last (c : Dev nD) (E : Set ℕ) (i : grid3.Coords) (hc1 : ¬cond3_1 i) (hc2 : cond3_2 i)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S64x64 .f32) (harg8 : arg8.IsWhole)
    (arg9 : Memref sig .tc .vmem S64x1 .f32) (harg9 : arg9.IsWhole)
    (e : Vec F S5000x64 .f32) (bt : Vec F S5000x1 .i32) (a3 : Vec F S64x64 .f32) (a4 : Vec F S1x64 .f32)
    (a5 : Vec F S64x32 .f32) (a6 : Vec F S1x32 .f32) (s : Vec F S64x64 .f32) (cn : Vec F S64x1 .f32) (K : PUnit → sProp 𝕄) :
    iprop(owns (c : Thread nD τ) arg1 fullShare e ∗ owns (c : Thread nD τ) arg2 fullShare bt
        ∗ owns (c : Thread nD τ) arg3 fullShare a3 ∗ owns (c : Thread nD τ) arg4 fullShare a4
        ∗ owns (c : Thread nD τ) arg5 fullShare a5 ∗ owns (c : Thread nD τ) arg6 fullShare a6
        ∗ (∃ d, owns (c : Thread nD τ) arg7 fullShare d)
        ∗ owns (c : Thread nD τ) arg8 fullShare s ∗ owns (c : Thread nD τ) arg9 fullShare cn
        ∗ (iprop(owns (c : Thread nD τ) arg1 fullShare e ∗ owns (c : Thread nD τ) arg2 fullShare bt
            ∗ owns (c : Thread nD τ) arg3 fullShare a3 ∗ owns (c : Thread nD τ) arg4 fullShare a4
            ∗ owns (c : Thread nD τ) arg5 fullShare a5 ∗ owns (c : Thread nD τ) arg6 fullShare a6
            ∗ owns (c : Thread nD τ) arg7 fullShare (k3_pay6 (k3_pay4 e bt s) (k3_pay5 bt cn) a3 a5 a4 a6)
            ∗ owns (c : Thread nD τ) arg8 fullShare (k3_pay4 e bt s) ∗ owns (c : Thread nD τ) arg9 fullShare (k3_pay5 bt cn)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1 hf2 hf3 hf4 hf5 hf6 hf8 hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    close_whole
  isplitl [H8]
  · iexists _; isplitr
    swap; · iexact H8
    ipureintro
    close_whole
  iexists _; isplitr
  swap; · iexact H9
  ipureintro
  close_whole

/-- An input window's staging buffer holds its block at every point, fetched there or not: an unfetched window's
    block index has not moved.  One statement per window (the windows' block types differ). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- Point number n is the point whose number is n. -/
theorem pt3_of_val (t : Fin cfg3.N) (n : ℕ) (h : t.val = n) : pt3 n = t := by subst h; exact pt3_val t

/-- The scratch buffers after a point, over that point's blocks. -/
theorem S3_zero (c : Dev nD) (t : Fin cfg3.N) (h : t.val = 0) :
    S3 V c 0 = k3_pay4 (iblk3 V c 0 t) (iblk3 V c 1 t) (k3_pay1 (F := F)) := by
  rw [S3, pt3_of_val t 0 h]
theorem C3_zero (c : Dev nD) (t : Fin cfg3.N) (h : t.val = 0) :
    C3 V c 0 = k3_pay5 (iblk3 V c 1 t) (k3_pay2 (F := F)) := by
  rw [C3, pt3_of_val t 0 h]
theorem S3_succ (c : Dev nD) (t : Fin cfg3.N) (n : ℕ) (h : t.val = n + 1) :
    S3 V c (n + 1) = k3_pay4 (iblk3 V c 0 t) (iblk3 V c 1 t) (S3 V c n) := by
  rw [S3, pt3_of_val t (n + 1) h]
theorem C3_succ (c : Dev nD) (t : Fin cfg3.N) (n : ℕ) (h : t.val = n + 1) :
    C3 V c (n + 1) = k3_pay5 (iblk3 V c 1 t) (C3 V c n) := by
  rw [C3, pt3_of_val t (n + 1) h]

/-- What the last point stores, over that point's blocks and the scratch the point before left. -/
theorem out3_6_at (c : Dev nD) (t : Fin cfg3.N) (h : t.val = 8 + 1) :
    out3_6 V c = k3_pay6 (k3_pay4 (iblk3 V c 0 t) (iblk3 V c 1 t) (S3 V c 8)) (k3_pay5 (iblk3 V c 1 t) (C3 V c 8))
      (iblk3 V c 2 t) (iblk3 V c 4 t) (iblk3 V c 3 t) (iblk3 V c 5 t) := by
  unfold out3_6
  rw [show S3 V c 9 = S3 V c (8 + 1) from rfl, show C3 V c 9 = C3 V c (8 + 1) from rfl, S3_succ V c t 8 h, C3_succ V c t 8 h,
    pt3_of_val t 9 h]

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns: every input window at its block; the output window at what the last point stores, or,
    at the other points, as it was found. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

set_option maxHeartbeats 2000000 in
/-- The body at point t, by cases on the point: the first, the last, or one between. The scratch buffers come
    from the invariant at what the point before left (at anything before the first point) and go back into it at
    this point's update. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl,
    show (dat3 V c).Φ t.castSucc = Φ3 V c t.val from rfl, show (dat3 V c).Φ t.succ = Φ3 V c (t.val + 1) from rfl,
    after3_0, after3_1, after3_2, after3_3, after3_4, after3_5]
  unfold Φ3
  have hN : t.val < 10 := lt_of_lt_of_eq t.isLt (show cfg3.N = 10 from N_3)
  by_cases h0 : t.val = 0
  · have hc1 : cond3_1 (grid3.coords t) := (hcond3_1 t).mpr h0
    have hc2 : ¬cond3_2 (grid3.coords t) := fun h => by have := (hcond3_2 t).mp h; omega
    rw [Dat.leavesExact_idle (dat3 V c) 6 t (idleAt3_6 t hc2) (noFlush3_6 t hc2)]
    rw [h0]; simp only [scr3]
    rw [S3_zero V c t h0, C3_zero V c t h0]
    iintro ⟨⟨Hr, Hg, Hs0, Hs1⟩, Ho, ⟨%d0, H0⟩, ⟨%d1, H1⟩, ⟨%d2, H2⟩, ⟨%d3, H3⟩, ⟨%d4, H4⟩, ⟨%d5, H5⟩, H6⟩
    iapply (sound_kernel3_first c Set.univ (grid3.coords t) hc1 hc2 _ _ _ _ _ _ _ _ _ _ _ _ _ _ _ _ _ _ (iblk3 V c 0 t) (iblk3 V c 1 t) _)
    isplitl [H0]; · iexact H0
    isplitl [H1]; · iexact H1
    isplitl [Hs0]; · iexact Hs0
    isplitl [Hs1]; · iexact Hs1
    iintro ⟨H0, H1, Hs0, Hs1⟩
    isplitl [Hr Hg Hs0 Hs1]
    · isplitl [Hr]; · iexact Hr
      isplitl [Hg]; · iexact Hg
      isplitl [Hs0]; · iexact Hs0
      iexact Hs1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero h0
    have hc1 : ¬cond3_1 (grid3.coords t) := fun h => h0 ((hcond3_1 t).mp h)
    by_cases h9 : t.val = 9
    · have hc2 : cond3_2 (grid3.coords t) := (hcond3_2 t).mpr h9
      obtain rfl : n = 8 := by omega
      rw [show (dat3 V c).leavesExact 6 t = owns (c : Thread nD τ) (st3_6 t) fullShare ((dat3 V c).after 6 t) from by
        unfold Dat.leavesExact; rw [liveAt3_6 t hc2], after3_6, out3_6_at V c t hn]
      rw [hn]; simp only [scr3]
      rw [S3_succ V c t 8 hn, C3_succ V c t 8 hn]
      iintro ⟨⟨Hr, Hg, Hs0, Hs1⟩, Ho, ⟨%d0, H0⟩, ⟨%d1, H1⟩, ⟨%d2, H2⟩, ⟨%d3, H3⟩, ⟨%d4, H4⟩, ⟨%d5, H5⟩, ⟨%d6, H6⟩⟩
      iapply (sound_kernel3_last c Set.univ (grid3.coords t) hc1 hc2 _ _ _ _ _ _ _ _ _ _ _ _ _ _ _ _ _ _ (iblk3 V c 0 t) (iblk3 V c 1 t)
        (iblk3 V c 2 t) (iblk3 V c 3 t) (iblk3 V c 4 t) (iblk3 V c 5 t) (S3 V c 8) (C3 V c 8) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [Hs0]; · iexact Hs0
      isplitl [Hs1]; · iexact Hs1
      iintro ⟨H0, H1, H2, H3, H4, H5, H6, Hs0, Hs1⟩
      isplitl [Hr Hg Hs0 Hs1]
      · isplitl [Hr]; · iexact Hr
        isplitl [Hg]; · iexact Hg
        isplitl [Hs0]; · iexact Hs0
        iexact Hs1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond3_2 (grid3.coords t) := fun h => h9 ((hcond3_2 t).mp h)
      rw [Dat.leavesExact_idle (dat3 V c) 6 t (idleAt3_6 t hc2) (noFlush3_6 t hc2)]
      rw [hn]; simp only [scr3]
      rw [S3_succ V c t n hn, C3_succ V c t n hn]
      iintro ⟨⟨Hr, Hg, Hs0, Hs1⟩, Ho, ⟨%d0, H0⟩, ⟨%d1, H1⟩, ⟨%d2, H2⟩, ⟨%d3, H3⟩, ⟨%d4, H4⟩, ⟨%d5, H5⟩, H6⟩
      iapply (sound_kernel3_mid c Set.univ (grid3.coords t) hc1 hc2 _ _ _ _ _ _ _ _ _ _ _ _ _ _ _ _ _ _ (iblk3 V c 0 t) (iblk3 V c 1 t)
        (S3 V c n) (C3 V c n) _)
      isplitl [H0]; · iexact H0
      isplitl [H1]; · iexact H1
      isplitl [Hs0]; · iexact Hs0
      isplitl [Hs1]; · iexact Hs1
      iintro ⟨H0, H1, Hs0, Hs1⟩
      isplitl [Hr Hg Hs0 Hs1]
      · isplitl [Hr]; · iexact Hr
        isplitl [Hg]; · iexact Hg
        isplitl [Hs0]; · iexact Hs0
        iexact Hs1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The invariant before the first point, from the generator register and the launch's scoped rest. -/
theorem Φ3_in (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = Φ3 V c 0 from rfl, scopedRest3_split]
  unfold Φ3; simp only [scr3, sc0, sc1, owns_whole]
  iintro ⟨Hg, ⟨Hs0, Hs1⟩, Hr⟩
  isplitl [Hr]; · iexact Hr
  isplitl [Hg]; · iexact Hg
  isplitl [Hs0]; · iexact Hs0
  iexact Hs1

/-- The invariant after the last point gives both back. -/
theorem Φ3_out (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Φ3 V c (9 + 1) from rfl, scopedRest3_split]
  unfold Φ3; simp only [scr3, sc0, sc1, owns_whole]
  iintro ⟨Hr, Hg, Hs0, Hs1⟩
  isplitl [Hg]; · iexact Hg
  isplitr [Hr]
  · isplitl [Hs0]
    · iexists _; iexact Hs0
    iexists _; iexact Hs1
  iexact Hr

/-- The obligation the launch rule asks at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Walk.lean ====
/-
  The buffer contents at every boundary of the kernel program's @main, as a fold from the launch memory: a stretch
  of host operations applies them in order; a launch leaves each of its arrays at what its write-backs leave (an
  input array as entered) and every other buffer as entered.
  W0 launch · W1 after the first stretch · W2 after launch 0 · … · W7 after the last stretch · W8 after launch 3.
-/
import proofs.«415663_j86775519249037_1_alg».proof.Proof.Kernel.Conv0
import proofs.«415663_j86775519249037_1_alg».proof.Proof.Kernel.Conv1
import proofs.«415663_j86775519249037_1_alg».proof.Proof.Kernel.Conv2
import proofs.«415663_j86775519249037_1_alg».proof.Proof.Kernel.Pool

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core c's buffers at launch. -/
abbrev W0 : Dev nD → Valuation τ sig (Elt F) := fun c b => m (c, b)

/-- After the host stretch before launch 0. -/
abbrev W1 : Dev nD → Valuation τ sig (Elt F) := fun c => StableHlo.after hostOps0 (W0 m c)
/-- The same read at the TensorCore's references: what launch 0 is entered with. -/
abbrev V1 : (c : Dev nD) → (b : Ref sig .tc) → Buf (Elt F) ((c : Thread nD τ).loc b) := fun c b => W1 m c b
/-- After launch 0. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before launch 1. -/
abbrev W3 : Dev nD → Valuation τ sig (Elt F) := fun c => StableHlo.after hostOps1 (W2 m c)
/-- The same read at the TensorCore's references: what launch 1 is entered with. -/
abbrev V3 : (c : Dev nD) → (b : Ref sig .tc) → Buf (Elt F) ((c : Thread nD τ).loc b) := fun c b => W3 m c b
/-- After launch 1. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before launch 2. -/
abbrev W5 : Dev nD → Valuation τ sig (Elt F) := fun c => StableHlo.after hostOps2 (W4 m c)
/-- The same read at the TensorCore's references: what launch 2 is entered with. -/
abbrev V5 : (c : Dev nD) → (b : Ref sig .tc) → Buf (Elt F) ((c : Thread nD τ).loc b) := fun c b => W5 m c b
/-- After launch 2. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch before launch 3. -/
abbrev W7 : Dev nD → Valuation τ sig (Elt F) := fun c => StableHlo.after hostOps3 (W6 m c)
/-- The same read at the TensorCore's references: what launch 3 is entered with. -/
abbrev V7 : (c : Dev nD) → (b : Ref sig .tc) → Buf (Elt F) ((c : Thread nD τ).loc b) := fun c b => W7 m c b
/-- After launch 3. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

end Cert.Kernel.Hand

end
-- ==== Proof.Kernel.Run.lean ====
/-
  The kernel program's run as a whole: @main is four stretches of host operations, each followed by a launch.  Every
  weakly fair execution terminates, and in the final memory every unscoped buffer holds what the fold W8 says.
-/
import proofs.«415663_j86775519249037_1_alg».proof.Proof.Kernel.Walk

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches allocate (nothing) and write -/

/-- No operation of stretch 0 allocates a buffer. -/
theorem hostOps0_fresh : (hostOps0 : List (HloOp τ sig (Elt F))).Forall fun op => op.fresh = ∅ := by
  simp only [List.Forall]; repeat' constructor
/-- The references stretch 0 writes, in order. -/
abbrev wr0 : List (Ref sig .tc) := [main_v0, main_v1, main_v2, main_v3, main_v4, main_v5, main_v6, main_v7, main_v8, main_v9, main_v10, main_v11, main_v12, main_c, main_v13, main_v14, main_c_0, main_v15, main_v16, main_v17, main_v18, main_v19, main_cst, main_v20, main_v21, main_v22, main_v23]
/-- Every operation of stretch 0 writes one of them. -/
theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of stretch 1 allocates a buffer. -/
theorem hostOps1_fresh : (hostOps1 : List (HloOp τ sig (Elt F))).Forall fun op => op.fresh = ∅ := by
  simp only [List.Forall]; repeat' constructor
/-- The references stretch 1 writes, in order. -/
abbrev wr1 : List (Ref sig .tc) := [main_c_1, main_v25, main_v26, main_c_2, main_v27, main_v28, main_v29, main_v30, main_v31, main_cst_3, main_v32, main_v33, main_v34, main_v35]
/-- Every operation of stretch 1 writes one of them. -/
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of stretch 2 allocates a buffer. -/
theorem hostOps2_fresh : (hostOps2 : List (HloOp τ sig (Elt F))).Forall fun op => op.fresh = ∅ := by
  simp only [List.Forall]; repeat' constructor
/-- The references stretch 2 writes, in order. -/
abbrev wr2 : List (Ref sig .tc) := [main_c_4, main_v37, main_v38, main_c_5, main_v39, main_v40, main_v41, main_v42, main_v43, main_cst_6, main_v44, main_v45, main_v46, main_v47]
/-- Every operation of stretch 2 writes one of them. -/
theorem hostOps2_writes : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of stretch 3 allocates a buffer. -/
theorem hostOps3_fresh : (hostOps3 : List (HloOp τ sig (Elt F))).Forall fun op => op.fresh = ∅ := by
  simp only [List.Forall]; repeat' constructor
/-- The references stretch 3 writes, in order. -/
abbrev wr3 : List (Ref sig .tc) := [main_v49, main_v50]
/-- Every operation of stretch 3 writes one of them. -/
theorem hostOps3_writes : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## The proof data family and the thread state -/

/-- The prefetched tables' admissible contents: no launch has a table. -/
abbrev adm : (p : Fin 4) → (pcfgs (F := F) p).Adm := fun p => (cfgs p).toPCfg_adm
/-- Every launch's proof data, each at the contents its launch is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    none. -/
abbrev R (c : Dev nD) : sProp 𝕄 := iprop((∃ r, prngReg c r) ∗ ∃ W, owes (c : Thread nD τ) (0 : CellTallies nD τ sig Unit) W)
/-- A host stretch as a segment over the unscoped references from the contents W, R riding along; it ends at those
    references after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- LAUNCH 0 over the thread state: entered from every unscoped buffer at W1, left at W2.  Its arrays are split out
    of the unscoped buffers and put back at the exit contents; the generator register goes into the launch's invariant
    and comes out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at W3, left at W4.  Its arrays are split out
    of the unscoped buffers and put back at the exit contents; the generator register goes into the launch's invariant
    and comes out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at W5, left at W6.  Its arrays are split out
    of the unscoped buffers and put back at the exit contents; the generator register goes into the launch's invariant
    and comes out of it; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 3 over the thread state: entered from every unscoped buffer at W7, left at W8.  Its arrays are split out
    of the unscoped buffers and put back at the exit contents; the generator register goes into the launch's invariant
    and comes out of it; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Φ3_in (V7 m) c)
    iintro ⟨Hp, -, Hr⟩
    isplitl [Hp]; · iexact Hp
    iexact Hr
  hout c := by
    rw [Pipeline.ownSems0_none]
    refine (Φ3_out (V7 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch of the program -/

/-- @main's eight segments in order: a host segment per stretch from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments: it is the chain of its items, and the segments' run is that chain. -/
theorem main_run (c : Dev nD) : main (F := F) c = Pipeline.Seg.run (segs m) := (main_chain c).trans (by chain_rfl)

set_option backward.isDefEq.respectTransparency.types false in
/-- THE RUN: every weakly fair execution of @main from memory m with zero counters terminates, nothing faulting, and
    every unscoped TensorCore buffer ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W8 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

/-! ## The fold read at particular buffers -/

/-- A buffer no stretch writes and no launch has among its arrays ends as launched. -/
theorem W8_walk (c : Dev nD) (r : Ref sig .tc)
    (h0 : r ∉ wr0) (a0 : ∀ w, Pipeline.arrRef spec0 w ≠ r) (h1 : r ∉ wr1) (a1 : ∀ w, Pipeline.arrRef spec1 w ≠ r)
    (h2 : r ∉ wr2) (a2 : ∀ w, Pipeline.arrRef spec2 w ≠ r) (h3 : r ∉ wr3) (a3 : ∀ w, Pipeline.arrRef spec3 w ≠ r) :
    W8 m c (Proc.devRef .tc r) = m ((c : Thread nD τ).loc r) :=
  calc W8 m c (Proc.devRef .tc r)
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

/-- The first argument is launch 0's second input array: read at that launch's exit it is as entered; nothing else
    touches it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  W8_walk m c main_arg1 (by decide) (by decide) (by decide) (by decide) (by decide) (by decide) (by decide) (by decide)
theorem W8_main_arg2 (c : Dev nD) : W8 m c (Proc.devRef .tc main_arg2) = m ((c : Thread nD τ).loc main_arg2) :=
  W8_walk m c main_arg2 (by decide) (by decide) (by decide) (by decide) (by decide) (by decide) (by decide) (by decide)
theorem W8_main_arg3 (c : Dev nD) : W8 m c (Proc.devRef .tc main_arg3) = m ((c : Thread nD τ).loc main_arg3) :=
  W8_walk m c main_arg3 (by decide) (by decide) (by decide) (by decide) (by decide) (by decide) (by decide) (by decide)
theorem W8_main_arg4 (c : Dev nD) : W8 m c (Proc.devRef .tc main_arg4) = m ((c : Thread nD τ).loc main_arg4) :=
  W8_walk m c main_arg4 (by decide) (by decide) (by decide) (by decide) (by decide) (by decide) (by decide) (by decide)
theorem W8_main_arg5 (c : Dev nD) : W8 m c (Proc.devRef .tc main_arg5) = m ((c : Thread nD τ).loc main_arg5) :=
  W8_walk m c main_arg5 (by decide) (by decide) (by decide) (by decide) (by decide) (by decide) (by decide) (by decide)
theorem W8_main_arg6 (c : Dev nD) : W8 m c (Proc.devRef .tc main_arg6) = m ((c : Thread nD τ).loc main_arg6) :=
  W8_walk m c main_arg6 (by decide) (by decide) (by decide) (by decide) (by decide) (by decide) (by decide) (by decide)
theorem W8_main_arg7 (c : Dev nD) : W8 m c (Proc.devRef .tc main_arg7) = m ((c : Thread nD τ).loc main_arg7) :=
  W8_walk m c main_arg7 (by decide) (by decide) (by decide) (by decide) (by decide) (by decide) (by decide) (by decide)
theorem W8_main_arg8 (c : Dev nD) : W8 m c (Proc.devRef .tc main_arg8) = m ((c : Thread nD τ).loc main_arg8) :=
  W8_walk m c main_arg8 (by decide) (by decide) (by decide) (by decide) (by decide) (by decide) (by decide) (by decide)
theorem W8_main_arg9 (c : Dev nD) : W8 m c (Proc.devRef .tc main_arg9) = m ((c : Thread nD τ).loc main_arg9) :=
  W8_walk m c main_arg9 (by decide) (by decide) (by decide) (by decide) (by decide) (by decide) (by decide) (by decide)
theorem W8_main_arg10 (c : Dev nD) : W8 m c (Proc.devRef .tc main_arg10) = m ((c : Thread nD τ).loc main_arg10) :=
  W8_walk m c main_arg10 (by decide) (by decide) (by decide) (by decide) (by decide) (by decide) (by decide) (by decide)
theorem W8_main_arg11 (c : Dev nD) : W8 m c (Proc.devRef .tc main_arg11) = m ((c : Thread nD τ).loc main_arg11) :=
  W8_walk m c main_arg11 (by decide) (by decide) (by decide) (by decide) (by decide) (by decide) (by decide) (by decide)
theorem W8_main_arg12 (c : Dev nD) : W8 m c (Proc.devRef .tc main_arg12) = m ((c : Thread nD τ).loc main_arg12) :=
  W8_walk m c main_arg12 (by decide) (by decide) (by decide) (by decide) (by decide) (by decide) (by decide) (by decide)
theorem W8_main_arg13 (c : Dev nD) : W8 m c (Proc.devRef .tc main_arg13) = m ((c : Thread nD τ).loc main_arg13) :=
  W8_walk m c main_arg13 (by decide) (by decide) (by decide) (by decide) (by decide) (by decide) (by decide) (by decide)
theorem W8_main_arg14 (c : Dev nD) : W8 m c (Proc.devRef .tc main_arg14) = m ((c : Thread nD τ).loc main_arg14) :=
  W8_walk m c main_arg14 (by decide) (by decide) (by decide) (by decide) (by decide) (by decide) (by decide) (by decide)
theorem W8_main_arg15 (c : Dev nD) : W8 m c (Proc.devRef .tc main_arg15) = m ((c : Thread nD τ).loc main_arg15) :=
  W8_walk m c main_arg15 (by decide) (by decide) (by decide) (by decide) (by decide) (by decide) (by decide) (by decide)

/-- Launch 2's output is launch 3's first input array: at the end it is what launch 2 left. -/
theorem W8_main_v48 (c : Dev nD) : W8 m c (Proc.devRef .tc main_v48) = (dat2 (V5 m) c).arrAt 5 cfg2.N :=
  calc W8 m c (Proc.devRef .tc main_v48)
    _ = W7 m c (Proc.devRef .tc main_v48) := (W8_arr m c 0).trans (((dat3 (V7 m) c).arrAt_in 0 rfl _).trans (A_eq3 (V7 m) c 0))
    _ = W6 m c (Proc.devRef .tc main_v48) := StableHlo.after_of_writes_sub hostOps3 _ hostOps3_writes (by decide)
    _ = (dat2 (V5 m) c).arrAt 5 cfg2.N := W6_arr m c 5

/-- Launch 3's output at the end is what launch 3 left. -/
theorem W8_main_v51 (c : Dev nD) : W8 m c (Proc.devRef .tc main_v51) = (dat3 (V7 m) c).arrAt 6 cfg3.N := W8_arr m c 6

/-- The frame: @main runs, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun r h c =>
    ⟨(h c main_arg0 (by decide)).trans (W8_main_arg0 m c),
     (h c main_arg1 (by decide)).trans (W8_main_arg1 m c),
     (h c main_arg2 (by decide)).trans (W8_main_arg2 m c),
     (h c main_arg3 (by decide)).trans (W8_main_arg3 m c),
     (h c main_arg4 (by decide)).trans (W8_main_arg4 m c),
     (h c main_arg5 (by decide)).trans (W8_main_arg5 m c),
     (h c main_arg6 (by decide)).trans (W8_main_arg6 m c),
     (h c main_arg7 (by decide)).trans (W8_main_arg7 m c),
     (h c main_arg8 (by decide)).trans (W8_main_arg8 m c),
     (h c main_arg9 (by decide)).trans (W8_main_arg9 m c),
     (h c main_arg10 (by decide)).trans (W8_main_arg10 m c),
     (h c main_arg11 (by decide)).trans (W8_main_arg11 m c),
     (h c main_arg12 (by decide)).trans (W8_main_arg12 m c),
     (h c main_arg13 (by decide)).trans (W8_main_arg13 m c),
     (h c main_arg14 (by decide)).trans (W8_main_arg14 m c),
     (h c main_arg15 (by decide)).trans (W8_main_arg15 m c)⟩) (run_all m ρ)

end Cert.Kernel.Hand

end
-- ==== Proof.KernelIdeal.Conv0.lean ====
/-
  One graph-convolution launch of the kernel program, at a parameter V (the buffer contents the launch is entered
  with).  Grid point t handles rows 5000·t … 5000·t+4999: the body loads the aggregated block, the feature block,
  the two transposed weight matrices and the bias row, and stores the layer's value over the whole output block —
  the launch's payload: agg·Wrelᵀ + x·Wrootᵀ + b, followed in the first two launches by max(·, 0).
  Stated here: what the output block holds after the body as a function of the five input blocks, the body's
  triple, the launch's proof data (every input window keeps its block, the output window holds that function of
  the blocks at the point), and the obligation the launch rule asks at every point.
-/
import proofs.«415663_j86775519249037_1_alg».proof.Proof.KernelIdeal.LaunchP
import proofs.«415663_j86775519249037_1_alg».proof.Proof.Gen.KernelIdeal.Skeleton
import proofs.«415663_j86775519249037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved.  One statement per window (the windows' block types differ). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rRows0 : Rect S5000x64 := Rect.unit (s := S5000x64) ![0, 0] S5000x64.size inb_S5000x64_S5000x64_0_0
abbrev rSq0 : Rect S64x64 := Rect.unit (s := S64x64) ![0, 0] S64x64.size inb_S64x64_S64x64_0_0
abbrev rRow0 : Rect S1x64 := Rect.unit (s := S1x64) ![0, 0] S1x64.size inb_S1x64_S1x64_0_0

/-- The output block after the body: its one whole-block store, over the five input blocks. -/
def out0_5 (xa xf : Vec F S5000x64 .f32) (wr : Vec F S64x64 .f32) (b : Vec F S1x64 .f32) (wo : Vec F S64x64 .f32) : Vec F S5000x64 .f32 :=
  View.canon [⟨rRows0, k0_pay1 (View.ld xa rRows0) (View.ld xf rRows0) (View.ld wr rSq0) (View.ld wo rSq0) (View.ld b rRow0)⟩]

theorem cover0_5 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body on whole staging memrefs: the inputs at read contents, the output at anything; it returns the inputs
    as they were and the output at out0_5 of them. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (xa xf : Vec F S5000x64 .f32) (wr : Vec F S64x64 .f32) (b : Vec F S1x64 .f32) (wo : Vec F S64x64 .f32) (K : PUnit → sProp 𝕄) :
    iprop(owns (c : Thread nD τ) arg1 fullShare xa ∗ owns (c : Thread nD τ) arg2 fullShare xf ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare xa ∗ owns (c : Thread nD τ) arg2 fullShare xf ∗ owns (c : Thread nD τ) arg3 fullShare wr
            ∗ owns (c : Thread nD τ) arg4 fullShare b ∗ owns (c : Thread nD τ) arg5 fullShare wo
            ∗ owns (c : Thread nD τ) arg6 fullShare (out0_5 xa xf wr b wo)) -∗ K ⟨⟩))
      ⊢ wp frame (wpE (defs₀ (F := F)) Variants.none c none) E (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-- The launch's proof data on core c: the arrays as the launch finds them; after the body at point t every input
    window at its block and the output window at out0_5 of the blocks; the scoped rest and the generator register
    pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Conv1.lean ====
/-
  One graph-convolution launch of the kernel program, at a parameter V (the buffer contents the launch is entered
  with).  Grid point t handles rows 5000·t … 5000·t+4999: the body loads the aggregated block, the feature block,
  the two transposed weight matrices and the bias row, and stores the layer's value over the whole output block —
  the launch's payload: agg·Wrelᵀ + x·Wrootᵀ + b, followed in the first two launches by max(·, 0).
  Stated here: what the output block holds after the body as a function of the five input blocks, the body's
  triple, the launch's proof data (every input window keeps its block, the output window holds that function of
  the blocks at the point), and the obligation the launch rule asks at every point.
-/
import proofs.«415663_j86775519249037_1_alg».proof.Proof.KernelIdeal.LaunchP
import proofs.«415663_j86775519249037_1_alg».proof.Proof.Gen.KernelIdeal.Skeleton
import proofs.«415663_j86775519249037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: an unfetched window's
    block index has not moved.  One statement per window (the windows' block types differ). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rRows1 : Rect S5000x64 := Rect.unit (s := S5000x64) ![0, 0] S5000x64.size inb_S5000x64_S5000x64_0_0
abbrev rSq1 : Rect S64x64 := Rect.unit (s := S64x64) ![0, 0] S64x64.size inb_S64x64_S64x64_0_0
abbrev rRow1 : Rect S1x64 := Rect.unit (s := S1x64) ![0, 0] S1x64.size inb_S1x64_S1x64_0_0

/-- The output block after the body: its one whole-block store, over the five input blocks. -/
def out1_5 (xa xf : Vec F S5000x64 .f32) (wr : Vec F S64x64 .f32) (b : Vec F S1x64 .f32) (wo : Vec F S64x64 .f32) : Vec F S5000x64 .f32 :=
  View.canon [⟨rRows1, k1_pay1 (View.ld xa rRows1) (View.ld xf rRows1) (View.ld wr rSq1) (View.ld wo rSq1) (View.ld b rRow1)⟩]

theorem cover1_5 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging memrefs: the inputs at read contents, the output at anything; it returns the inputs
    as they were and the output at out1_5 of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (xa xf : Vec F S5000x64 .f32) (wr : Vec F S64x64 .f32) (b : Vec F S1x64 .f32) (wo : Vec F S64x64 .f32) (K : PUnit → sProp 𝕄) :
    iprop(owns (c : Thread nD τ) arg1 fullShare xa ∗ owns (c : Thread nD τ) arg2 fullShare xf ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare xa ∗ owns (c : Thread nD τ) arg2 fullShare xf ∗ owns (c : Thread nD τ) arg3 fullShare wr
            ∗ owns (c : Thread nD τ) arg4 fullShare b ∗ owns (c : Thread nD τ) arg5 fullShare wo
            ∗ owns (c : Thread nD τ) arg6 fullShare (out1_5 xa xf wr b wo)) -∗ K ⟨⟩))
      ⊢ wp frame (wpE (defs₀ (F := F)) Variants.none c none) E (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-- The launch's proof data on core c: the arrays as the launch finds them; after the body at point t every input
    window at its block and the output window at out1_5 of the blocks; the scoped rest and the generator register
    pass through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Conv2.lean ====
/-
  One graph-convolution launch of the kernel program, at a parameter V (the buffer contents the launch is entered
  with).  Grid point t handles rows 5000·t … 5000·t+4999: the body loads the aggregated block, the feature block,
  the two transposed weight matrices and the bias row, and stores the layer's value over the whole output block —
  the launch's payload: agg·Wrelᵀ + x·Wrootᵀ + b, followed in the first two launches by max(·, 0).
  Stated here: what the output block holds after the body as a function of the five input blocks, the body's
  triple, the launch's proof data (every input window keeps its block, the output window holds that function of
  the blocks at the point), and the obligation the launch rule asks at every point.
-/
import proofs.«415663_j86775519249037_1_alg».proof.Proof.KernelIdeal.LaunchP
import proofs.«415663_j86775519249037_1_alg».proof.Proof.Gen.KernelIdeal.Skeleton
import proofs.«415663_j86775519249037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: an unfetched window's
    block index has not moved.  One statement per window (the windows' block types differ). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rRows2 : Rect S5000x64 := Rect.unit (s := S5000x64) ![0, 0] S5000x64.size inb_S5000x64_S5000x64_0_0
abbrev rSq2 : Rect S64x64 := Rect.unit (s := S64x64) ![0, 0] S64x64.size inb_S64x64_S64x64_0_0
abbrev rRow2 : Rect S1x64 := Rect.unit (s := S1x64) ![0, 0] S1x64.size inb_S1x64_S1x64_0_0

/-- The output block after the body: its one whole-block store, over the five input blocks. -/
def out2_5 (xa xf : Vec F S5000x64 .f32) (wr : Vec F S64x64 .f32) (b : Vec F S1x64 .f32) (wo : Vec F S64x64 .f32) : Vec F S5000x64 .f32 :=
  View.canon [⟨rRows2, k2_pay1 (View.ld xa rRows2) (View.ld xf rRows2) (View.ld wr rSq2) (View.ld wo rSq2) (View.ld b rRow2)⟩]

theorem cover2_5 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body on whole staging memrefs: the inputs at read contents, the output at anything; it returns the inputs
    as they were and the output at out2_5 of them. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (xa xf : Vec F S5000x64 .f32) (wr : Vec F S64x64 .f32) (b : Vec F S1x64 .f32) (wo : Vec F S64x64 .f32) (K : PUnit → sProp 𝕄) :
    iprop(owns (c : Thread nD τ) arg1 fullShare xa ∗ owns (c : Thread nD τ) arg2 fullShare xf ∗ owns (c : Thread nD τ) arg3 fullShare wr
        ∗ owns (c : Thread nD τ) arg4 fullShare b ∗ owns (c : Thread nD τ) arg5 fullShare wo ∗ (∃ d, owns (c : Thread nD τ) arg6 fullShare d)
        ∗ (iprop(owns (c : Thread nD τ) arg1 fullShare xa ∗ owns (c : Thread nD τ) arg2 fullShare xf ∗ owns (c : Thread nD τ) arg3 fullShare wr
            ∗ owns (c : Thread nD τ) arg4 fullShare b ∗ owns (c : Thread nD τ) arg5 fullShare wo
            ∗ owns (c : Thread nD τ) arg6 fullShare (out2_5 xa xf wr b wo)) -∗ K ⟨⟩))
      ⊢ wp frame (wpE (defs₀ (F := F)) Variants.none c none) E (cc2__graphconv_kernel i arg1 harg1 arg2 harg2 arg3 harg3 arg4 harg4 arg5 harg5 arg6 harg6) K := by
  simp only [cc2__graphconv_kernel_eq_skeleton]; unfold cc2__graphconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-- The launch's proof data on core c: the arrays as the launch finds them; after the body at point t every input
    window at its block and the output window at out2_5 of the blocks; the scoped rest and the generator register
    pass through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Pool.lean ====
/-
  The pooling launch of the kernel program, at a parameter V (the buffer contents the launch is entered with).
  Grid point t handles nodes 5000·t … 5000·t+4999.  Two scratch buffers are carried from point to point: the
  per-graph feature sums (64 × 64) and the per-graph node counts (64 × 1).  Point 0 first zeroes both; every
  point adds its block's contribution (the one-hot of the batch column, transposed, times max(emb, 0), and times
  a column of ones); the last point divides the sums by max(count, 1), applies the two linear maps and stores the
  64 × 32 result, which is written back once, after that point.
  S3 n, C3 n are the two scratch buffers after point n; out3_6 is what the last point stores.
-/
import proofs.«415663_j86775519249037_1_alg».proof.Proof.KernelIdeal.LaunchP
import proofs.«415663_j86775519249037_1_alg».proof.Proof.Gen.KernelIdeal.Skeleton
import proofs.«415663_j86775519249037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Grid point number n (a number past the grid reads as point 0; never used there). -/
def pt3 (n : ℕ) : Fin cfg3.N := if h : n < cfg3.N then ⟨n, h⟩ else ⟨0, by decide⟩

theorem pt3_val (t : Fin cfg3.N) : pt3 t.val = t := by unfold pt3; rw [dif_pos t.isLt]

/-- The feature-sum scratch after point n: point 0 starts from the zero store, a later point from what the
    point before left. -/
def S3 (c : Dev nD) : ℕ → Vec F S64x64 .f32
  | 0 => k3_pay4 (iblk3 V c 0 (pt3 0)) (iblk3 V c 1 (pt3 0)) (k3_pay1 (F := F))
  | n + 1 => k3_pay4 (iblk3 V c 0 (pt3 (n + 1))) (iblk3 V c 1 (pt3 (n + 1))) (S3 c n)

/-- The node-count scratch after point n. -/
def C3 (c : Dev nD) : ℕ → Vec F S64x1 .f32
  | 0 => k3_pay5 (iblk3 V c 1 (pt3 0)) (k3_pay2 (F := F))
  | n + 1 => k3_pay5 (iblk3 V c 1 (pt3 (n + 1))) (C3 c n)

/-- What the last point stores into the output window's buffer. -/
def out3_6 (c : Dev nD) : Vec F S64x32 .f32 :=
  k3_pay6 (S3 V c 9) (C3 V c 9) (iblk3 V c 2 (pt3 9)) (iblk3 V c 4 (pt3 9)) (iblk3 V c 3 (pt3 9)) (iblk3 V c 5 (pt3 9))

abbrev sc0 : Memref sig .tc .vmem S64x64 .f32 := Memref.whole cc3_scratch0
abbrev sc1 : Memref sig .tc .vmem S64x1 .f32 := Memref.whole cc3_scratch1

/-- The two scratch buffers before point n: before the first point at anything, later at what point n-1 left. -/
def scr3 (c : Dev nD) : ℕ → sProp 𝕄
  | 0 => iprop((∃ f, owns (c : Thread nD τ) sc0 fullShare f) ∗ (∃ f, owns (c : Thread nD τ) sc1 fullShare f))
  | n + 1 => iprop(owns (c : Thread nD τ) sc0 fullShare (S3 V c n) ∗ owns (c : Thread nD τ) sc1 fullShare (C3 V c n))

/-- The launch's invariant before point n: every other scoped buffer at anything, the generator register at some
    state, the two scratch buffers as scr3 says. -/
def Φ3 (c : Dev nD) (n : ℕ) : sProp 𝕄 :=
  iprop(Pipeline.scopedRestBut (Ix := Unit) (Name := ℕ) (U := UR sig nD τ) (Lvl := ℕ) (Val := Elt F) spec3 c [cc3_scratch0, cc3_scratch1]
    ∗ (∃ r, prngReg c r) ∗ scr3 V c n)

/-- The launch's proof data on core c. The output window's contents are named only where they are written back
    (after the last point); at the other points the window is idle and the name is not read. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 V c
  Φ t := Φ3 V c t.val
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 V c := by dsimp only [dat3]

/-- The body's first test (is this the first point?), from the grid coordinates. -/
abbrev cond3_1 (i : grid3.Coords) : Prop :=
  (Scalar.cmpi .ne (Scalar.extui (Scalar.cmpi .eq (BitVec.ofNat 32 (i 0).val) 0#32)) 0#32) = 1#1
/-- The body's second test (is this the last point?). -/
abbrev cond3_2 (i : grid3.Coords) : Prop := k3_cond2 i = 1#1

/-- The first test holds at point 0 only, the second at point 9 only: decided over the ten points. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 9 :=
  (by decide +kernel : ∀ t : Fin grid3.N, cond3_2 (grid3.coords t) ↔ t.val = 9)

/-- Where the second test fails the output window is idle and not written back; where it holds the window is live. -/
theorem idleAt3_6 : ∀ t : Fin cfg3.N, ¬cond3_2 (grid3.coords t) → cfg3.idle 6 (grid3.coords t) = true :=
  (by decide +kernel : ∀ t : Fin grid3.N, ¬cond3_2 (grid3.coords t) → idle3 6 (grid3.coords t) = true)
theorem noFlush3_6 : ∀ t : Fin cfg3.N, ¬cond3_2 (grid3.coords t) → (cfg3.win 6).flush t = false :=
  (by decide +kernel : ∀ t : Fin grid3.N, ¬cond3_2 (grid3.coords t) → win3_6.flush t = false)
theorem liveAt3_6 : ∀ t : Fin cfg3.N, cond3_2 (grid3.coords t) → cfg3.idle 6 (grid3.coords t) = false :=
  (by decide +kernel : ∀ t : Fin grid3.N, cond3_2 (grid3.coords t) → idle3 6 (grid3.coords t) = false)

/-- The offsets of every load and store of the body are zero. -/
theorem hz3 : (![0, 0] : Fin 2 → Nat) = fun _ => 0 := funext fun a => by fin_cases a <;> rfl

/-- A load of a whole buffer through the whole-shape rectangle at zero offsets reads its contents. -/
theorem readAt_unit_zero3 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- After stores the last of which goes through that rectangle, the buffer reads as the last payload. -/
theorem read_writes_cons_unit_zero3 {κ : Kind} {sp : Space} {S : Shape} {e : EltTy} (v : View sig κ sp S e) (f : v.ty.Contents (Elt F))
    {off : Fin S.rank → Nat} (h : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P := by
  rw [View.read_writes_eq_canon _ _ _ (fun y => ⟨_, List.mem_cons_self .., View.mem_set_unit_zero h inb y⟩),
    View.canon_cons_unit_zero h]

/-- Reads every whole-block load as the contents loaded, every load of a buffer just stored whole as the payload
    stored, and a buffer after whole-block stores as the last payload. -/
local macro "close_whole" : tactic => `(tactic| (sl_unfold_words; simp only [
  readAt_unit_zero3 (S := S5000x64) _ _ hz3,
  readAt_unit_zero3 (S := S5000x1) _ _ hz3,
  readAt_unit_zero3 (S := S64x64) _ _ hz3,
  readAt_unit_zero3 (S := S64x1) _ _ hz3,
  readAt_unit_zero3 (S := S64x32) _ _ hz3,
  readAt_unit_zero3 (S := S1x64) _ _ hz3,
  readAt_unit_zero3 (S := S1x32) _ _ hz3,
  View.readCov_unit_zero (S := S64x64) _ hz3, View.readCov_unit_zero (S := S64x1) _ hz3,
  read_writes_cons_unit_zero3 (S := S64x64) _ _ hz3, read_writes_cons_unit_zero3 (S := S64x1) _ _ hz3,
  read_writes_cons_unit_zero3 (S := S64x32) _ _ hz3]))

set_option maxHeartbeats 1000000 in
/-- The body at a point that is neither first nor last, on whole memrefs: it reads the two blocks and the two
    scratch buffers and leaves each scratch at its update; the other buffers are not touched. -/
theorem sound_kernel3_mid (c : Dev nD) (E : Set ℕ) (i : grid3.Coords) (hc1 : ¬cond3_1 i) (hc2 : ¬cond3_2 i)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S64x64 .f32) (harg8 : arg8.IsWhole)
    (arg9 : Memref sig .tc .vmem S64x1 .f32) (harg9 : arg9.IsWhole)
    (e : Vec F S5000x64 .f32) (bt : Vec F S5000x1 .i32) (s : Vec F S64x64 .f32) (cn : Vec F S64x1 .f32) (K : PUnit → sProp 𝕄) :
    iprop(owns (c : Thread nD τ) arg1 fullShare e ∗ owns (c : Thread nD τ) arg2 fullShare bt
        ∗ owns (c : Thread nD τ) arg8 fullShare s ∗ owns (c : Thread nD τ) arg9 fullShare cn
        ∗ (iprop(owns (c : Thread nD τ) arg1 fullShare e ∗ owns (c : Thread nD τ) arg2 fullShare bt
            ∗ owns (c : Thread nD τ) arg8 fullShare (k3_pay4 e bt s) ∗ owns (c : Thread nD τ) arg9 fullShare (k3_pay5 bt cn)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f1, %hf1, H1⟩, ⟨%f2, %hf2, H2⟩, ⟨%f8, %hf8, H8⟩, ⟨%f9, %hf9, H9⟩, Hk⟩
  subst hf1 hf2 hf8 hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    close_whole
  iexists _; isplitr
  swap; · iexact H9
  ipureintro
  close_whole

set_option maxHeartbeats 1000000 in
/-- The body at the first point: both scratch buffers, found at anything, are zeroed and then updated. -/
theorem sound_kernel3_first (c : Dev nD) (E : Set ℕ) (i : grid3.Coords) (hc1 : cond3_1 i) (hc2 : ¬cond3_2 i)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S64x64 .f32) (harg8 : arg8.IsWhole)
    (arg9 : Memref sig .tc .vmem S64x1 .f32) (harg9 : arg9.IsWhole)
    (e : Vec F S5000x64 .f32) (bt : Vec F S5000x1 .i32) (K : PUnit → sProp 𝕄) :
    iprop(owns (c : Thread nD τ) arg1 fullShare e ∗ owns (c : Thread nD τ) arg2 fullShare bt
        ∗ (∃ s, owns (c : Thread nD τ) arg8 fullShare s) ∗ (∃ cn, owns (c : Thread nD τ) arg9 fullShare cn)
        ∗ (iprop(owns (c : Thread nD τ) arg1 fullShare e ∗ owns (c : Thread nD τ) arg2 fullShare bt
            ∗ owns (c : Thread nD τ) arg8 fullShare (k3_pay4 e bt (k3_pay1 (F := F)))
            ∗ owns (c : Thread nD τ) arg9 fullShare (k3_pay5 bt (k3_pay2 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f1, %hf1, H1⟩, ⟨%f2, %hf2, H2⟩, ⟨%d8, %f8, -, H8⟩, ⟨%d9, %f9, -, H9⟩, Hk⟩
  subst hf1 hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    close_whole
  iexists _; isplitr
  swap; · iexact H9
  ipureintro
  close_whole

set_option maxHeartbeats 1000000 in
/-- The body at the last point: after the two updates it reads both scratch buffers and the four parameter
    blocks and stores the result over the whole output block, found at anything. -/
theorem sound_kernel3_last (c : Dev nD) (E : Set ℕ) (i : grid3.Coords) (hc1 : ¬cond3_1 i) (hc2 : cond3_2 i)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S64x64 .f32) (harg8 : arg8.IsWhole)
    (arg9 : Memref sig .tc .vmem S64x1 .f32) (harg9 : arg9.IsWhole)
    (e : Vec F S5000x64 .f32) (bt : Vec F S5000x1 .i32) (a3 : Vec F S64x64 .f32) (a4 : Vec F S1x64 .f32)
    (a5 : Vec F S64x32 .f32) (a6 : Vec F S1x32 .f32) (s : Vec F S64x64 .f32) (cn : Vec F S64x1 .f32) (K : PUnit → sProp 𝕄) :
    iprop(owns (c : Thread nD τ) arg1 fullShare e ∗ owns (c : Thread nD τ) arg2 fullShare bt
        ∗ owns (c : Thread nD τ) arg3 fullShare a3 ∗ owns (c : Thread nD τ) arg4 fullShare a4
        ∗ owns (c : Thread nD τ) arg5 fullShare a5 ∗ owns (c : Thread nD τ) arg6 fullShare a6
        ∗ (∃ d, owns (c : Thread nD τ) arg7 fullShare d)
        ∗ owns (c : Thread nD τ) arg8 fullShare s ∗ owns (c : Thread nD τ) arg9 fullShare cn
        ∗ (iprop(owns (c : Thread nD τ) arg1 fullShare e ∗ owns (c : Thread nD τ) arg2 fullShare bt
            ∗ owns (c : Thread nD τ) arg3 fullShare a3 ∗ owns (c : Thread nD τ) arg4 fullShare a4
            ∗ owns (c : Thread nD τ) arg5 fullShare a5 ∗ owns (c : Thread nD τ) arg6 fullShare a6
            ∗ owns (c : Thread nD τ) arg7 fullShare (k3_pay6 (k3_pay4 e bt s) (k3_pay5 bt cn) a3 a5 a4 a6)
            ∗ owns (c : Thread nD τ) arg8 fullShare (k3_pay4 e bt s) ∗ owns (c : Thread nD τ) arg9 fullShare (k3_pay5 bt cn)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1 hf2 hf3 hf4 hf5 hf6 hf8 hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    close_whole
  isplitl [H8]
  · iexists _; isplitr
    swap; · iexact H8
    ipureintro
    close_whole
  iexists _; isplitr
  swap; · iexact H9
  ipureintro
  close_whole

/-- An input window's staging buffer holds its block at every point, fetched there or not: an unfetched window's
    block index has not moved.  One statement per window (the windows' block types differ). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- Point number n is the point whose number is n. -/
theorem pt3_of_val (t : Fin cfg3.N) (n : ℕ) (h : t.val = n) : pt3 n = t := by subst h; exact pt3_val t

/-- The scratch buffers after a point, over that point's blocks. -/
theorem S3_zero (c : Dev nD) (t : Fin cfg3.N) (h : t.val = 0) :
    S3 V c 0 = k3_pay4 (iblk3 V c 0 t) (iblk3 V c 1 t) (k3_pay1 (F := F)) := by
  rw [S3, pt3_of_val t 0 h]
theorem C3_zero (c : Dev nD) (t : Fin cfg3.N) (h : t.val = 0) :
    C3 V c 0 = k3_pay5 (iblk3 V c 1 t) (k3_pay2 (F := F)) := by
  rw [C3, pt3_of_val t 0 h]
theorem S3_succ (c : Dev nD) (t : Fin cfg3.N) (n : ℕ) (h : t.val = n + 1) :
    S3 V c (n + 1) = k3_pay4 (iblk3 V c 0 t) (iblk3 V c 1 t) (S3 V c n) := by
  rw [S3, pt3_of_val t (n + 1) h]
theorem C3_succ (c : Dev nD) (t : Fin cfg3.N) (n : ℕ) (h : t.val = n + 1) :
    C3 V c (n + 1) = k3_pay5 (iblk3 V c 1 t) (C3 V c n) := by
  rw [C3, pt3_of_val t (n + 1) h]

/-- What the last point stores, over that point's blocks and the scratch the point before left. -/
theorem out3_6_at (c : Dev nD) (t : Fin cfg3.N) (h : t.val = 8 + 1) :
    out3_6 V c = k3_pay6 (k3_pay4 (iblk3 V c 0 t) (iblk3 V c 1 t) (S3 V c 8)) (k3_pay5 (iblk3 V c 1 t) (C3 V c 8))
      (iblk3 V c 2 t) (iblk3 V c 4 t) (iblk3 V c 3 t) (iblk3 V c 5 t) := by
  unfold out3_6
  rw [show S3 V c 9 = S3 V c (8 + 1) from rfl, show C3 V c 9 = C3 V c (8 + 1) from rfl, S3_succ V c t 8 h, C3_succ V c t 8 h,
    pt3_of_val t 9 h]

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns: every input window at its block; the output window at what the last point stores, or,
    at the other points, as it was found. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ (dat3 V c).leavesExact 6 t)

set_option maxHeartbeats 2000000 in
/-- The body at point t, by cases on the point: the first, the last, or one between. The scratch buffers come
    from the invariant at what the point before left (at anything before the first point) and go back into it at
    this point's update. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl,
    show (dat3 V c).Φ t.castSucc = Φ3 V c t.val from rfl, show (dat3 V c).Φ t.succ = Φ3 V c (t.val + 1) from rfl,
    after3_0, after3_1, after3_2, after3_3, after3_4, after3_5]
  unfold Φ3
  have hN : t.val < 10 := lt_of_lt_of_eq t.isLt (show cfg3.N = 10 from N_3)
  by_cases h0 : t.val = 0
  · have hc1 : cond3_1 (grid3.coords t) := (hcond3_1 t).mpr h0
    have hc2 : ¬cond3_2 (grid3.coords t) := fun h => by have := (hcond3_2 t).mp h; omega
    rw [Dat.leavesExact_idle (dat3 V c) 6 t (idleAt3_6 t hc2) (noFlush3_6 t hc2)]
    rw [h0]; simp only [scr3]
    rw [S3_zero V c t h0, C3_zero V c t h0]
    iintro ⟨⟨Hr, Hg, Hs0, Hs1⟩, Ho, ⟨%d0, H0⟩, ⟨%d1, H1⟩, ⟨%d2, H2⟩, ⟨%d3, H3⟩, ⟨%d4, H4⟩, ⟨%d5, H5⟩, H6⟩
    iapply (sound_kernel3_first c Set.univ (grid3.coords t) hc1 hc2 _ _ _ _ _ _ _ _ _ _ _ _ _ _ _ _ _ _ (iblk3 V c 0 t) (iblk3 V c 1 t) _)
    isplitl [H0]; · iexact H0
    isplitl [H1]; · iexact H1
    isplitl [Hs0]; · iexact Hs0
    isplitl [Hs1]; · iexact Hs1
    iintro ⟨H0, H1, Hs0, Hs1⟩
    isplitl [Hr Hg Hs0 Hs1]
    · isplitl [Hr]; · iexact Hr
      isplitl [Hg]; · iexact Hg
      isplitl [Hs0]; · iexact Hs0
      iexact Hs1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero h0
    have hc1 : ¬cond3_1 (grid3.coords t) := fun h => h0 ((hcond3_1 t).mp h)
    by_cases h9 : t.val = 9
    · have hc2 : cond3_2 (grid3.coords t) := (hcond3_2 t).mpr h9
      obtain rfl : n = 8 := by omega
      rw [show (dat3 V c).leavesExact 6 t = owns (c : Thread nD τ) (st3_6 t) fullShare ((dat3 V c).after 6 t) from by
        unfold Dat.leavesExact; rw [liveAt3_6 t hc2], after3_6, out3_6_at V c t hn]
      rw [hn]; simp only [scr3]
      rw [S3_succ V c t 8 hn, C3_succ V c t 8 hn]
      iintro ⟨⟨Hr, Hg, Hs0, Hs1⟩, Ho, ⟨%d0, H0⟩, ⟨%d1, H1⟩, ⟨%d2, H2⟩, ⟨%d3, H3⟩, ⟨%d4, H4⟩, ⟨%d5, H5⟩, ⟨%d6, H6⟩⟩
      iapply (sound_kernel3_last c Set.univ (grid3.coords t) hc1 hc2 _ _ _ _ _ _ _ _ _ _ _ _ _ _ _ _ _ _ (iblk3 V c 0 t) (iblk3 V c 1 t)
        (iblk3 V c 2 t) (iblk3 V c 3 t) (iblk3 V c 4 t) (iblk3 V c 5 t) (S3 V c 8) (C3 V c 8) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [Hs0]; · iexact Hs0
      isplitl [Hs1]; · iexact Hs1
      iintro ⟨H0, H1, H2, H3, H4, H5, H6, Hs0, Hs1⟩
      isplitl [Hr Hg Hs0 Hs1]
      · isplitl [Hr]; · iexact Hr
        isplitl [Hg]; · iexact Hg
        isplitl [Hs0]; · iexact Hs0
        iexact Hs1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond3_2 (grid3.coords t) := fun h => h9 ((hcond3_2 t).mp h)
      rw [Dat.leavesExact_idle (dat3 V c) 6 t (idleAt3_6 t hc2) (noFlush3_6 t hc2)]
      rw [hn]; simp only [scr3]
      rw [S3_succ V c t n hn, C3_succ V c t n hn]
      iintro ⟨⟨Hr, Hg, Hs0, Hs1⟩, Ho, ⟨%d0, H0⟩, ⟨%d1, H1⟩, ⟨%d2, H2⟩, ⟨%d3, H3⟩, ⟨%d4, H4⟩, ⟨%d5, H5⟩, H6⟩
      iapply (sound_kernel3_mid c Set.univ (grid3.coords t) hc1 hc2 _ _ _ _ _ _ _ _ _ _ _ _ _ _ _ _ _ _ (iblk3 V c 0 t) (iblk3 V c 1 t)
        (S3 V c n) (C3 V c n) _)
      isplitl [H0]; · iexact H0
      isplitl [H1]; · iexact H1
      isplitl [Hs0]; · iexact Hs0
      isplitl [Hs1]; · iexact Hs1
      iintro ⟨H0, H1, Hs0, Hs1⟩
      isplitl [Hr Hg Hs0 Hs1]
      · isplitl [Hr]; · iexact Hr
        isplitl [Hg]; · iexact Hg
        isplitl [Hs0]; · iexact Hs0
        iexact Hs1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The invariant before the first point, from the generator register and the launch's scoped rest. -/
theorem Φ3_in (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = Φ3 V c 0 from rfl, scopedRest3_split]
  unfold Φ3; simp only [scr3, sc0, sc1, owns_whole]
  iintro ⟨Hg, ⟨Hs0, Hs1⟩, Hr⟩
  isplitl [Hr]; · iexact Hr
  isplitl [Hg]; · iexact Hg
  isplitl [Hs0]; · iexact Hs0
  iexact Hs1

/-- The invariant after the last point gives both back. -/
theorem Φ3_out (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Φ3 V c (9 + 1) from rfl, scopedRest3_split]
  unfold Φ3; simp only [scr3, sc0, sc1, owns_whole]
  iintro ⟨Hr, Hg, Hs0, Hs1⟩
  isplitl [Hg]; · iexact Hg
  isplitr [Hr]
  · isplitl [Hs0]
    · iexists _; iexact Hs0
    iexists _; iexact Hs1
  iexact Hr

/-- The obligation the launch rule asks at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Walk.lean ====
/-
  The buffer contents at every boundary of the kernel program's @main, as a fold from the launch memory: a stretch
  of host operations applies them in order; a launch leaves each of its arrays at what its write-backs leave (an
  input array as entered) and every other buffer as entered.
  W0 launch · W1 after the first stretch · W2 after launch 0 · … · W7 after the last stretch · W8 after launch 3.
-/
import proofs.«415663_j86775519249037_1_alg».proof.Proof.KernelIdeal.Conv0
import proofs.«415663_j86775519249037_1_alg».proof.Proof.KernelIdeal.Conv1
import proofs.«415663_j86775519249037_1_alg».proof.Proof.KernelIdeal.Conv2
import proofs.«415663_j86775519249037_1_alg».proof.Proof.KernelIdeal.Pool

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core c's buffers at launch. -/
abbrev W0 : Dev nD → Valuation τ sig (Elt F) := fun c b => m (c, b)

/-- After the host stretch before launch 0. -/
abbrev W1 : Dev nD → Valuation τ sig (Elt F) := fun c => StableHlo.after hostOps0 (W0 m c)
/-- The same read at the TensorCore's references: what launch 0 is entered with. -/
abbrev V1 : (c : Dev nD) → (b : Ref sig .tc) → Buf (Elt F) ((c : Thread nD τ).loc b) := fun c b => W1 m c b
/-- After launch 0. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before launch 1. -/
abbrev W3 : Dev nD → Valuation τ sig (Elt F) := fun c => StableHlo.after hostOps1 (W2 m c)
/-- The same read at the TensorCore's references: what launch 1 is entered with. -/
abbrev V3 : (c : Dev nD) → (b : Ref sig .tc) → Buf (Elt F) ((c : Thread nD τ).loc b) := fun c b => W3 m c b
/-- After launch 1. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before launch 2. -/
abbrev W5 : Dev nD → Valuation τ sig (Elt F) := fun c => StableHlo.after hostOps2 (W4 m c)
/-- The same read at the TensorCore's references: what launch 2 is entered with. -/
abbrev V5 : (c : Dev nD) → (b : Ref sig .tc) → Buf (Elt F) ((c : Thread nD τ).loc b) := fun c b => W5 m c b
/-- After launch 2. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch before launch 3. -/
abbrev W7 : Dev nD → Valuation τ sig (Elt F) := fun c => StableHlo.after hostOps3 (W6 m c)
/-- The same read at the TensorCore's references: what launch 3 is entered with. -/
abbrev V7 : (c : Dev nD) → (b : Ref sig .tc) → Buf (Elt F) ((c : Thread nD τ).loc b) := fun c b => W7 m c b
/-- After launch 3. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

end Cert.KernelIdeal.Hand

end
-- ==== Proof.KernelIdeal.Run.lean ====
/-
  The kernel program's run as a whole: @main is four stretches of host operations, each followed by a launch.  Every
  weakly fair execution terminates, and in the final memory every unscoped buffer holds what the fold W8 says.
-/
import proofs.«415663_j86775519249037_1_alg».proof.Proof.KernelIdeal.Walk

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches allocate (nothing) and write -/

/-- No operation of stretch 0 allocates a buffer. -/
theorem hostOps0_fresh : (hostOps0 : List (HloOp τ sig (Elt F))).Forall fun op => op.fresh = ∅ := by
  simp only [List.Forall]; repeat' constructor
/-- The references stretch 0 writes, in order. -/
abbrev wr0 : List (Ref sig .tc) := [main_v0, main_v1, main_v2, main_v3, main_v4, main_v5, main_v6, main_v7, main_v8, main_v9, main_v10, main_v11, main_v12, main_c, main_v13, main_v14, main_c_0, main_v15, main_v16, main_v17, main_v18, main_v19, main_cst, main_v20, main_v21, main_v22, main_v23]
/-- Every operation of stretch 0 writes one of them. -/
theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of stretch 1 allocates a buffer. -/
theorem hostOps1_fresh : (hostOps1 : List (HloOp τ sig (Elt F))).Forall fun op => op.fresh = ∅ := by
  simp only [List.Forall]; repeat' constructor
/-- The references stretch 1 writes, in order. -/
abbrev wr1 : List (Ref sig .tc) := [main_c_1, main_v25, main_v26, main_c_2, main_v27, main_v28, main_v29, main_v30, main_v31, main_cst_3, main_v32, main_v33, main_v34, main_v35]
/-- Every operation of stretch 1 writes one of them. -/
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of stretch 2 allocates a buffer. -/
theorem hostOps2_fresh : (hostOps2 : List (HloOp τ sig (Elt F))).Forall fun op => op.fresh = ∅ := by
  simp only [List.Forall]; repeat' constructor
/-- The references stretch 2 writes, in order. -/
abbrev wr2 : List (Ref sig .tc) := [main_c_4, main_v37, main_v38, main_c_5, main_v39, main_v40, main_v41, main_v42, main_v43, main_cst_6, main_v44, main_v45, main_v46, main_v47]
/-- Every operation of stretch 2 writes one of them. -/
theorem hostOps2_writes : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of stretch 3 allocates a buffer. -/
theorem hostOps3_fresh : (hostOps3 : List (HloOp τ sig (Elt F))).Forall fun op => op.fresh = ∅ := by
  simp only [List.Forall]; repeat' constructor
/-- The references stretch 3 writes, in order. -/
abbrev wr3 : List (Ref sig .tc) := [main_v49, main_v50]
/-- Every operation of stretch 3 writes one of them. -/
theorem hostOps3_writes : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## The proof data family and the thread state -/

/-- The prefetched tables' admissible contents: no launch has a table. -/
abbrev adm : (p : Fin 4) → (pcfgs (F := F) p).Adm := fun p => (cfgs p).toPCfg_adm
/-- Every launch's proof data, each at the contents its launch is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    none. -/
abbrev R (c : Dev nD) : sProp 𝕄 := iprop((∃ r, prngReg c r) ∗ ∃ W, owes (c : Thread nD τ) (0 : CellTallies nD τ sig Unit) W)
/-- A host stretch as a segment over the unscoped references from the contents W, R riding along; it ends at those
    references after the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- LAUNCH 0 over the thread state: entered from every unscoped buffer at W1, left at W2.  Its arrays are split out
    of the unscoped buffers and put back at the exit contents; the generator register goes into the launch's invariant
    and comes out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at W3, left at W4.  Its arrays are split out
    of the unscoped buffers and put back at the exit contents; the generator register goes into the launch's invariant
    and comes out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at W5, left at W6.  Its arrays are split out
    of the unscoped buffers and put back at the exit contents; the generator register goes into the launch's invariant
    and comes out of it; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 3 over the thread state: entered from every unscoped buffer at W7, left at W8.  Its arrays are split out
    of the unscoped buffers and put back at the exit contents; the generator register goes into the launch's invariant
    and comes out of it; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Φ3_in (V7 m) c)
    iintro ⟨Hp, -, Hr⟩
    isplitl [Hp]; · iexact Hp
    iexact Hr
  hout c := by
    rw [Pipeline.ownSems0_none]
    refine (Φ3_out (V7 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch of the program -/

/-- @main's eight segments in order: a host segment per stretch from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments: it is the chain of its items, and the segments' run is that chain. -/
theorem main_run (c : Dev nD) : main (F := F) c = Pipeline.Seg.run (segs m) := (main_chain c).trans (by chain_rfl)

set_option backward.isDefEq.respectTransparency.types false in
/-- THE RUN: every weakly fair execution of @main from memory m with zero counters terminates, nothing faulting, and
    every unscoped TensorCore buffer ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W8 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

/-! ## The fold read at particular buffers -/

/-- A buffer no stretch writes and no launch has among its arrays ends as launched. -/
theorem W8_walk (c : Dev nD) (r : Ref sig .tc)
    (h0 : r ∉ wr0) (a0 : ∀ w, Pipeline.arrRef spec0 w ≠ r) (h1 : r ∉ wr1) (a1 : ∀ w, Pipeline.arrRef spec1 w ≠ r)
    (h2 : r ∉ wr2) (a2 : ∀ w, Pipeline.arrRef spec2 w ≠ r) (h3 : r ∉ wr3) (a3 : ∀ w, Pipeline.arrRef spec3 w ≠ r) :
    W8 m c (Proc.devRef .tc r) = m ((c : Thread nD τ).loc r) :=
  calc W8 m c (Proc.devRef .tc r)
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

/-- The first argument is launch 0's second input array: read at that launch's exit it is as entered; nothing else
    touches it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  W8_walk m c main_arg1 (by decide) (by decide) (by decide) (by decide) (by decide) (by decide) (by decide) (by decide)
theorem W8_main_arg2 (c : Dev nD) : W8 m c (Proc.devRef .tc main_arg2) = m ((c : Thread nD τ).loc main_arg2) :=
  W8_walk m c main_arg2 (by decide) (by decide) (by decide) (by decide) (by decide) (by decide) (by decide) (by decide)
theorem W8_main_arg3 (c : Dev nD) : W8 m c (Proc.devRef .tc main_arg3) = m ((c : Thread nD τ).loc main_arg3) :=
  W8_walk m c main_arg3 (by decide) (by decide) (by decide) (by decide) (by decide) (by decide) (by decide) (by decide)
theorem W8_main_arg4 (c : Dev nD) : W8 m c (Proc.devRef .tc main_arg4) = m ((c : Thread nD τ).loc main_arg4) :=
  W8_walk m c main_arg4 (by decide) (by decide) (by decide) (by decide) (by decide) (by decide) (by decide) (by decide)
theorem W8_main_arg5 (c : Dev nD) : W8 m c (Proc.devRef .tc main_arg5) = m ((c : Thread nD τ).loc main_arg5) :=
  W8_walk m c main_arg5 (by decide) (by decide) (by decide) (by decide) (by decide) (by decide) (by decide) (by decide)
theorem W8_main_arg6 (c : Dev nD) : W8 m c (Proc.devRef .tc main_arg6) = m ((c : Thread nD τ).loc main_arg6) :=
  W8_walk m c main_arg6 (by decide) (by decide) (by decide) (by decide) (by decide) (by decide) (by decide) (by decide)
theorem W8_main_arg7 (c : Dev nD) : W8 m c (Proc.devRef .tc main_arg7) = m ((c : Thread nD τ).loc main_arg7) :=
  W8_walk m c main_arg7 (by decide) (by decide) (by decide) (by decide) (by decide) (by decide) (by decide) (by decide)
theorem W8_main_arg8 (c : Dev nD) : W8 m c (Proc.devRef .tc main_arg8) = m ((c : Thread nD τ).loc main_arg8) :=
  W8_walk m c main_arg8 (by decide) (by decide) (by decide) (by decide) (by decide) (by decide) (by decide) (by decide)
theorem W8_main_arg9 (c : Dev nD) : W8 m c (Proc.devRef .tc main_arg9) = m ((c : Thread nD τ).loc main_arg9) :=
  W8_walk m c main_arg9 (by decide) (by decide) (by decide) (by decide) (by decide) (by decide) (by decide) (by decide)
theorem W8_main_arg10 (c : Dev nD) : W8 m c (Proc.devRef .tc main_arg10) = m ((c : Thread nD τ).loc main_arg10) :=
  W8_walk m c main_arg10 (by decide) (by decide) (by decide) (by decide) (by decide) (by decide) (by decide) (by decide)
theorem W8_main_arg11 (c : Dev nD) : W8 m c (Proc.devRef .tc main_arg11) = m ((c : Thread nD τ).loc main_arg11) :=
  W8_walk m c main_arg11 (by decide) (by decide) (by decide) (by decide) (by decide) (by decide) (by decide) (by decide)
theorem W8_main_arg12 (c : Dev nD) : W8 m c (Proc.devRef .tc main_arg12) = m ((c : Thread nD τ).loc main_arg12) :=
  W8_walk m c main_arg12 (by decide) (by decide) (by decide) (by decide) (by decide) (by decide) (by decide) (by decide)
theorem W8_main_arg13 (c : Dev nD) : W8 m c (Proc.devRef .tc main_arg13) = m ((c : Thread nD τ).loc main_arg13) :=
  W8_walk m c main_arg13 (by decide) (by decide) (by decide) (by decide) (by decide) (by decide) (by decide) (by decide)
theorem W8_main_arg14 (c : Dev nD) : W8 m c (Proc.devRef .tc main_arg14) = m ((c : Thread nD τ).loc main_arg14) :=
  W8_walk m c main_arg14 (by decide) (by decide) (by decide) (by decide) (by decide) (by decide) (by decide) (by decide)
theorem W8_main_arg15 (c : Dev nD) : W8 m c (Proc.devRef .tc main_arg15) = m ((c : Thread nD τ).loc main_arg15) :=
  W8_walk m c main_arg15 (by decide) (by decide) (by decide) (by decide) (by decide) (by decide) (by decide) (by decide)

/-- Launch 2's output is launch 3's first input array: at the end it is what launch 2 left. -/
theorem W8_main_v48 (c : Dev nD) : W8 m c (Proc.devRef .tc main_v48) = (dat2 (V5 m) c).arrAt 5 cfg2.N :=
  calc W8 m c (Proc.devRef .tc main_v48)
    _ = W7 m c (Proc.devRef .tc main_v48) := (W8_arr m c 0).trans (((dat3 (V7 m) c).arrAt_in 0 rfl _).trans (A_eq3 (V7 m) c 0))
    _ = W6 m c (Proc.devRef .tc main_v48) := StableHlo.after_of_writes_sub hostOps3 _ hostOps3_writes (by decide)
    _ = (dat2 (V5 m) c).arrAt 5 cfg2.N := W6_arr m c 5

/-- Launch 3's output at the end is what launch 3 left. -/
theorem W8_main_v51 (c : Dev nD) : W8 m c (Proc.devRef .tc main_v51) = (dat3 (V7 m) c).arrAt 6 cfg3.N := W8_arr m c 6

/-- The frame: @main runs, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun r h c =>
    ⟨(h c main_arg0 (by decide)).trans (W8_main_arg0 m c),
     (h c main_arg1 (by decide)).trans (W8_main_arg1 m c),
     (h c main_arg2 (by decide)).trans (W8_main_arg2 m c),
     (h c main_arg3 (by decide)).trans (W8_main_arg3 m c),
     (h c main_arg4 (by decide)).trans (W8_main_arg4 m c),
     (h c main_arg5 (by decide)).trans (W8_main_arg5 m c),
     (h c main_arg6 (by decide)).trans (W8_main_arg6 m c),
     (h c main_arg7 (by decide)).trans (W8_main_arg7 m c),
     (h c main_arg8 (by decide)).trans (W8_main_arg8 m c),
     (h c main_arg9 (by decide)).trans (W8_main_arg9 m c),
     (h c main_arg10 (by decide)).trans (W8_main_arg10 m c),
     (h c main_arg11 (by decide)).trans (W8_main_arg11 m c),
     (h c main_arg12 (by decide)).trans (W8_main_arg12 m c),
     (h c main_arg13 (by decide)).trans (W8_main_arg13 m c),
     (h c main_arg14 (by decide)).trans (W8_main_arg14 m c),
     (h c main_arg15 (by decide)).trans (W8_main_arg15 m c)⟩) (run_all m ρ)

end Cert.KernelIdeal.Hand

end
-- ==== Proof.KernelIdeal.Keep.lean ====
/-
  A launch changes only its output array: every other buffer — an input array of the launch, or a buffer the launch
  does not touch — holds after the launch what it held before.
-/
import proofs.«415663_j86775519249037_1_alg».proof.Proof.KernelIdeal.Walk
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Launch 0 changes only its output array. -/
theorem W2_keep (c : Dev nD) (b : Ref sig .tc) (hb : b ≠ main_v24) : W2 m c (Proc.devRef .tc b) = W1 m c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    rw [W2_arr, (dat0 (V1 m) c).arrAt_in w hin, A_eq0]
  · exact W2_of_ne m c b (fun w e => h ⟨w, e⟩)

/-- Launch 1 changes only its output array. -/
theorem W4_keep (c : Dev nD) (b : Ref sig .tc) (hb : b ≠ main_v36) : W4 m c (Proc.devRef .tc b) = W3 m c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    rw [W4_arr, (dat1 (V3 m) c).arrAt_in w hin, A_eq1]
  · exact W4_of_ne m c b (fun w e => h ⟨w, e⟩)

/-- Launch 2 changes only its output array. -/
theorem W6_keep (c : Dev nD) (b : Ref sig .tc) (hb : b ≠ main_v48) : W6 m c (Proc.devRef .tc b) = W5 m c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    rw [W6_arr, (dat2 (V5 m) c).arrAt_in w hin, A_eq2]
  · exact W6_of_ne m c b (fun w e => h ⟨w, e⟩)

/-- Launch 3 changes only its output array. -/
theorem W8_keep (c : Dev nD) (b : Ref sig .tc) (hb : b ≠ main_v51) : W8 m c (Proc.devRef .tc b) = W7 m c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    rw [W8_arr, (dat3 (V7 m) c).arrAt_in w hin, A_eq3]
  · exact W8_of_ne m c b (fun w e => h ⟨w, e⟩)

end Cert.KernelIdeal.Hand

end
-- ==== Proof.LibGraphRead.lean ====
/-
  Reading the host's accumulating scatter and its row gather at ONE index, over the extended reals.

  A segment sum prints as a scatter-add whose indices are an [n × 1] column: update `e` (a scalar, or row `e` of an
  [n × C] array) is added at the row its index word names, read signed and NOT clamped, and is dropped when that row is
  outside the operand. So entry `v` of the result is the operand's entry plus the sum of the updates whose word is `v`.
  A row gather `X[idx]` reads, for position `e`, the row its word names, read signed and clamped into [0, N − 1].
  jnp first wraps a negative word by adding N; a word that lands on `v` is not negative, so wrap and clamp return `v`.
-/
import Idealize.ShloMosaic.PureOps.Ideal
import Idealize.ShloMosaic.Lib.ValueIdx
import Idealize.ShloMosaic.Lib.StableHlo.Predicate

noncomputable section

namespace Cert.GcnLib

open Idealize.ShloMosaic Idealize.ShloMosaic.ValueIdx

/-- The updates that land on row `v`: their index word, read signed, is `v`. -/
def landing {N n : ℕ} (idx : IVec ⟨2, ![n, 1]⟩ 32) (v : Fin N) : Finset (Fin n) :=
  Finset.univ.filter fun e : Fin n => (idx (ix2 e 0)).toInt = (v.val : Int)

/-- An update lands on operand index `i` exactly when, on every axis, its start plus its window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have h1 := congrFun (Option.some.inj heq) a
      have h2 := congrArg Fin.val h1
      simp only at h2
      have := (h a).1
      omega
    · intro hall
      congr 1
      funext a
      apply Fin.ext
      simp only
      rw [hall a]
      simp
  · next h =>
    constructor
    · intro heq; cases heq
    · intro hall
      exfalso
      apply h
      intro a
      rw [hall a]
      exact ⟨Int.natCast_nonneg _, by exact_mod_cast (i a).isLt⟩

/-- A scatter-add into a rank-1 operand through a column of indices, read at entry `v`. -/
theorem scatterAdd_vec_apply {N n : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ 32) (u : (⟨1, ![n]⟩ : Shape).Idx → EReal) (v : Fin N) :
    Ideal.hostScatterAdd d x idx u (ix1 v) = x (ix1 v) + ∑ e ∈ landing idx v, u (ix1 e) := by
  have hm : (0 : Fin 1) ∈ d.scatterDimsToOperandDims := by rw [hsd]; exact List.mem_singleton.mpr rfl
  have hk : (0 : Fin 1) ∉ d.sKept := by
    simp [ScatterDims.sKept, Shape.kept, hiw]
  have hstart : ∀ j : (⟨1, ![n]⟩ : Shape).Idx, d.start j idx 0 = (idx (ix2 (j 0) 0)).toInt := by
    intro j
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hwin : ∀ j : (⟨1, ![n]⟩ : Shape).Idx, d.window j 0 = 0 := by
    intro j; unfold ScatterDims.window; rw [dif_neg hk]
  have hiff : ∀ j : (⟨1, ![n]⟩ : Shape).Idx, d.resultIdx? j idx = some (ix1 v) ↔ (idx (ix2 (j 0) 0)).toInt = (v.val : Int) := by
    intro j
    rw [resultIdx?_eq_some_iff]
    constructor
    · intro h
      have h0 : d.start j idx 0 + (d.window j 0 : Int) = (v.val : Int) := h 0
      rw [hstart, hwin] at h0
      simpa using h0
    · intro h a
      have ha0 : a = 0 := Subsingleton.elim _ _
      subst ha0
      show d.start j idx 0 + (d.window j 0 : Int) = (v.val : Int)
      rw [hstart, hwin, h]
      simp
  show x (ix1 v) + ∑ j ∈ Finset.univ.filter (fun j => d.resultIdx? j idx = some (ix1 v)), u j = _
  congr 1
  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg u (eq_ix1 j)

/-- A scatter-add of ROWS into an [N × C] operand through a column of indices, read at entry `(v, j)`. -/
theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j) = x (ix2 v j) + ∑ e ∈ landing idx v, u (ix2 e j) := by
  have hm : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by simp [ScatterDims.sKept, Shape.kept, hiw]
  have hk1 : (1 : Fin 2) ∈ d.sKept := by simp [ScatterDims.sKept, Shape.kept, hiw]
  have hstart0 : ∀ t : (⟨2, ![n, C]⟩ : Shape).Idx, d.start t idx 0 = (idx (ix2 (t 0) 0)).toInt := by
    intro t
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have hX : ∀ X : Fin 2, X ∈ d.uScatter → (t X).val = (t 0).val := by
        intro X hX
        have h1 : X ∉ d.updateWindowDims := by simpa [ScatterDims.uScatter, Shape.kept] using hX
        rw [huw] at h1
        match X, h1 with
        | ⟨0, _⟩, _ => rfl
        | ⟨1, _⟩, h => exact absurd (List.mem_singleton.mpr rfl) h
      exact hX _ (List.getElem_mem _)
    | ⟨1, _⟩ =>
      unfold ScatterDims.siIdx
      rw [dif_pos (by rw [hiv])]
      apply Fin.ext
      show List.idxOf (0 : Fin 2) d.scatterDimsToOperandDims = 0
      rw [hsd]; simp
  have hstart1 : ∀ t : (⟨2, ![n, C]⟩ : Shape).Idx, d.start t idx 1 = 0 := by
    intro t; unfold ScatterDims.start; rw [dif_neg hm1]
  have hwin0 : ∀ t : (⟨2, ![n, C]⟩ : Shape).Idx, d.window t 0 = 0 := by
    intro t; unfold ScatterDims.window; rw [dif_neg hk0]
  have hl : ∀ (l : List (Fin 2)) (_ : l = [1]) (k : ℕ) (hk : k < l.length), l[k] = 1 := by
    intro l hl k hk; subst hl
    simp only [List.length_singleton, Nat.lt_one_iff] at hk
    subst hk; rfl
  have hwin1 : ∀ t : (⟨2, ![n, C]⟩ : Shape).Idx, d.window t 1 = (t 1).val := by
    intro t; unfold ScatterDims.window; rw [dif_pos hk1]
    rw [hl d.updateWindowDims huw]
  have hiff : ∀ t : (⟨2, ![n, C]⟩ : Shape).Idx,
      d.resultIdx? t idx = some (ix2 v j) ↔ (idx (ix2 (t 0) 0)).toInt = (v.val : Int) ∧ t 1 = j := by
    intro t
    rw [resultIdx?_eq_some_iff]
    constructor
    · intro h
      have h0 : d.start t idx 0 + (d.window t 0 : Int) = (v.val : Int) := h 0
      have h1 : d.start t idx 1 + (d.window t 1 : Int) = (j.val : Int) := h 1
      rw [hstart0, hwin0] at h0
      rw [hstart1, hwin1] at h1
      refine ⟨by simpa using h0, Fin.ext ?_⟩
      have h2 : ((t 1).val : Int) = (j.val : Int) := by simpa using h1
      exact_mod_cast h2
    · rintro ⟨h0, h1⟩ a
      match a with
      | ⟨0, _⟩ =>
        show d.start t idx 0 + (d.window t 0 : Int) = (v.val : Int)
        rw [hstart0, hwin0, h0]; simp
      | ⟨1, _⟩ =>
        show d.start t idx 1 + (d.window t 1 : Int) = (j.val : Int)
        rw [hstart1, hwin1, h1]; simp
  show x (ix2 v j) + ∑ t ∈ Finset.univ.filter (fun t => d.resultIdx? t idx = some (ix2 v j)), u t = _
  congr 1
  refine Finset.sum_bij' (fun t _ => t 0) (fun e _ => ix2 e j) ?_ ?_ ?_ ?_ ?_
  · intro t ht
    exact Finset.mem_filter.2 ⟨Finset.mem_univ _, ((hiff t).1 (Finset.mem_filter.1 ht).2).1⟩
  · intro e he
    exact Finset.mem_filter.2 ⟨Finset.mem_univ _, (hiff (ix2 e j)).2 ⟨(Finset.mem_filter.1 he).2, rfl⟩⟩
  · intro t ht
    have h1 := ((hiff t).1 (Finset.mem_filter.1 ht).2).2
    show ix2 (t 0) j = t
    rw [← h1]; exact (eq_ix2 t).symm
  · intro e _
    rfl
  · intro t ht
    have h1 := ((hiff t).1 (Finset.mem_filter.1 ht).2).2
    show u t = u (ix2 (t 0) j)
    rw [← h1]; exact congrArg u (eq_ix2 t)

/-- The row a gather reads for index word `w`: read signed, clamped into [0, N − 1]. -/
def clampRow (N : ℕ) (hN : 0 < N) (w : BitVec 32) : Fin N := ⟨min w.toInt.toNat (N - 1), by omega⟩

/-- A gather of entries of a rank-1 operand through a column of indices, read at position `e`
    (Lib/StableHlo/Predicate.lean `gather_take` with the row named). -/
theorem gather_vec_apply {α : Type} {N n : ℕ} (hN : 0 < N) (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ 32) (e : Fin n) :
    Host.gather d x idx (ix1 e) = x (ix1 (clampRow N hN (idx (ix2 e 0)))) := by
  have h1 : (ix1 e : (⟨1, ![n]⟩ : Shape).Idx) = Shape.Idx.ofFin e := by
    funext a; match a with | ⟨0, _⟩ => rfl
  have h2 : (ix2 e 0 : (⟨2, ![n, 1]⟩ : Shape).Idx) = StableHlo.Predicate.ixP e := by
    funext a; match a with | ⟨0, _⟩ => rfl | ⟨1, _⟩ => rfl
  rw [h1, h2, StableHlo.Predicate.gather_take d hcoll hob hsim hivd x idx e hN]
  congr 1
  funext a; match a with | ⟨0, _⟩ => rfl

/-- A gather of ROWS of an [N × C] operand through a column of indices, read at `(e, j)`. -/
theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  unfold Host.gather
  congr 1
  funext a
  apply Fin.ext
  have hb : ∀ a, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ix2 e 0)).toInt.toNat (N - 1)
    rw [GatherDims.batchCoord_eq_zero _ _ _ (hb _), GatherDims.offCoord_eq_zero _ _ _ hk]
    simp only [Nat.add_zero]
    unfold GatherDims.start
    rw [dif_pos hm]
    have hsi : d.siIdx (ix2 e j) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        have hX : ∀ X : Fin 2, X ∈ d.batchDims → ((ix2 e j : (⟨2, ![n, C]⟩ : Shape).Idx) X).val = e.val := by
          intro X hX
          have h1 : X ∉ d.offsetDims := by simpa [GatherDims.batchDims, Shape.kept] using hX
          rw [hoff] at h1
          match X, h1 with
          | ⟨0, _⟩, _ => rfl
          | ⟨1, _⟩, h => exact absurd (List.mem_singleton.mpr rfl) h
        exact hX _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
    show min (idx (ix2 e 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb _)]
    unfold GatherDims.start
    rw [dif_neg hm]
    unfold GatherDims.offCoord
    rw [dif_pos hk]
    simp only [Nat.zero_add, Nat.add_zero]
    have hl : ∀ (l : List (Fin 2)) (_ : l = [1]) (k : ℕ) (hk : k < l.length), l[k] = 1 := by
      intro l hl k hk; subst hl
      simp only [List.length_singleton, Nat.lt_one_iff] at hk
      subst hk; rfl
    rw [hl d.offsetDims hoff]

/-- jnp's wrap of a negative index word: `select (w < 0) (w + N) w`, on one word. -/
def wrapWord (N : BitVec 32) (w : BitVec 32) : BitVec 32 :=
  Scalar.select (Scalar.cmpi .slt w 0#32) (IntOp.addi w N) w

/-- A word that lands on row `v` (read signed it is `v`, and `v < N`) is left alone by the wrap and by the clamp. -/
theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by
    simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.Spec.lean ====
/-
  The mathematics both programs compute, over the extended reals, index by index.

  A graph-convolution layer on N = 50000 nodes of 64 features: from the neighbour aggregate a and the features x,
      layerLin a x Wr Wo b (n, j) = (∑ₖ a(n,k)·Wr(k,j) + ∑ₖ x(n,k)·Wo(k,j)) + b(j)
  with Wr, Wo the TRANSPOSED weight matrices as both programs form them, and layerRelu = max(layerLin, 0).
  The pooled head over G = 64 graphs: node n belongs to graph g when its batch word, read signed, is g (a word that
  names no graph belongs to none);
      poolSum e bt (g, d) = ∑_{n in g} max(e(n,d), 0),     poolCnt bt g = ∑_{n in g} 1,
      head s cnt W4 b4 W5 b5 (g, o) = ∑ₖ ((∑ₗ (s(g,l) / max(cnt g, 1))·W4(l,k)) + b4 k)·W5(k,o) + b5 o.
  The neighbour aggregate over the 800000 edges: edge e adds row src(e) of the features into row dst(e),
      aggOf feat src dst (v, j) = ∑_{e : dst(e) = v} feat(row(src e), j),
  where a destination word is read signed and an edge whose word names no node is dropped, and a source word is
  first wrapped (a negative word has N added) and then clamped into the node range, as jnp's indexing does.
  embOf and outOf compose these into the two results as functions of the sixteen arguments.
-/
import Idealize.ShloMosaic.PureOps.Ideal
import Idealize.ShloMosaic.Lib.ValueIdx
import proofs.«415663_j86775519249037_1_alg».proof.Proof.LibGraphRead

noncomputable section

namespace Cert.Spec

open Idealize.ShloMosaic Idealize.ShloMosaic.ValueIdx

abbrev Rows : Shape := ⟨2, ![50000, 64]⟩
abbrev Sq : Shape := ⟨2, ![64, 64]⟩
abbrev Out : Shape := ⟨2, ![64, 32]⟩

/-- One layer before its activation. -/
def layerLin (a x : Rows.Idx → EReal) (wr wo : Sq.Idx → EReal) (b : Fin 64 → EReal) : Rows.Idx → EReal :=
  fun i => ((∑ k : Fin 64, a (ix2 (i 0) k) * wr (ix2 k (i 1))) + ∑ k : Fin 64, x (ix2 (i 0) k) * wo (ix2 k (i 1))) + b (i 1)

/-- One layer followed by max(·, 0). -/
def layerRelu (a x : Rows.Idx → EReal) (wr wo : Sq.Idx → EReal) (b : Fin 64 → EReal) : Rows.Idx → EReal :=
  fun i => max (layerLin a x wr wo b i) 0

/-- The nodes of graph g: their batch word, read signed, is g. -/
def members (bt : Fin 50000 → BitVec 32) (g : Fin 64) : Finset (Fin 50000) :=
  Finset.univ.filter fun n : Fin 50000 => (bt n).toInt = (g.val : Int)

/-- Per graph and feature, the sum of max(e, 0) over the graph's nodes. -/
def poolSum (e : Rows.Idx → EReal) (bt : Fin 50000 → BitVec 32) : Sq.Idx → EReal :=
  fun i => ∑ n ∈ members bt (i 0), max (e (ix2 n (i 1))) 0

/-- Per graph, its number of nodes. -/
def poolCnt (bt : Fin 50000 → BitVec 32) : Fin 64 → EReal :=
  fun g => ∑ _n ∈ members bt g, (1 : EReal)

/-- Mean pooling followed by the two linear maps. -/
def head (s : Sq.Idx → EReal) (cnt : Fin 64 → EReal) (w4 : Sq.Idx → EReal) (b4 : Fin 64 → EReal)
    (w5 : Out.Idx → EReal) (b5 : Fin 32 → EReal) : Out.Idx → EReal :=
  fun i => (∑ k : Fin 64, ((∑ l : Fin 64, Ideal.div (s (ix2 (i 0) l)) (max (cnt (i 0)) 1) * w4 (ix2 l k)) + b4 k) * w5 (ix2 k (i 1))) + b5 (i 1)

abbrev Edges : Shape := ⟨2, ![2, 800000]⟩

/-- The neighbour aggregate. -/
def aggOf (feat : Rows.Idx → EReal) (src dst : Fin 800000 → BitVec 32) : Rows.Idx → EReal :=
  fun i => ∑ e ∈ Finset.univ.filter (fun e : Fin 800000 => (dst e).toInt = ((i 0).val : Int)),
    feat (ix2 (Cert.GcnLib.clampRow 50000 (by decide) (Cert.GcnLib.wrapWord 50000#32 (src e))) (i 1))

/-- A square matrix transposed, and the 32 × 64 matrix transposed. -/
def tr (w : Sq.Idx → EReal) : Sq.Idx → EReal := fun i => w (ix2 (i 1) (i 0))
def tr5 (w : (⟨2, ![32, 64]⟩ : Shape).Idx → EReal) : Out.Idx → EReal := fun i => w (ix2 (i 1) (i 0))

/-- A rank-1 array as a function of its one coordinate. -/
def vec {n : ℕ} {α : Type} (b : (⟨1, ![n]⟩ : Shape).Idx → α) : Fin n → α := fun j => b (ix1 j)

def srcOf (ei : Edges.Idx → BitVec 32) : Fin 800000 → BitVec 32 := fun e => ei (ix2 0 e)
def dstOf (ei : Edges.Idx → BitVec 32) : Fin 800000 → BitVec 32 := fun e => ei (ix2 1 e)

/-- The first result: the third layer's value (no activation) over two activated layers. -/
def embOf (x : Rows.Idx → EReal) (ei : Edges.Idx → BitVec 32)
    (w1r : Sq.Idx → EReal) (b1 : (⟨1, ![64]⟩ : Shape).Idx → EReal) (w1o : Sq.Idx → EReal)
    (w2r : Sq.Idx → EReal) (b2 : (⟨1, ![64]⟩ : Shape).Idx → EReal) (w2o : Sq.Idx → EReal)
    (w3r : Sq.Idx → EReal) (b3 : (⟨1, ![64]⟩ : Shape).Idx → EReal) (w3o : Sq.Idx → EReal) : Rows.Idx → EReal :=
  let h1 := layerRelu (aggOf x (srcOf ei) (dstOf ei)) x (tr w1r) (tr w1o) (vec b1)
  let h2 := layerRelu (aggOf h1 (srcOf ei) (dstOf ei)) h1 (tr w2r) (tr w2o) (vec b2)
  layerLin (aggOf h2 (srcOf ei) (dstOf ei)) h2 (tr w3r) (tr w3o) (vec b3)

/-- The second result: the pooled head of the first. -/
def outOf (emb : Rows.Idx → EReal) (batch : (⟨1, ![50000]⟩ : Shape).Idx → BitVec 32)
    (w4 : Sq.Idx → EReal) (b4 : (⟨1, ![64]⟩ : Shape).Idx → EReal)
    (w5 : (⟨2, ![32, 64]⟩ : Shape).Idx → EReal) (b5 : (⟨1, ![32]⟩ : Shape).Idx → EReal) : Out.Idx → EReal :=
  head (poolSum emb (vec batch)) (poolCnt (vec batch)) (tr w4) (vec b4) (tr5 w5) (vec b5)

end Cert.Spec

end
-- ==== Proof.KernelIdeal.StretchLay.lean ====
/-
  The kernel program's four stretches of host operations, the layout part, read at an index from any contents W
  they start at: the edge sources and destinations are the two rows of the edge array; the batch column is the
  batch array; the transposed weights are the weights with their two coordinates exchanged; a bias row is the bias
  array; and a buffer a stretch does not write keeps its contents.
-/
import proofs.«415663_j86775519249037_1_alg».proof.Proof.KernelIdeal.LaunchP
import proofs.«415663_j86775519249037_1_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec (aggOf tr tr5 srcOf dstOf)

variable (W : Valuation τ sig (Elt Ideal))

/-! ## The layout operations at an index -/

/-- A row of the two-row edge array, flattened: entry e of row 0 -/
theorem row0_apply {α : Type} (x : S2x800000.Idx → α) (e : Fin 800000) :
    shapeCast S800000 (extractStridedSlice S1x800000 ![0, 0] x slices_S2x800000_S1x800000_0_0) shapeCasts_S1x800000_S800000 (ix1 e) = x (ix2 0 e) := by
  rw [shapeCast_apply _ shapeCasts_S1x800000_S800000 (ix1 e) (ix2 0 e)
    (by rewrite [Shape.rowMajor_val_two, Shape.rowMajor_val_one]; show 0 * 800000 + e.val = e.val; omega)]
  exact extractStridedSlice_apply ![0, 0] x slices_S2x800000_S1x800000_0_0 (ix2 0 e) (ix2 0 e) (fun a => match a with
    | ⟨0, _⟩ => by show 0 = 0 + 0; omega
    | ⟨1, _⟩ => by show e.val = 0 + e.val; omega)

/-- and of row 1. -/
theorem row1_apply {α : Type} (x : S2x800000.Idx → α) (e : Fin 800000) :
    shapeCast S800000 (extractStridedSlice S1x800000 ![1, 0] x slices_S2x800000_S1x800000_1_0) shapeCasts_S1x800000_S800000 (ix1 e) = x (ix2 1 e) := by
  rw [shapeCast_apply _ shapeCasts_S1x800000_S800000 (ix1 e) (ix2 0 e)
    (by rewrite [Shape.rowMajor_val_two, Shape.rowMajor_val_one]; show 0 * 800000 + e.val = e.val; omega)]
  exact extractStridedSlice_apply ![1, 0] x slices_S2x800000_S1x800000_1_0 (ix2 0 e) (ix2 1 e) (fun a => match a with
    | ⟨0, _⟩ => by show 1 = 1 + 0; omega
    | ⟨1, _⟩ => by show e.val = 0 + e.val; omega)

/-- A vector of 50000 entries as a column: entry (n, 0) is entry n. -/
theorem col_apply {α : Type} (x : S50000.Idx → α) (n : Fin 50000) :
    shapeCast S50000x1 x shapeCasts_S50000_S50000x1 (ix2 n 0) = x (ix1 n) :=
  shapeCast_apply x shapeCasts_S50000_S50000x1 (ix2 n 0) (ix1 n)
    (by rewrite [Shape.rowMajor_val_two, Shape.rowMajor_val_one]; show n.val = n.val * 1 + 0; omega)

/-- A vector of 64 entries as a row: entry (0, j) is entry j. -/
theorem row64_apply {α : Type} (x : S64.Idx → α) (j : Fin 64) :
    shapeCast S1x64 x shapeCasts_S64_S1x64 (ix2 0 j) = x (ix1 j) :=
  shapeCast_apply x shapeCasts_S64_S1x64 (ix2 0 j) (ix1 j)
    (by rewrite [Shape.rowMajor_val_two, Shape.rowMajor_val_one]; show j.val = 0 * 64 + j.val; omega)

/-- A vector of 32 entries as a row. -/
theorem row32_apply {α : Type} (x : S32.Idx → α) (j : Fin 32) :
    shapeCast S1x32 x shapeCasts_S32_S1x32 (ix2 0 j) = x (ix1 j) :=
  shapeCast_apply x shapeCasts_S32_S1x32 (ix2 0 j) (ix1 j)
    (by rewrite [Shape.rowMajor_val_two, Shape.rowMajor_val_one]; show j.val = 0 * 32 + j.val; omega)

/-- The transpose of a square matrix exchanges its coordinates, -/
theorem transpose_sq (x : S64x64.Idx → EReal) : transpose S64x64 [1, 0] x transposes_S64x64_S64x64_1_0 = tr x :=
  funext fun i => transpose_apply [1, 0] x transposes_S64x64_S64x64_1_0 i (ix2 (i 1) (i 0)) (fun b => match b with
    | ⟨0, _⟩ => rfl
    | ⟨1, _⟩ => rfl)

/-- and so does that of the 32 × 64 matrix. -/
theorem transpose_out (x : S32x64.Idx → EReal) : transpose S64x32 [1, 0] x transposes_S32x64_S64x32_1_0 = tr5 x :=
  funext fun i => transpose_apply [1, 0] x transposes_S32x64_S64x32_1_0 i (ix2 (i 1) (i 0)) (fun b => match b with
    | ⟨0, _⟩ => rfl
    | ⟨1, _⟩ => rfl)

/-! ## The first stretch -/

/-- Every operation of the first stretch writes one of the listed references. -/
theorem s0_writes : (hostOps0 : List (HloOp τ sig (Elt Ideal))).Forall fun op => op.writes ⊆ (([main_v0, main_v1, main_v2, main_v3, main_v4, main_v5, main_v6, main_v7, main_v8, main_v9, main_v10, main_v11, main_v12, main_c, main_v13, main_v14, main_c_0, main_v15, main_v16, main_v17, main_v18, main_v19, main_cst, main_v20, main_v21, main_v22, main_v23] : List (Ref sig .tc)).map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem s0_src (e : Fin 800000) : StableHlo.after hostOps0 W (Proc.devRef .tc main_v1) (ix1 e) = W (Proc.devRef .tc main_arg1) (ix2 0 e) := by
  dsimp only [hostOps0]
  after_results
  exact row0_apply _ e
theorem s0_dst (e : Fin 800000) : StableHlo.after hostOps0 W (Proc.devRef .tc main_v3) (ix1 e) = W (Proc.devRef .tc main_arg1) (ix2 1 e) := by
  dsimp only [hostOps0]
  after_results
  exact row1_apply _ e
theorem s0_batch (n : Fin 50000) : StableHlo.after hostOps0 W (Proc.devRef .tc main_v4) (ix2 n 0) = W (Proc.devRef .tc main_arg2) (ix1 n) := by
  dsimp only [hostOps0]
  after_results
  exact col_apply _ n
theorem s0_v5 : StableHlo.after hostOps0 W (Proc.devRef .tc main_v5) = tr (W (Proc.devRef .tc main_arg3)) := by
  dsimp only [hostOps0]
  after_results
  exact transpose_sq _
theorem s0_v6 : StableHlo.after hostOps0 W (Proc.devRef .tc main_v6) = tr (W (Proc.devRef .tc main_arg5)) := by
  dsimp only [hostOps0]
  after_results
  exact transpose_sq _
theorem s0_v7 : StableHlo.after hostOps0 W (Proc.devRef .tc main_v7) = tr (W (Proc.devRef .tc main_arg6)) := by
  dsimp only [hostOps0]
  after_results
  exact transpose_sq _
theorem s0_v8 : StableHlo.after hostOps0 W (Proc.devRef .tc main_v8) = tr (W (Proc.devRef .tc main_arg8)) := by
  dsimp only [hostOps0]
  after_results
  exact transpose_sq _
theorem s0_v9 : StableHlo.after hostOps0 W (Proc.devRef .tc main_v9) = tr (W (Proc.devRef .tc main_arg9)) := by
  dsimp only [hostOps0]
  after_results
  exact transpose_sq _
theorem s0_v10 : StableHlo.after hostOps0 W (Proc.devRef .tc main_v10) = tr (W (Proc.devRef .tc main_arg11)) := by
  dsimp only [hostOps0]
  after_results
  exact transpose_sq _
theorem s0_v11 : StableHlo.after hostOps0 W (Proc.devRef .tc main_v11) = tr (W (Proc.devRef .tc main_arg12)) := by
  dsimp only [hostOps0]
  after_results
  exact transpose_sq _
theorem s0_v12 : StableHlo.after hostOps0 W (Proc.devRef .tc main_v12) = tr5 (W (Proc.devRef .tc main_arg14)) := by
  dsimp only [hostOps0]
  after_results
  exact transpose_out _
theorem s0_bias (j : Fin 64) : StableHlo.after hostOps0 W (Proc.devRef .tc main_v23) (ix2 0 j) = W (Proc.devRef .tc main_arg4) (ix1 j) := by
  dsimp only [hostOps0]
  after_results
  exact row64_apply _ j
/-- A buffer the first stretch does not write keeps its contents. -/
theorem s0_kept (b : Ref sig .tc) (h : b ∉ ([main_v0, main_v1, main_v2, main_v3, main_v4, main_v5, main_v6, main_v7, main_v8, main_v9, main_v10, main_v11, main_v12, main_c, main_v13, main_v14, main_c_0, main_v15, main_v16, main_v17, main_v18, main_v19, main_cst, main_v20, main_v21, main_v22, main_v23] : List (Ref sig .tc))) :
    StableHlo.after hostOps0 W (Proc.devRef .tc b) = W (Proc.devRef .tc b) := by
  exact StableHlo.after_of_writes_sub hostOps0 W s0_writes h

/-! ## The second stretch -/

/-- Every operation of the second stretch writes one of the listed references. -/
theorem s1_writes : (hostOps1 : List (HloOp τ sig (Elt Ideal))).Forall fun op => op.writes ⊆ (([main_c_1, main_v25, main_v26, main_c_2, main_v27, main_v28, main_v29, main_v30, main_v31, main_cst_3, main_v32, main_v33, main_v34, main_v35] : List (Ref sig .tc)).map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem s1_bias (j : Fin 64) : StableHlo.after hostOps1 W (Proc.devRef .tc main_v35) (ix2 0 j) = W (Proc.devRef .tc main_arg7) (ix1 j) := by
  dsimp only [hostOps1]
  after_results
  exact row64_apply _ j
theorem s1_kept (b : Ref sig .tc) (h : b ∉ ([main_c_1, main_v25, main_v26, main_c_2, main_v27, main_v28, main_v29, main_v30, main_v31, main_cst_3, main_v32, main_v33, main_v34, main_v35] : List (Ref sig .tc))) :
    StableHlo.after hostOps1 W (Proc.devRef .tc b) = W (Proc.devRef .tc b) := by
  exact StableHlo.after_of_writes_sub hostOps1 W s1_writes h

/-! ## The third stretch -/

/-- Every operation of the third stretch writes one of the listed references. -/
theorem s2_writes : (hostOps2 : List (HloOp τ sig (Elt Ideal))).Forall fun op => op.writes ⊆ (([main_c_4, main_v37, main_v38, main_c_5, main_v39, main_v40, main_v41, main_v42, main_v43, main_cst_6, main_v44, main_v45, main_v46, main_v47] : List (Ref sig .tc)).map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem s2_bias (j : Fin 64) : StableHlo.after hostOps2 W (Proc.devRef .tc main_v47) (ix2 0 j) = W (Proc.devRef .tc main_arg10) (ix1 j) := by
  dsimp only [hostOps2]
  after_results
  exact row64_apply _ j
theorem s2_kept (b : Ref sig .tc) (h : b ∉ ([main_c_4, main_v37, main_v38, main_c_5, main_v39, main_v40, main_v41, main_v42, main_v43, main_cst_6, main_v44, main_v45, main_v46, main_v47] : List (Ref sig .tc))) :
    StableHlo.after hostOps2 W (Proc.devRef .tc b) = W (Proc.devRef .tc b) := by
  exact StableHlo.after_of_writes_sub hostOps2 W s2_writes h

/-! ## The fourth stretch -/

/-- Every operation of the fourth stretch writes one of the listed references. -/
theorem s3_writes : (hostOps3 : List (HloOp τ sig (Elt Ideal))).Forall fun op => op.writes ⊆ (([main_v49, main_v50] : List (Ref sig .tc)).map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem s3_b4 (j : Fin 64) : StableHlo.after hostOps3 W (Proc.devRef .tc main_v49) (ix2 0 j) = W (Proc.devRef .tc main_arg13) (ix1 j) := by
  dsimp only [hostOps3]
  after_results
  exact row64_apply _ j
theorem s3_b5 (j : Fin 32) : StableHlo.after hostOps3 W (Proc.devRef .tc main_v50) (ix2 0 j) = W (Proc.devRef .tc main_arg15) (ix1 j) := by
  dsimp only [hostOps3]
  after_results
  exact row32_apply _ j
theorem s3_kept (b : Ref sig .tc) (h : b ∉ ([main_v49, main_v50] : List (Ref sig .tc))) :
    StableHlo.after hostOps3 W (Proc.devRef .tc b) = W (Proc.devRef .tc b) := by
  exact StableHlo.after_of_writes_sub hostOps3 W s3_writes h

end Cert.KernelIdeal.Hand

end
-- ==== Proof.KernelIdeal.Stretch.lean ====
/-
  The neighbour aggregate the kernel program's first three stretches of host operations form, from any contents W
  they start at. Each stretch wraps the source words (a negative word has 50000 added), gathers the rows they name
  (clamped into the node range) from the features, and adds row e of the gathered array into row dst(e) of a zero
  array, dropping a destination word that names no row:
      result (v, j) = ∑_{e : dst(e) = v} feat(row(src e), j).
  In the first stretch the source and destination words are rows 0 and 1 of the edge array; in the second and third
  they are the two edge vectors the first stretch left.
-/
import proofs.«415663_j86775519249037_1_alg».proof.Proof.KernelIdeal.LaunchP
import proofs.«415663_j86775519249037_1_alg».proof.Proof.KernelIdeal.StretchLay
import proofs.«415663_j86775519249037_1_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec (aggOf tr tr5 srcOf dstOf)

namespace Agg

/-! ## The layout operations of the aggregate, read at an index -/

section Reads

variable {α : Type}

/-- Row 0 of the edge array, flattened, reads the array at (0, e). -/
theorem edgeRow0_apply (x : S2x800000.Idx → α) (e : Fin 800000) :
    shapeCast S800000 (extractStridedSlice S1x800000 ![0, 0] x slices_S2x800000_S1x800000_0_0) shapeCasts_S1x800000_S800000 (ix1 e)
      = x (ix2 0 e) := by
  rw [shapeCast_1a_a_apply]
  exact slice2_axis0_apply 0 x slices_S2x800000_S1x800000_0_0 (0 : Fin 1) e (0 : Fin 2) rfl

/-- Row 1 of the edge array, flattened, reads the array at (1, e). -/
theorem edgeRow1_apply (x : S2x800000.Idx → α) (e : Fin 800000) :
    shapeCast S800000 (extractStridedSlice S1x800000 ![1, 0] x slices_S2x800000_S1x800000_1_0) shapeCasts_S1x800000_S800000 (ix1 e)
      = x (ix2 1 e) := by
  rw [shapeCast_1a_a_apply]
  exact slice2_axis0_apply 1 x slices_S2x800000_S1x800000_1_0 (0 : Fin 1) e (1 : Fin 2) rfl

/-- A scalar broadcast along the edges reads the scalar. -/
theorem bcastE_apply (x : S_.Idx → α) (i : S800000.Idx) :
    broadcastInDim S800000 ![] bcast_S_S800000 x i = x ix0 :=
  broadcastInDim_apply _ bcast_S_S800000 x i ix0 (fun a => a.elim0)

/-- A scalar broadcast over the rows array reads the scalar. -/
theorem bcastR_apply (x : S_.Idx → α) (i : S50000x64.Idx) :
    broadcastInDim S50000x64 ![] bcast_S_S50000x64 x i = x ix0 :=
  broadcastInDim_apply _ bcast_S_S50000x64 x i ix0 (fun a => a.elim0)

/-- An edge vector as a column reads, at (e, 0), the vector at e. -/
theorem bcastC_apply (x : S800000.Idx → α) (e : Fin 800000) :
    broadcastInDim S800000x1 ![0] bcast_S800000_S800000x1_0 x (ix2 e 0) = x (ix1 e) :=
  broadcastInDim_apply _ bcast_S800000_S800000x1_0 x (ix2 e 0) (ix1 e) (fun a => match a with
    | ⟨0, _⟩ => by show e.val = if (800000 : Nat) = 1 then 0 else e.val; rw [if_neg (by decide)])

end Reads

/-! ## The pieces of the aggregate -/

/-- The scatter-add of rows through a column of destination words, at (v, j): the operand's entry plus the rows
    whose word is v. -/
theorem scatter_read (x : S50000x64.Idx → EReal) (idx : S800000x1.Idx → BitVec 32) (u : S800000x64.Idx → EReal)
    (v : Fin 50000) (j : Fin 64) :
    Host.scatterAdd (F := Ideal) (φ := .f32) scatter_S50000x64_S800000x1_S800000x64_1_0_0_1 x idx u (ix2 v j)
      = x (ix2 v j) + ∑ e ∈ Cert.GcnLib.landing idx v, u (ix2 e j) := by
  unfold Host.scatterAdd
  rw [Ideal.hostScatterAdd_def]
  exact Cert.GcnLib.scatterAdd_rows_apply scatter_S50000x64_S800000x1_S800000x64_1_0_0_1 rfl rfl rfl rfl x idx u v j

/-- The gather of rows through a column of source words, at (e, j): row clamp(word e) of the features. -/
theorem gather_read (feat : S50000x64.Idx → EReal) (idx : S800000x1.Idx → BitVec 32) (e : Fin 800000) (j : Fin 64) :
    Host.gather gather_S50000x64_S800000x1_S800000x64_1_0_n_n_0_1_164 feat idx (ix2 e j)
      = feat (ix2 (Cert.GcnLib.clampRow 50000 (by decide) (idx (ix2 e 0))) j) :=
  Cert.GcnLib.gather_rows_apply (by decide) gather_S50000x64_S800000x1_S800000x64_1_0_n_n_0_1_164 rfl rfl rfl rfl rfl rfl rfl feat idx e j

/-- The scatter's operand is zero everywhere. -/
theorem zeros_apply (i : S50000x64.Idx) :
    broadcastInDim S50000x64 ![] bcast_S_S50000x64 (constant (F := Ideal) S_ .f32 0x00000000#32) i = 0 := by
  rw [bcastR_apply]
  exact Ideal.ofBits_zero_f32

/-- The edges landing on row v through the destination column: those whose destination word, read signed, is v. -/
theorem landing_col (dstv : S800000.Idx → BitVec 32) (v : Fin 50000) :
    Cert.GcnLib.landing (broadcastInDim S800000x1 ![0] bcast_S800000_S800000x1_0 dstv) v
      = Finset.univ.filter (fun e : Fin 800000 => (dstv (ix1 e)).toInt = (v.val : Int)) := by
  unfold Cert.GcnLib.landing
  ext e
  simp only [Finset.mem_filter, Finset.mem_univ, true_and]
  rw [bcastC_apply]

/-- The wrapped source words as a column, at (e, 0): the wrap of edge e's source word. -/
theorem wrapCol_apply (srcv : S800000.Idx → BitVec 32) (e : Fin 800000) :
    broadcastInDim S800000x1 ![0] bcast_S800000_S800000x1_0
        (select (cmpi .slt srcv (broadcastInDim S800000 ![] bcast_S_S800000 (constantI S_ 32 0#32)))
          (addi srcv (broadcastInDim S800000 ![] bcast_S_S800000 (constantI S_ 32 50000#32))) srcv) (ix2 e 0)
      = Cert.GcnLib.wrapWord 50000#32 (srcv (ix1 e)) := by
  rw [bcastC_apply]
  show Scalar.select (IntOp.cmpi .slt (srcv (ix1 e)) (broadcastInDim S800000 ![] bcast_S_S800000 (constantI S_ 32 0#32) (ix1 e)))
      (IntOp.addi (srcv (ix1 e)) (broadcastInDim S800000 ![] bcast_S_S800000 (constantI S_ 32 50000#32) (ix1 e))) (srcv (ix1 e)) = _
  rw [bcastE_apply, bcastE_apply]
  rfl

/-- The composed operations at (v, j), as the sum over the edges landing on v. -/
theorem agg_sum (feat : S50000x64.Idx → EReal) (srcv dstv : S800000.Idx → BitVec 32) (v : Fin 50000) (j : Fin 64) :
    Host.scatterAdd (F := Ideal) (φ := .f32) scatter_S50000x64_S800000x1_S800000x64_1_0_0_1
        (broadcastInDim S50000x64 ![] bcast_S_S50000x64 (constant (F := Ideal) S_ .f32 0x00000000#32))
        (broadcastInDim S800000x1 ![0] bcast_S800000_S800000x1_0 dstv)
        (Host.gather gather_S50000x64_S800000x1_S800000x64_1_0_n_n_0_1_164 feat
          (broadcastInDim S800000x1 ![0] bcast_S800000_S800000x1_0
            (select (cmpi .slt srcv (broadcastInDim S800000 ![] bcast_S_S800000 (constantI S_ 32 0#32)))
              (addi srcv (broadcastInDim S800000 ![] bcast_S_S800000 (constantI S_ 32 50000#32))) srcv))) (ix2 v j)
      = ∑ e ∈ Finset.univ.filter (fun e : Fin 800000 => (dstv (ix1 e)).toInt = (v.val : Int)),
          feat (ix2 (Cert.GcnLib.clampRow 50000 (by decide) (Cert.GcnLib.wrapWord 50000#32 (srcv (ix1 e)))) j) := by
  rw [scatter_read, zeros_apply, zero_add, landing_col]
  refine Finset.sum_congr rfl fun e _ => ?_
  rw [gather_read, wrapCol_apply]

/-- The specification's aggregate at (v, j), written out. -/
theorem aggOf_apply (feat : S50000x64.Idx → EReal) (src dst : Fin 800000 → BitVec 32) (v : Fin 50000) (j : Fin 64) :
    aggOf feat src dst (ix2 v j)
      = ∑ e ∈ Finset.univ.filter (fun e : Fin 800000 => (dst e).toInt = (v.val : Int)),
          feat (ix2 (Cert.GcnLib.clampRow 50000 (by decide) (Cert.GcnLib.wrapWord 50000#32 (src e))) j) := rfl

/-- Gather the wrapped source rows, add them at the destination rows of a zero array: the neighbour aggregate, at (v, j). -/
theorem agg_term_apply (feat : S50000x64.Idx → EReal) (srcv dstv : S800000.Idx → BitVec 32) (v : Fin 50000) (j : Fin 64) :
    Host.scatterAdd (F := Ideal) (φ := .f32) scatter_S50000x64_S800000x1_S800000x64_1_0_0_1
        (broadcastInDim S50000x64 ![] bcast_S_S50000x64 (constant (F := Ideal) S_ .f32 0x00000000#32))
        (broadcastInDim S800000x1 ![0] bcast_S800000_S800000x1_0 dstv)
        (Host.gather gather_S50000x64_S800000x1_S800000x64_1_0_n_n_0_1_164 feat
          (broadcastInDim S800000x1 ![0] bcast_S800000_S800000x1_0
            (select (cmpi .slt srcv (broadcastInDim S800000 ![] bcast_S_S800000 (constantI S_ 32 0#32)))
              (addi srcv (broadcastInDim S800000 ![] bcast_S_S800000 (constantI S_ 32 50000#32))) srcv))) (ix2 v j)
      = aggOf feat (fun e => srcv (ix1 e)) (fun e => dstv (ix1 e)) (ix2 v j) := by
  rw [agg_sum, aggOf_apply]

/-- The same as arrays. -/
theorem agg_term (feat : S50000x64.Idx → EReal) (srcv dstv : S800000.Idx → BitVec 32) :
    Host.scatterAdd (F := Ideal) (φ := .f32) scatter_S50000x64_S800000x1_S800000x64_1_0_0_1
        (broadcastInDim S50000x64 ![] bcast_S_S50000x64 (constant (F := Ideal) S_ .f32 0x00000000#32))
        (broadcastInDim S800000x1 ![0] bcast_S800000_S800000x1_0 dstv)
        (Host.gather gather_S50000x64_S800000x1_S800000x64_1_0_n_n_0_1_164 feat
          (broadcastInDim S800000x1 ![0] bcast_S800000_S800000x1_0
            (select (cmpi .slt srcv (broadcastInDim S800000 ![] bcast_S_S800000 (constantI S_ 32 0#32)))
              (addi srcv (broadcastInDim S800000 ![] bcast_S_S800000 (constantI S_ 32 50000#32))) srcv)))
      = aggOf feat (fun e => srcv (ix1 e)) (fun e => dstv (ix1 e)) := by
  funext i
  rw [eq_ix2 i]
  exact agg_term_apply feat srcv dstv (i 0) (i 1)

/-- The aggregate depends on the source and destination words edge by edge. -/
theorem aggOf_congr (feat : S50000x64.Idx → EReal) {s s' d d' : Fin 800000 → BitVec 32}
    (hs : ∀ e, s e = s' e) (hd : ∀ e, d e = d' e) : aggOf feat s d = aggOf feat s' d' := by
  rw [show s = s' from funext hs, show d = d' from funext hd]

end Agg

open Agg

variable (W : Valuation τ sig (Elt Ideal))

/-! ## The first stretch -/

set_option maxHeartbeats 1000000 in
theorem s0_agg : StableHlo.after hostOps0 W (Proc.devRef .tc main_v22)
    = aggOf (W (Proc.devRef .tc main_arg0)) (srcOf (W (Proc.devRef .tc main_arg1))) (dstOf (W (Proc.devRef .tc main_arg1))) := by
  show StableHlo.after hostOps0 W (Proc.devRef .tc main_v22) = _
  after_results
  refine (agg_term _ _ _).trans (aggOf_congr _ (fun e => ?_) (fun e => ?_))
  · exact edgeRow0_apply (W (Proc.devRef .tc main_arg1)) e
  · exact edgeRow1_apply (W (Proc.devRef .tc main_arg1)) e

/-! ## The second stretch -/

set_option maxHeartbeats 400000 in
theorem s1_agg : StableHlo.after hostOps1 W (Proc.devRef .tc main_v34)
    = aggOf (W (Proc.devRef .tc main_v24)) (fun e => W (Proc.devRef .tc main_v1) (ix1 e)) (fun e => W (Proc.devRef .tc main_v3) (ix1 e)) := by
  show StableHlo.after hostOps1 W (Proc.devRef .tc main_v34) = _
  after_results
  exact agg_term (W (Proc.devRef .tc main_v24)) (W (Proc.devRef .tc main_v1)) (W (Proc.devRef .tc main_v3))

/-! ## The third stretch -/

set_option maxHeartbeats 400000 in
theorem s2_agg : StableHlo.after hostOps2 W (Proc.devRef .tc main_v46)
    = aggOf (W (Proc.devRef .tc main_v36)) (fun e => W (Proc.devRef .tc main_v1) (ix1 e)) (fun e => W (Proc.devRef .tc main_v3) (ix1 e)) := by
  show StableHlo.after hostOps2 W (Proc.devRef .tc main_v46) = _
  after_results
  exact agg_term (W (Proc.devRef .tc main_v36)) (W (Proc.devRef .tc main_v1)) (W (Proc.devRef .tc main_v3))

end Cert.KernelIdeal.Hand

end
-- ==== Proof.KernelIdeal.ConvValue0.lean ====
/-
  What a graph-convolution launch leaves in its output array, over the extended reals: the array's blocks tile it,
  block t holds the layer's value on rows 5000·t … 5000·t+4999, so the whole array is the layer's value
      max((∑ₖ a(n,k)·Wr(k,j) + ∑ₖ x(n,k)·Wo(k,j)) + b(j), 0)
  of the arrays the launch was entered with.
-/
import proofs.«415663_j86775519249037_1_alg».proof.Proof.KernelIdeal.Conv0
import proofs.«415663_j86775519249037_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The payload at an index -/

/-- In both products the left operand is read at (row of the output, contraction coordinate) -/
theorem lhs_row0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_con0 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- and the right operand at (contraction coordinate, column of the output). -/
theorem rhs_con0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col0 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a [5000,64] block with a [64,64] matrix into the zero block, at (p, q): the row-by-column sum. -/
theorem matmul_apply0 {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row0 _ _
    | ⟨1, _⟩ => exact (lhs_con0 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_con0 _ _).trans hk
    | ⟨1, _⟩ => exact rhs_col0 _ _)
  rw [el, er]

/-- The bias row broadcast down the block, at (p, q): the row's entry q. -/
theorem bias_apply0 (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => show q.val = if (64 : Nat) = 1 then 0 else q.val; rw [if_neg (by decide)])

/-- The body's payload at (p, q): the two row-by-column sums, the bias entry, and the maximum with zero. -/
theorem pay_apply0 (xa xf : Vec Ideal S5000x64 .f32) (wr wo : Vec Ideal S64x64 .f32) (b : Vec Ideal S1x64 .f32)
    (p : Fin 5000) (q : Fin 64) :
    k0_pay1 (F := Ideal) xa xf wr wo b (ix2 p q)
      = max (((∑ k : Fin 64, xa (ix2 p k) * wr (ix2 k q)) + ∑ k : Fin 64, xf (ix2 p k) * wo (ix2 k q)) + b (ix2 0 q)) 0 := by
  unfold k0_pay1
  simp only [maximumf_apply, addf_apply, broadcast_apply, matmul_apply0, bias_apply0, truncf_apply, shapeCast_self]
  show max _ (Ideal.ofBits .f32 0x00000000#32) = _
  rw [Ideal.ofBits_zero_f32]

/-! ## From the blocks to the array -/

theorem zero_off0 : (![0, 0] : Fin 2 → Nat) = fun _ => 0 := funext fun a => by fin_cases a <;> rfl

/-- The grid has ten points. -/
theorem grid_size0 : cfg0.N = 10 := by decide

/-- The block indices over the grid: at point t the aggregated, feature and output blocks are block (t, 0) of their
    arrays, and the two weight matrices and the bias row are block (0, 0), the whole array. -/
theorem idx_facts0 : ∀ t : Fin cfg0.N,
    (cfg0.win 0).index t (0 : Fin 2) = t.val ∧ (cfg0.win 0).index t (1 : Fin 2) = 0
    ∧ (cfg0.win 1).index t (0 : Fin 2) = t.val ∧ (cfg0.win 1).index t (1 : Fin 2) = 0
    ∧ (cfg0.win 2).index t (0 : Fin 2) = 0 ∧ (cfg0.win 2).index t (1 : Fin 2) = 0
    ∧ (cfg0.win 3).index t (0 : Fin 2) = 0 ∧ (cfg0.win 3).index t (1 : Fin 2) = 0
    ∧ (cfg0.win 4).index t (0 : Fin 2) = 0 ∧ (cfg0.win 4).index t (1 : Fin 2) = 0
    ∧ (cfg0.win 5).index t (0 : Fin 2) = t.val ∧ (cfg0.win 5).index t (1 : Fin 2) = 0 :=
  (by decide +kernel : ∀ t : Fin grid0.N, _)

/-- Row p of block t is row 5000·t + p of the array. -/
def rowOf0 (t : Fin cfg0.N) (p : Fin 5000) : Fin 50000 :=
  ⟨5000 * t.val + p.val, by have h : t.val < 10 := grid_size0 ▸ t.isLt; have := p.isLt; omega⟩

/-- The layer's value of the five arrays the launch is entered with. -/
abbrev layer0 (c : Dev nD) : Cert.Spec.Rows.Idx → EReal :=
  Cert.Spec.layerRelu (V c (Pipeline.arrRef spec0 0)) (V c (Pipeline.arrRef spec0 1)) (V c (Pipeline.arrRef spec0 2))
    (V c (Pipeline.arrRef spec0 4)) (fun j => V c (Pipeline.arrRef spec0 3) (ix2 0 j))

/-- Entry (p, q) of the output's block t is entry (5000·t + p, q) of the output array. -/
theorem emb_out0 (t : Fin cfg0.N) (p : Fin 5000) (q : Fin 64) :
    ((cfg0.win 5).blk t).view.emb (ix2 p q) = (ix2 (rowOf0 t p) q : Cert.Spec.Rows.Idx) := by
  obtain ⟨-, -, -, -, -, -, -, -, -, -, e50, e51⟩ := idx_facts0 t
  funext a; apply Fin.ext
  match a with
  | ⟨0, _⟩ => show (cfg0.win 5).index t (0 : Fin 2) * 5000 + 1 * p.val = 5000 * t.val + p.val; omega
  | ⟨1, _⟩ => show (cfg0.win 5).index t (1 : Fin 2) * 64 + 1 * q.val = q.val; omega

/-- The aggregated block at point t holds rows 5000·t … of the aggregated array, -/
theorem iblk_agg0 (c : Dev nD) (t : Fin cfg0.N) (p : Fin 5000) (k : Fin 64) :
    iblk0 V c 0 t (ix2 p k) = V c (Pipeline.arrRef spec0 0) (ix2 (rowOf0 t p) k) := by
  obtain ⟨e00, e01, -⟩ := idx_facts0 t
  show V c (Pipeline.arrRef spec0 0) (((cfg0.win 0).blk t).view.emb (ix2 p k)) = _
  refine congrArg _ (funext fun a => Fin.ext ?_)
  match a with
  | ⟨0, _⟩ => show (cfg0.win 0).index t (0 : Fin 2) * 5000 + 1 * p.val = 5000 * t.val + p.val; omega
  | ⟨1, _⟩ => show (cfg0.win 0).index t (1 : Fin 2) * 64 + 1 * k.val = k.val; omega

/-- the feature block the same rows of the feature array, -/
theorem iblk_feat0 (c : Dev nD) (t : Fin cfg0.N) (p : Fin 5000) (k : Fin 64) :
    iblk0 V c 1 t (ix2 p k) = V c (Pipeline.arrRef spec0 1) (ix2 (rowOf0 t p) k) := by
  obtain ⟨-, -, e10, e11, -⟩ := idx_facts0 t
  show V c (Pipeline.arrRef spec0 1) (((cfg0.win 1).blk t).view.emb (ix2 p k)) = _
  refine congrArg _ (funext fun a => Fin.ext ?_)
  match a with
  | ⟨0, _⟩ => show (cfg0.win 1).index t (0 : Fin 2) * 5000 + 1 * p.val = 5000 * t.val + p.val; omega
  | ⟨1, _⟩ => show (cfg0.win 1).index t (1 : Fin 2) * 64 + 1 * k.val = k.val; omega

/-- and the two weight blocks and the bias block their whole arrays. -/
theorem iblk_wrel0 (c : Dev nD) (t : Fin cfg0.N) (k q : Fin 64) :
    iblk0 V c 2 t (ix2 k q) = V c (Pipeline.arrRef spec0 2) (ix2 k q) := by
  obtain ⟨-, -, -, -, e20, e21, -⟩ := idx_facts0 t
  show V c (Pipeline.arrRef spec0 2) (((cfg0.win 2).blk t).view.emb (ix2 k q)) = _
  refine congrArg _ (funext fun a => Fin.ext ?_)
  match a with
  | ⟨0, _⟩ => show (cfg0.win 2).index t (0 : Fin 2) * 64 + 1 * k.val = k.val; omega
  | ⟨1, _⟩ => show (cfg0.win 2).index t (1 : Fin 2) * 64 + 1 * q.val = q.val; omega

theorem iblk_bias0 (c : Dev nD) (t : Fin cfg0.N) (q : Fin 64) :
    iblk0 V c 3 t (ix2 0 q) = V c (Pipeline.arrRef spec0 3) (ix2 0 q) := by
  obtain ⟨-, -, -, -, -, -, e30, e31, -⟩ := idx_facts0 t
  show V c (Pipeline.arrRef spec0 3) (((cfg0.win 3).blk t).view.emb (ix2 0 q)) = _
  refine congrArg _ (funext fun a => Fin.ext ?_)
  match a with
  | ⟨0, _⟩ => show (cfg0.win 3).index t (0 : Fin 2) * 1 + 1 * 0 = 0; omega
  | ⟨1, _⟩ => show (cfg0.win 3).index t (1 : Fin 2) * 64 + 1 * q.val = q.val; omega

theorem iblk_wroot0 (c : Dev nD) (t : Fin cfg0.N) (k q : Fin 64) :
    iblk0 V c 4 t (ix2 k q) = V c (Pipeline.arrRef spec0 4) (ix2 k q) := by
  obtain ⟨-, -, -, -, -, -, -, -, e40, e41, -⟩ := idx_facts0 t
  show V c (Pipeline.arrRef spec0 4) (((cfg0.win 4).blk t).view.emb (ix2 k q)) = _
  refine congrArg _ (funext fun a => Fin.ext ?_)
  match a with
  | ⟨0, _⟩ => show (cfg0.win 4).index t (0 : Fin 2) * 64 + 1 * k.val = k.val; omega
  | ⟨1, _⟩ => show (cfg0.win 4).index t (1 : Fin 2) * 64 + 1 * q.val = q.val; omega

/-- What point t writes back is block t of the layer's value. -/
theorem flushed_eq0 (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero zero_off0]
  simp only [View.ld_unit_zero (S := S5000x64) zero_off0, View.ld_unit_zero (S := S64x64) zero_off0, View.ld_unit_zero (S := S1x64) zero_off0]
  funext j
  obtain ⟨p, q, rfl⟩ : ∃ (p : Fin 5000) (q : Fin 64), j = ix2 p q := ⟨j 0, j 1, eq_ix2 j⟩
  refine (pay_apply0 _ _ _ _ _ p q).trans ?_
  show _ = layer0 V c (((cfg0.win 5).blk t).view.emb (ix2 p q))
  rw [emb_out0, iblk_bias0]
  simp only [iblk_agg0, iblk_feat0, iblk_wrel0, iblk_wroot0]
  rfl

/-- An index of the array is in point t's block iff each coordinate is in the block's range on its axis. -/
theorem mem_blk0 (t : Fin cfg0.N) (i : Cert.Spec.Rows.Idx) :
    i ∈ ((cfg0.win 5).blk t).view.set ↔ ∀ a : Fin 2, (cfg0.win 5).index t a * S5000x64.size a ≤ (i a).val ∧ (i a).val < (cfg0.win 5).index t a * S5000x64.size a + S5000x64.size a := by
  show i ∈ ((View.whole (Pipeline.arrRef spec0 5)).slice ((cfg0.win 5).rect t)).set ↔ _
  rw [View.set_slice_whole, Rect.mem_set_unit]
  exact Iff.rfl

/-- The blocks tile the array: row r is in block r / 5000. -/
theorem cover_rows0 (i : Cert.Spec.Rows.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [grid_size0]; omega⟩, rfl⟩
  obtain ⟨-, -, -, -, -, -, -, -, -, -, e50, e51⟩ := idx_facts0 t
  refine ⟨t, flush0_5 t, ?_⟩
  rw [mem_blk0]
  intro a
  match a with
  | ⟨0, _⟩ => show (cfg0.win 5).index t (0 : Fin 2) * 5000 ≤ (i 0).val ∧ (i 0).val < (cfg0.win 5).index t (0 : Fin 2) * 5000 + 5000; omega
  | ⟨1, _⟩ => show (cfg0.win 5).index t (1 : Fin 2) * 64 ≤ (i 1).val ∧ (i 1).val < (cfg0.win 5).index t (1 : Fin 2) * 64 + 64; omega

/-- The output array after the launch is the layer's value of the five operand arrays. -/
theorem final0 (c : Dev nD) :
    (dat0 (F := Ideal) V c).arrAt 5 cfg0.N
      = Cert.Spec.layerRelu (V c (Pipeline.arrRef spec0 0)) (V c (Pipeline.arrRef spec0 1)) (V c (Pipeline.arrRef spec0 2))
          (V c (Pipeline.arrRef spec0 4)) (fun j => V c (Pipeline.arrRef spec0 3) (ix2 0 j)) :=
  (dat0 (F := Ideal) V c).arrAt_eq_of_cover 5 (layer0 V c) (fun t _ => flushed_eq0 V c t) (fun i => cover_rows0 i)

end Cert.KernelIdeal.Hand

end
-- ==== Proof.KernelIdeal.ConvValue1.lean ====
/-
  What a graph-convolution launch leaves in its output array, over the extended reals: the array's blocks tile it,
  block t holds the layer's value on rows 5000·t … 5000·t+4999, so the whole array is the layer's value
      max((∑ₖ a(n,k)·Wr(k,j) + ∑ₖ x(n,k)·Wo(k,j)) + b(j), 0)
  of the arrays the launch was entered with.
-/
import proofs.«415663_j86775519249037_1_alg».proof.Proof.KernelIdeal.Conv1
import proofs.«415663_j86775519249037_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The payload at an index -/

/-- In both products the left operand is read at (row of the output, contraction coordinate) -/
theorem lhs_row1 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_con1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- and the right operand at (contraction coordinate, column of the output). -/
theorem rhs_con1 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a [5000,64] block with a [64,64] matrix into the zero block, at (p, q): the row-by-column sum. -/
theorem matmul_apply1 {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row1 _ _
    | ⟨1, _⟩ => exact (lhs_con1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_con1 _ _).trans hk
    | ⟨1, _⟩ => exact rhs_col1 _ _)
  rw [el, er]

/-- The bias row broadcast down the block, at (p, q): the row's entry q. -/
theorem bias_apply1 (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => show q.val = if (64 : Nat) = 1 then 0 else q.val; rw [if_neg (by decide)])

/-- The body's payload at (p, q): the two row-by-column sums, the bias entry, and the maximum with zero. -/
theorem pay_apply1 (xa xf : Vec Ideal S5000x64 .f32) (wr wo : Vec Ideal S64x64 .f32) (b : Vec Ideal S1x64 .f32)
    (p : Fin 5000) (q : Fin 64) :
    k1_pay1 (F := Ideal) xa xf wr wo b (ix2 p q)
      = max (((∑ k : Fin 64, xa (ix2 p k) * wr (ix2 k q)) + ∑ k : Fin 64, xf (ix2 p k) * wo (ix2 k q)) + b (ix2 0 q)) 0 := by
  unfold k1_pay1
  simp only [maximumf_apply, addf_apply, broadcast_apply, matmul_apply1, bias_apply1, truncf_apply, shapeCast_self]
  show max _ (Ideal.ofBits .f32 0x00000000#32) = _
  rw [Ideal.ofBits_zero_f32]

/-! ## From the blocks to the array -/

theorem zero_off1 : (![0, 0] : Fin 2 → Nat) = fun _ => 0 := funext fun a => by fin_cases a <;> rfl

/-- The grid has ten points. -/
theorem grid_size1 : cfg1.N = 10 := by decide

/-- The block indices over the grid: at point t the aggregated, feature and output blocks are block (t, 0) of their
    arrays, and the two weight matrices and the bias row are block (0, 0), the whole array. -/
theorem idx_facts1 : ∀ t : Fin cfg1.N,
    (cfg1.win 0).index t (0 : Fin 2) = t.val ∧ (cfg1.win 0).index t (1 : Fin 2) = 0
    ∧ (cfg1.win 1).index t (0 : Fin 2) = t.val ∧ (cfg1.win 1).index t (1 : Fin 2) = 0
    ∧ (cfg1.win 2).index t (0 : Fin 2) = 0 ∧ (cfg1.win 2).index t (1 : Fin 2) = 0
    ∧ (cfg1.win 3).index t (0 : Fin 2) = 0 ∧ (cfg1.win 3).index t (1 : Fin 2) = 0
    ∧ (cfg1.win 4).index t (0 : Fin 2) = 0 ∧ (cfg1.win 4).index t (1 : Fin 2) = 0
    ∧ (cfg1.win 5).index t (0 : Fin 2) = t.val ∧ (cfg1.win 5).index t (1 : Fin 2) = 0 :=
  (by decide +kernel : ∀ t : Fin grid1.N, _)

/-- Row p of block t is row 5000·t + p of the array. -/
def rowOf1 (t : Fin cfg1.N) (p : Fin 5000) : Fin 50000 :=
  ⟨5000 * t.val + p.val, by have h : t.val < 10 := grid_size1 ▸ t.isLt; have := p.isLt; omega⟩

/-- The layer's value of the five arrays the launch is entered with. -/
abbrev layer1 (c : Dev nD) : Cert.Spec.Rows.Idx → EReal :=
  Cert.Spec.layerRelu (V c (Pipeline.arrRef spec1 0)) (V c (Pipeline.arrRef spec1 1)) (V c (Pipeline.arrRef spec1 2))
    (V c (Pipeline.arrRef spec1 4)) (fun j => V c (Pipeline.arrRef spec1 3) (ix2 0 j))

/-- Entry (p, q) of the output's block t is entry (5000·t + p, q) of the output array. -/
theorem emb_out1 (t : Fin cfg1.N) (p : Fin 5000) (q : Fin 64) :
    ((cfg1.win 5).blk t).view.emb (ix2 p q) = (ix2 (rowOf1 t p) q : Cert.Spec.Rows.Idx) := by
  obtain ⟨-, -, -, -, -, -, -, -, -, -, e50, e51⟩ := idx_facts1 t
  funext a; apply Fin.ext
  match a with
  | ⟨0, _⟩ => show (cfg1.win 5).index t (0 : Fin 2) * 5000 + 1 * p.val = 5000 * t.val + p.val; omega
  | ⟨1, _⟩ => show (cfg1.win 5).index t (1 : Fin 2) * 64 + 1 * q.val = q.val; omega

/-- The aggregated block at point t holds rows 5000·t … of the aggregated array, -/
theorem iblk_agg1 (c : Dev nD) (t : Fin cfg1.N) (p : Fin 5000) (k : Fin 64) :
    iblk1 V c 0 t (ix2 p k) = V c (Pipeline.arrRef spec1 0) (ix2 (rowOf1 t p) k) := by
  obtain ⟨e00, e01, -⟩ := idx_facts1 t
  show V c (Pipeline.arrRef spec1 0) (((cfg1.win 0).blk t).view.emb (ix2 p k)) = _
  refine congrArg _ (funext fun a => Fin.ext ?_)
  match a with
  | ⟨0, _⟩ => show (cfg1.win 0).index t (0 : Fin 2) * 5000 + 1 * p.val = 5000 * t.val + p.val; omega
  | ⟨1, _⟩ => show (cfg1.win 0).index t (1 : Fin 2) * 64 + 1 * k.val = k.val; omega

/-- the feature block the same rows of the feature array, -/
theorem iblk_feat1 (c : Dev nD) (t : Fin cfg1.N) (p : Fin 5000) (k : Fin 64) :
    iblk1 V c 1 t (ix2 p k) = V c (Pipeline.arrRef spec1 1) (ix2 (rowOf1 t p) k) := by
  obtain ⟨-, -, e10, e11, -⟩ := idx_facts1 t
  show V c (Pipeline.arrRef spec1 1) (((cfg1.win 1).blk t).view.emb (ix2 p k)) = _
  refine congrArg _ (funext fun a => Fin.ext ?_)
  match a with
  | ⟨0, _⟩ => show (cfg1.win 1).index t (0 : Fin 2) * 5000 + 1 * p.val = 5000 * t.val + p.val; omega
  | ⟨1, _⟩ => show (cfg1.win 1).index t (1 : Fin 2) * 64 + 1 * k.val = k.val; omega

/-- and the two weight blocks and the bias block their whole arrays. -/
theorem iblk_wrel1 (c : Dev nD) (t : Fin cfg1.N) (k q : Fin 64) :
    iblk1 V c 2 t (ix2 k q) = V c (Pipeline.arrRef spec1 2) (ix2 k q) := by
  obtain ⟨-, -, -, -, e20, e21, -⟩ := idx_facts1 t
  show V c (Pipeline.arrRef spec1 2) (((cfg1.win 2).blk t).view.emb (ix2 k q)) = _
  refine congrArg _ (funext fun a => Fin.ext ?_)
  match a with
  | ⟨0, _⟩ => show (cfg1.win 2).index t (0 : Fin 2) * 64 + 1 * k.val = k.val; omega
  | ⟨1, _⟩ => show (cfg1.win 2).index t (1 : Fin 2) * 64 + 1 * q.val = q.val; omega

theorem iblk_bias1 (c : Dev nD) (t : Fin cfg1.N) (q : Fin 64) :
    iblk1 V c 3 t (ix2 0 q) = V c (Pipeline.arrRef spec1 3) (ix2 0 q) := by
  obtain ⟨-, -, -, -, -, -, e30, e31, -⟩ := idx_facts1 t
  show V c (Pipeline.arrRef spec1 3) (((cfg1.win 3).blk t).view.emb (ix2 0 q)) = _
  refine congrArg _ (funext fun a => Fin.ext ?_)
  match a with
  | ⟨0, _⟩ => show (cfg1.win 3).index t (0 : Fin 2) * 1 + 1 * 0 = 0; omega
  | ⟨1, _⟩ => show (cfg1.win 3).index t (1 : Fin 2) * 64 + 1 * q.val = q.val; omega

theorem iblk_wroot1 (c : Dev nD) (t : Fin cfg1.N) (k q : Fin 64) :
    iblk1 V c 4 t (ix2 k q) = V c (Pipeline.arrRef spec1 4) (ix2 k q) := by
  obtain ⟨-, -, -, -, -, -, -, -, e40, e41, -⟩ := idx_facts1 t
  show V c (Pipeline.arrRef spec1 4) (((cfg1.win 4).blk t).view.emb (ix2 k q)) = _
  refine congrArg _ (funext fun a => Fin.ext ?_)
  match a with
  | ⟨0, _⟩ => show (cfg1.win 4).index t (0 : Fin 2) * 64 + 1 * k.val = k.val; omega
  | ⟨1, _⟩ => show (cfg1.win 4).index t (1 : Fin 2) * 64 + 1 * q.val = q.val; omega

/-- What point t writes back is block t of the layer's value. -/
theorem flushed_eq1 (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero zero_off1]
  simp only [View.ld_unit_zero (S := S5000x64) zero_off1, View.ld_unit_zero (S := S64x64) zero_off1, View.ld_unit_zero (S := S1x64) zero_off1]
  funext j
  obtain ⟨p, q, rfl⟩ : ∃ (p : Fin 5000) (q : Fin 64), j = ix2 p q := ⟨j 0, j 1, eq_ix2 j⟩
  refine (pay_apply1 _ _ _ _ _ p q).trans ?_
  show _ = layer1 V c (((cfg1.win 5).blk t).view.emb (ix2 p q))
  rw [emb_out1, iblk_bias1]
  simp only [iblk_agg1, iblk_feat1, iblk_wrel1, iblk_wroot1]
  rfl

/-- An index of the array is in point t's block iff each coordinate is in the block's range on its axis. -/
theorem mem_blk1 (t : Fin cfg1.N) (i : Cert.Spec.Rows.Idx) :
    i ∈ ((cfg1.win 5).blk t).view.set ↔ ∀ a : Fin 2, (cfg1.win 5).index t a * S5000x64.size a ≤ (i a).val ∧ (i a).val < (cfg1.win 5).index t a * S5000x64.size a + S5000x64.size a := by
  show i ∈ ((View.whole (Pipeline.arrRef spec1 5)).slice ((cfg1.win 5).rect t)).set ↔ _
  rw [View.set_slice_whole, Rect.mem_set_unit]
  exact Iff.rfl

/-- The blocks tile the array: row r is in block r / 5000. -/
theorem cover_rows1 (i : Cert.Spec.Rows.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [grid_size1]; omega⟩, rfl⟩
  obtain ⟨-, -, -, -, -, -, -, -, -, -, e50, e51⟩ := idx_facts1 t
  refine ⟨t, flush1_5 t, ?_⟩
  rw [mem_blk1]
  intro a
  match a with
  | ⟨0, _⟩ => show (cfg1.win 5).index t (0 : Fin 2) * 5000 ≤ (i 0).val ∧ (i 0).val < (cfg1.win 5).index t (0 : Fin 2) * 5000 + 5000; omega
  | ⟨1, _⟩ => show (cfg1.win 5).index t (1 : Fin 2) * 64 ≤ (i 1).val ∧ (i 1).val < (cfg1.win 5).index t (1 : Fin 2) * 64 + 64; omega

/-- The output array after the launch is the layer's value of the five operand arrays. -/
theorem final1 (c : Dev nD) :
    (dat1 (F := Ideal) V c).arrAt 5 cfg1.N
      = Cert.Spec.layerRelu (V c (Pipeline.arrRef spec1 0)) (V c (Pipeline.arrRef spec1 1)) (V c (Pipeline.arrRef spec1 2))
          (V c (Pipeline.arrRef spec1 4)) (fun j => V c (Pipeline.arrRef spec1 3) (ix2 0 j)) :=
  (dat1 (F := Ideal) V c).arrAt_eq_of_cover 5 (layer1 V c) (fun t _ => flushed_eq1 V c t) (fun i => cover_rows1 i)

end Cert.KernelIdeal.Hand

end
-- ==== Proof.KernelIdeal.ConvValue2.lean ====
/-
  What a graph-convolution launch leaves in its output array, over the extended reals: the array's blocks tile it,
  block t holds the layer's value on rows 5000·t … 5000·t+4999, so the whole array is the layer's value
      (∑ₖ a(n,k)·Wr(k,j) + ∑ₖ x(n,k)·Wo(k,j)) + b(j)
  of the arrays the launch was entered with.
-/
import proofs.«415663_j86775519249037_1_alg».proof.Proof.KernelIdeal.Conv2
import proofs.«415663_j86775519249037_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The payload at an index -/

/-- In both products the left operand is read at (row of the output, contraction coordinate) -/
theorem lhs_row2 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_con2 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- and the right operand at (contraction coordinate, column of the output). -/
theorem rhs_con2 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col2 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a [5000,64] block with a [64,64] matrix into the zero block, at (p, q): the row-by-column sum. -/
theorem matmul_apply2 {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row2 _ _
    | ⟨1, _⟩ => exact (lhs_con2 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_con2 _ _).trans hk
    | ⟨1, _⟩ => exact rhs_col2 _ _)
  rw [el, er]

/-- The bias row broadcast down the block, at (p, q): the row's entry q. -/
theorem bias_apply2 (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => show q.val = if (64 : Nat) = 1 then 0 else q.val; rw [if_neg (by decide)])

/-- The body's payload at (p, q): the two row-by-column sums and the bias entry. -/
theorem pay_apply2 (xa xf : Vec Ideal S5000x64 .f32) (wr wo : Vec Ideal S64x64 .f32) (b : Vec Ideal S1x64 .f32)
    (p : Fin 5000) (q : Fin 64) :
    k2_pay1 (F := Ideal) xa xf wr wo b (ix2 p q)
      = ((∑ k : Fin 64, xa (ix2 p k) * wr (ix2 k q)) + ∑ k : Fin 64, xf (ix2 p k) * wo (ix2 k q)) + b (ix2 0 q) := by
  unfold k2_pay1
  simp only [addf_apply, matmul_apply2, bias_apply2, truncf_apply, shapeCast_self]

/-! ## From the blocks to the array -/

theorem zero_off2 : (![0, 0] : Fin 2 → Nat) = fun _ => 0 := funext fun a => by fin_cases a <;> rfl

/-- The grid has ten points. -/
theorem grid_size2 : cfg2.N = 10 := by decide

/-- The block indices over the grid: at point t the aggregated, feature and output blocks are block (t, 0) of their
    arrays, and the two weight matrices and the bias row are block (0, 0), the whole array. -/
theorem idx_facts2 : ∀ t : Fin cfg2.N,
    (cfg2.win 0).index t (0 : Fin 2) = t.val ∧ (cfg2.win 0).index t (1 : Fin 2) = 0
    ∧ (cfg2.win 1).index t (0 : Fin 2) = t.val ∧ (cfg2.win 1).index t (1 : Fin 2) = 0
    ∧ (cfg2.win 2).index t (0 : Fin 2) = 0 ∧ (cfg2.win 2).index t (1 : Fin 2) = 0
    ∧ (cfg2.win 3).index t (0 : Fin 2) = 0 ∧ (cfg2.win 3).index t (1 : Fin 2) = 0
    ∧ (cfg2.win 4).index t (0 : Fin 2) = 0 ∧ (cfg2.win 4).index t (1 : Fin 2) = 0
    ∧ (cfg2.win 5).index t (0 : Fin 2) = t.val ∧ (cfg2.win 5).index t (1 : Fin 2) = 0 :=
  (by decide +kernel : ∀ t : Fin grid2.N, _)

/-- Row p of block t is row 5000·t + p of the array. -/
def rowOf2 (t : Fin cfg2.N) (p : Fin 5000) : Fin 50000 :=
  ⟨5000 * t.val + p.val, by have h : t.val < 10 := grid_size2 ▸ t.isLt; have := p.isLt; omega⟩

/-- The layer's value of the five arrays the launch is entered with. -/
abbrev layer2 (c : Dev nD) : Cert.Spec.Rows.Idx → EReal :=
  Cert.Spec.layerLin (V c (Pipeline.arrRef spec2 0)) (V c (Pipeline.arrRef spec2 1)) (V c (Pipeline.arrRef spec2 2))
    (V c (Pipeline.arrRef spec2 4)) (fun j => V c (Pipeline.arrRef spec2 3) (ix2 0 j))

/-- Entry (p, q) of the output's block t is entry (5000·t + p, q) of the output array. -/
theorem emb_out2 (t : Fin cfg2.N) (p : Fin 5000) (q : Fin 64) :
    ((cfg2.win 5).blk t).view.emb (ix2 p q) = (ix2 (rowOf2 t p) q : Cert.Spec.Rows.Idx) := by
  obtain ⟨-, -, -, -, -, -, -, -, -, -, e50, e51⟩ := idx_facts2 t
  funext a; apply Fin.ext
  match a with
  | ⟨0, _⟩ => show (cfg2.win 5).index t (0 : Fin 2) * 5000 + 1 * p.val = 5000 * t.val + p.val; omega
  | ⟨1, _⟩ => show (cfg2.win 5).index t (1 : Fin 2) * 64 + 1 * q.val = q.val; omega

/-- The aggregated block at point t holds rows 5000·t … of the aggregated array, -/
theorem iblk_agg2 (c : Dev nD) (t : Fin cfg2.N) (p : Fin 5000) (k : Fin 64) :
    iblk2 V c 0 t (ix2 p k) = V c (Pipeline.arrRef spec2 0) (ix2 (rowOf2 t p) k) := by
  obtain ⟨e00, e01, -⟩ := idx_facts2 t
  show V c (Pipeline.arrRef spec2 0) (((cfg2.win 0).blk t).view.emb (ix2 p k)) = _
  refine congrArg _ (funext fun a => Fin.ext ?_)
  match a with
  | ⟨0, _⟩ => show (cfg2.win 0).index t (0 : Fin 2) * 5000 + 1 * p.val = 5000 * t.val + p.val; omega
  | ⟨1, _⟩ => show (cfg2.win 0).index t (1 : Fin 2) * 64 + 1 * k.val = k.val; omega

/-- the feature block the same rows of the feature array, -/
theorem iblk_feat2 (c : Dev nD) (t : Fin cfg2.N) (p : Fin 5000) (k : Fin 64) :
    iblk2 V c 1 t (ix2 p k) = V c (Pipeline.arrRef spec2 1) (ix2 (rowOf2 t p) k) := by
  obtain ⟨-, -, e10, e11, -⟩ := idx_facts2 t
  show V c (Pipeline.arrRef spec2 1) (((cfg2.win 1).blk t).view.emb (ix2 p k)) = _
  refine congrArg _ (funext fun a => Fin.ext ?_)
  match a with
  | ⟨0, _⟩ => show (cfg2.win 1).index t (0 : Fin 2) * 5000 + 1 * p.val = 5000 * t.val + p.val; omega
  | ⟨1, _⟩ => show (cfg2.win 1).index t (1 : Fin 2) * 64 + 1 * k.val = k.val; omega

/-- and the two weight blocks and the bias block their whole arrays. -/
theorem iblk_wrel2 (c : Dev nD) (t : Fin cfg2.N) (k q : Fin 64) :
    iblk2 V c 2 t (ix2 k q) = V c (Pipeline.arrRef spec2 2) (ix2 k q) := by
  obtain ⟨-, -, -, -, e20, e21, -⟩ := idx_facts2 t
  show V c (Pipeline.arrRef spec2 2) (((cfg2.win 2).blk t).view.emb (ix2 k q)) = _
  refine congrArg _ (funext fun a => Fin.ext ?_)
  match a with
  | ⟨0, _⟩ => show (cfg2.win 2).index t (0 : Fin 2) * 64 + 1 * k.val = k.val; omega
  | ⟨1, _⟩ => show (cfg2.win 2).index t (1 : Fin 2) * 64 + 1 * q.val = q.val; omega

theorem iblk_bias2 (c : Dev nD) (t : Fin cfg2.N) (q : Fin 64) :
    iblk2 V c 3 t (ix2 0 q) = V c (Pipeline.arrRef spec2 3) (ix2 0 q) := by
  obtain ⟨-, -, -, -, -, -, e30, e31, -⟩ := idx_facts2 t
  show V c (Pipeline.arrRef spec2 3) (((cfg2.win 3).blk t).view.emb (ix2 0 q)) = _
  refine congrArg _ (funext fun a => Fin.ext ?_)
  match a with
  | ⟨0, _⟩ => show (cfg2.win 3).index t (0 : Fin 2) * 1 + 1 * 0 = 0; omega
  | ⟨1, _⟩ => show (cfg2.win 3).index t (1 : Fin 2) * 64 + 1 * q.val = q.val; omega

theorem iblk_wroot2 (c : Dev nD) (t : Fin cfg2.N) (k q : Fin 64) :
    iblk2 V c 4 t (ix2 k q) = V c (Pipeline.arrRef spec2 4) (ix2 k q) := by
  obtain ⟨-, -, -, -, -, -, -, -, e40, e41, -⟩ := idx_facts2 t
  show V c (Pipeline.arrRef spec2 4) (((cfg2.win 4).blk t).view.emb (ix2 k q)) = _
  refine congrArg _ (funext fun a => Fin.ext ?_)
  match a with
  | ⟨0, _⟩ => show (cfg2.win 4).index t (0 : Fin 2) * 64 + 1 * k.val = k.val; omega
  | ⟨1, _⟩ => show (cfg2.win 4).index t (1 : Fin 2) * 64 + 1 * q.val = q.val; omega

/-- What point t writes back is block t of the layer's value. -/
theorem flushed_eq2 (c : Dev nD) (t : Fin cfg2.N) :
    (dat2 (F := Ideal) V c).flushed 5 t = ((cfg2.win 5).blk t).view.read (Elt Ideal) (layer2 V c) := by
  show (cfg2.win 5).cut (grid2.coords t) ((dat2 (F := Ideal) V c).after 5 t) = _
  rw [after2_5]
  unfold out2_5
  rw [View.canon_unit_zero zero_off2]
  simp only [View.ld_unit_zero (S := S5000x64) zero_off2, View.ld_unit_zero (S := S64x64) zero_off2, View.ld_unit_zero (S := S1x64) zero_off2]
  funext j
  obtain ⟨p, q, rfl⟩ : ∃ (p : Fin 5000) (q : Fin 64), j = ix2 p q := ⟨j 0, j 1, eq_ix2 j⟩
  refine (pay_apply2 _ _ _ _ _ p q).trans ?_
  show _ = layer2 V c (((cfg2.win 5).blk t).view.emb (ix2 p q))
  rw [emb_out2, iblk_bias2]
  simp only [iblk_agg2, iblk_feat2, iblk_wrel2, iblk_wroot2]
  rfl

/-- An index of the array is in point t's block iff each coordinate is in the block's range on its axis. -/
theorem mem_blk2 (t : Fin cfg2.N) (i : Cert.Spec.Rows.Idx) :
    i ∈ ((cfg2.win 5).blk t).view.set ↔ ∀ a : Fin 2, (cfg2.win 5).index t a * S5000x64.size a ≤ (i a).val ∧ (i a).val < (cfg2.win 5).index t a * S5000x64.size a + S5000x64.size a := by
  show i ∈ ((View.whole (Pipeline.arrRef spec2 5)).slice ((cfg2.win 5).rect t)).set ↔ _
  rw [View.set_slice_whole, Rect.mem_set_unit]
  exact Iff.rfl

/-- The blocks tile the array: row r is in block r / 5000. -/
theorem cover_rows2 (i : Cert.Spec.Rows.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [grid_size2]; omega⟩, rfl⟩
  obtain ⟨-, -, -, -, -, -, -, -, -, -, e50, e51⟩ := idx_facts2 t
  refine ⟨t, flush2_5 t, ?_⟩
  rw [mem_blk2]
  intro a
  match a with
  | ⟨0, _⟩ => show (cfg2.win 5).index t (0 : Fin 2) * 5000 ≤ (i 0).val ∧ (i 0).val < (cfg2.win 5).index t (0 : Fin 2) * 5000 + 5000; omega
  | ⟨1, _⟩ => show (cfg2.win 5).index t (1 : Fin 2) * 64 ≤ (i 1).val ∧ (i 1).val < (cfg2.win 5).index t (1 : Fin 2) * 64 + 64; omega

/-- The output array after the launch is the layer's value of the five operand arrays. -/
theorem final2 (c : Dev nD) :
    (dat2 (F := Ideal) V c).arrAt 5 cfg2.N
      = Cert.Spec.layerLin (V c (Pipeline.arrRef spec2 0)) (V c (Pipeline.arrRef spec2 1)) (V c (Pipeline.arrRef spec2 2))
          (V c (Pipeline.arrRef spec2 4)) (fun j => V c (Pipeline.arrRef spec2 3) (ix2 0 j)) :=
  (dat2 (F := Ideal) V c).arrAt_eq_of_cover 5 (layer2 V c) (fun t _ => flushed_eq2 V c t) (fun i => cover_rows2 i)

end Cert.KernelIdeal.Hand

end
-- ==== Proof.KernelIdeal.PoolValueSum.lean ====
/-
  The two scratch buffers of the pooling launch after the last point, over the extended reals: per graph g and
  feature d the sum of max(emb(n,d), 0) over the nodes n of graph g, and per graph its number of nodes.  Each point
  adds its 5000 nodes' share — the one-hot of a node's batch word against g is 1 exactly when the word, read signed,
  is g, and 0·x = 0 for every extended real x — and node n of point t is node 5000·t + n of the array.
-/
import proofs.«415663_j86775519249037_1_alg».proof.Proof.KernelIdeal.Pool
import proofs.«415663_j86775519249037_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The one-hot of a block's batch words -/

/-- A column [5000, 1] broadcast to [5000, 64] reads, at (r, g), the column at r. -/
theorem bcast_col_apply {α : Type} (v : S5000x1.Idx → α) (r : Fin 5000) (g : Fin 64) :
    broadcastTo S5000x64 v broadcasts_S5000x1_S5000x64 (ix2 r g) = v (ix2 r 0) := by
  refine broadcastTo_apply v broadcasts_S5000x1_S5000x64 (ix2 r g) (ix2 r (0 : Fin 1)) fun ax => ?_
  match ax with
  | ⟨0, _⟩ => show r.val = if (5000 : Nat) = 1 then 0 else r.val; rw [if_neg (by decide)]
  | ⟨1, _⟩ => show 0 = if (1 : Nat) = 1 then 0 else g.val; rw [if_pos rfl]

/-- The one-hot entry (r, g): one when row r's batch word is the word of g, else zero. -/
theorem onehot_apply (bt : Vec Ideal S5000x1 .i32) (r : Fin 5000) (g : Fin 64) :
    k3_pay3 (F := Ideal) bt (ix2 r g) = if bt (ix2 r 0) = BitVec.ofNat 32 g.val then (1 : EReal) else 0 := by
  unfold k3_pay3
  rw [truncf_apply, sitofp_apply, extui_apply]
  show ((((IntOp.cmpi .eq (broadcastTo S5000x64 (shapeCast S5000x1 bt shapeCasts_S5000x1_S5000x1) broadcasts_S5000x1_S5000x64 (ix2 r g))
      (iota .tc S5000x64 32 [1] iota_S5000x64_d1_w32 (ix2 r g))).setWidth 32).toInt : ℝ) : EReal) = _
  rw [bcast_col_apply, shapeCast_self, iota_single_apply, toInt_setWidth_bit]
  show ((((IntOp.cmpi .eq (bt (ix2 r 0)) (BitVec.ofNat 32 g.val)).toNat : ℤ) : ℝ) : EReal) = _
  by_cases h : bt (ix2 r 0) = BitVec.ofNat 32 g.val
  · rw [if_pos h, StableHlo.Predicate.cmpi_eq_iff.mpr h]; norm_num
  · rw [if_neg h, eq_zero_of_ne_one (fun h1 => h (StableHlo.Predicate.cmpi_eq_iff.mp h1))]; norm_num

/-! ## The two products at an entry -/

theorem lhs_sums_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_sums_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_sums_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_sums_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The product that contracts the rows of both operands, into the zero accumulator, at entry (g, d): the sum over the 5000 rows r of l (r, g) · w (r, d). -/
theorem matmul_sums_apply {φ₁ φ₂ : FTy} (l : FVec Ideal S5000x64 φ₁) (w : FVec Ideal S5000x64 φ₂) (g d : Fin 64) :
    matmul (F := Ideal) dot_S5000x64_S5000x64_S64x64_0_0_1_1_n_n none l w (constant S64x64 .f32 0x00000000#32) (ix2 g d)
      = ∑ k : Fin 5000, l (ix2 k g) * w (ix2 k d) := by
  refine (Ideal.matmul_constant_zero_apply dot_S5000x64_S5000x64_S64x64_0_0_1_1_n_n none l w _).trans ?_
  rw [← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have el : dot_S5000x64_S5000x64_S64x64_0_0_1_1_n_n.lhsIdx (ix2 g d) ((contrEquiv1 dot_S5000x64_S5000x64_S64x64_0_0_1_1_n_n 5000 rfl rfl).symm k) = ix2 k g := funext fun a => Fin.ext (by
    match a with
    | ⟨0, _⟩ => exact (lhs_sums_0 _ _).trans hk
    | ⟨1, _⟩ => exact lhs_sums_1 _ _)
  have er : dot_S5000x64_S5000x64_S64x64_0_0_1_1_n_n.rhsIdx (ix2 g d) ((contrEquiv1 dot_S5000x64_S5000x64_S64x64_0_0_1_1_n_n 5000 rfl rfl).symm k) = ix2 k d := funext fun a => Fin.ext (by
    match a with
    | ⟨0, _⟩ => exact (rhs_sums_0 _ _).trans hk
    | ⟨1, _⟩ => exact rhs_sums_1 _ _)
  rw [el, er]

theorem lhs_cnts_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_cnts_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_cnts_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_cnts_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The same against a column: at entry (g, 0) the sum over the rows r of l (r, g) · w (r, 0). -/
theorem matmul_cnts_apply {φ₁ φ₂ : FTy} (l : FVec Ideal S5000x64 φ₁) (w : FVec Ideal S5000x1 φ₂) (g : Fin 64) (d : Fin 1) :
    matmul (F := Ideal) dot_S5000x64_S5000x1_S64x1_0_0_1_1_n_n none l w (constant S64x1 .f32 0x00000000#32) (ix2 g d)
      = ∑ k : Fin 5000, l (ix2 k g) * w (ix2 k d) := by
  refine (Ideal.matmul_constant_zero_apply dot_S5000x64_S5000x1_S64x1_0_0_1_1_n_n none l w _).trans ?_
  rw [← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 g d) ((contrEquiv1 dot_S5000x64_S5000x1_S64x1_0_0_1_1_n_n 5000 rfl rfl).symm k) = ix2 k g := funext fun a => Fin.ext (by
    match a with
    | ⟨0, _⟩ => exact (lhs_cnts_0 _ _).trans hk
    | ⟨1, _⟩ => exact lhs_cnts_1 _ _)
  have er : dot_S5000x64_S5000x1_S64x1_0_0_1_1_n_n.rhsIdx (ix2 g d) ((contrEquiv1 dot_S5000x64_S5000x1_S64x1_0_0_1_1_n_n 5000 rfl rfl).symm k) = ix2 k d := funext fun a => Fin.ext (by
    match a with
    | ⟨0, _⟩ => exact (rhs_cnts_0 _ _).trans hk
    | ⟨1, _⟩ => exact rhs_cnts_1 _ _)
  rw [el, er]

/-! ## The payloads at an entry -/

/-- One point's share added onto the feature sums: at (g, d) the sum over the block's rows r of the one-hot
    (r, g) times max(e (r, d), 0). -/
theorem pay4_apply (e : Vec Ideal S5000x64 .f32) (bt : Vec Ideal S5000x1 .i32) (s : Vec Ideal S64x64 .f32) (g d : Fin 64) :
    k3_pay4 (F := Ideal) e bt s (ix2 g d)
      = s (ix2 g d) + ∑ r : Fin 5000, (if bt (ix2 r 0) = BitVec.ofNat 32 g.val then (1 : EReal) else 0) * max (e (ix2 r d)) 0 := by
  unfold k3_pay4
  simp only [shapeCast_self]
  rw [addf_apply, matmul_sums_apply]
  refine congrArg (s (ix2 g d) + ·) (Finset.sum_congr rfl fun r _ => ?_)
  rw [onehot_apply, truncf_apply, maximumf_apply, broadcast_apply]
  show _ * max (e (ix2 r d)) (Ideal.ofBits .f32 0x00000000#32) = _
  rw [Ideal.ofBits_zero_f32]

/-- One point's share added onto the node counts: at (g, 0) the number of the block's rows whose word is g's. -/
theorem pay5_apply (bt : Vec Ideal S5000x1 .i32) (cn : Vec Ideal S64x1 .f32) (g : Fin 64) :
    k3_pay5 (F := Ideal) bt cn (ix2 g 0)
      = cn (ix2 g 0) + ∑ r : Fin 5000, (if bt (ix2 r 0) = BitVec.ofNat 32 g.val then (1 : EReal) else 0) := by
  unfold k3_pay5
  simp only [shapeCast_self]
  rw [addf_apply, matmul_cnts_apply]
  refine congrArg (cn (ix2 g 0) + ·) (Finset.sum_congr rfl fun r _ => ?_)
  rw [onehot_apply, broadcast_apply]
  show _ * Ideal.ofBits .bf16 0x3F80#16 = _
  rw [Ideal.ofBits_one_bf16, mul_one]

/-- The two zero stores. -/
theorem pay1_apply (i : S64x64.Idx) : k3_pay1 (F := Ideal) i = 0 := by
  unfold k3_pay1
  simp only [shapeCast_self]
  rw [broadcast_apply]
  exact Ideal.ofBits_zero_f32

theorem pay2_apply (i : S64x1.Idx) : k3_pay2 (F := Ideal) i = 0 := by
  unfold k3_pay2
  simp only [shapeCast_self]
  rw [broadcast_apply]
  exact Ideal.ofBits_zero_f32

/-! ## A point's blocks as rows of the arrays -/

/-- The feature array and the batch column as the launch finds them, at their literal shapes. -/
def embArr (c : Dev nD) : S50000x64.Idx → EReal := V c (Pipeline.arrRef spec3 0)
def btArr (c : Dev nD) : Fin 50000 → BitVec 32 := fun n => V c (Pipeline.arrRef spec3 1) (ix2 n 0)

/-- The block indices of the two streamed windows, decided over the grid: point t reads block (t, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The feature block of point t is rows 5000·t … 5000·t + 4999 of the feature array. -/
theorem iblk3_0_apply (c : Dev nD) (t : Fin cfg3.N) (r : Fin 5000) (d : Fin 64) (n : Fin 50000) (hn : n.val = 5000 * t.val + r.val) :
    (iblk3 (F := Ideal) V c 0 t : Vec Ideal S5000x64 .f32) (ix2 r d) = embArr V c (ix2 n d) := by
  obtain ⟨e0, e1, -, -⟩ := idx_facts3 t
  unfold iblk3 embArr
  rw [View.read_apply]
  show (V c (Pipeline.arrRef spec3 0) : S50000x64.Idx → EReal) (((cfg3.win 0).blk t).view.emb (ix2 r d)) = _
  refine congrArg (V c (Pipeline.arrRef spec3 0) : S50000x64.Idx → EReal) (funext fun a => Fin.ext ?_)
  match a with
  | ⟨0, _⟩ => show win3_0.index t 0 * 5000 + 1 * r.val = n.val; rw [e0, hn]; omega
  | ⟨1, _⟩ => show win3_0.index t 1 * 64 + 1 * d.val = d.val; rw [e1]; omega

/-- The batch block of point t is rows 5000·t … 5000·t + 4999 of the batch column. -/
theorem iblk3_1_apply (c : Dev nD) (t : Fin cfg3.N) (r : Fin 5000) (n : Fin 50000) (hn : n.val = 5000 * t.val + r.val) :
    (iblk3 (F := Ideal) V c 1 t : Vec Ideal S5000x1 .i32) (ix2 r 0) = btArr V c n := by
  obtain ⟨-, -, e0, e1⟩ := idx_facts3 t
  unfold iblk3 btArr
  rw [View.read_apply]
  show (V c (Pipeline.arrRef spec3 1) : S50000x1.Idx → BitVec 32) (((cfg3.win 1).blk t).view.emb (ix2 r 0)) = _
  refine congrArg (V c (Pipeline.arrRef spec3 1) : S50000x1.Idx → BitVec 32) (funext fun a => Fin.ext ?_)
  match a with
  | ⟨0, _⟩ => show win3_1.index t 0 * 5000 + 1 * r.val = n.val; rw [e0, hn]; omega
  | ⟨1, _⟩ => show win3_1.index t 1 * 1 + 1 * 0 = 0; rw [e1]

/-! ## Nodes as rows of points -/

/-- Row r of point t is node 5000·t + r. -/
def nodeOf (p : Fin 10 × Fin 5000) : Fin 50000 :=
  ⟨5000 * p.1.val + p.2.val, by have := p.1.isLt; have := p.2.isLt; omega⟩

/-- Every node is one row of one point. -/
def nodeEquiv : Fin 10 × Fin 5000 ≃ Fin 50000 where
  toFun := nodeOf
  invFun n := (⟨n.val / 5000, by have := n.isLt; omega⟩, ⟨n.val % 5000, Nat.mod_lt _ (by decide)⟩)
  left_inv p := by
    obtain ⟨t, r⟩ := p
    have := t.isLt
    have := r.isLt
    apply Prod.ext <;> apply Fin.ext <;> simp only [nodeOf] <;> omega
  right_inv n := by
    apply Fin.ext
    simp only [nodeOf]
    omega

/-- Point number t < 10 is point t. -/
theorem pt3_val_of_lt (t : Fin 10) : (pt3 t.val).val = t.val := by
  unfold pt3
  rw [dif_pos (show t.val < cfg3.N from t.isLt)]

/-- Point t's feature block and batch block, at their literal shapes. -/
def eblk (c : Dev nD) (t : ℕ) : Vec Ideal S5000x64 .f32 := iblk3 (F := Ideal) V c 0 (pt3 t)
def bblk (c : Dev nD) (t : ℕ) : Vec Ideal S5000x1 .i32 := iblk3 (F := Ideal) V c 1 (pt3 t)

theorem eblk_apply (c : Dev nD) (t : Fin 10) (r : Fin 5000) (d : Fin 64) :
    eblk V c t.val (ix2 r d) = embArr V c (ix2 (nodeOf (t, r)) d) :=
  iblk3_0_apply V c (pt3 t.val) r d (nodeOf (t, r)) (by rw [pt3_val_of_lt]; rfl)

theorem bblk_apply (c : Dev nD) (t : Fin 10) (r : Fin 5000) :
    bblk V c t.val (ix2 r 0) = btArr V c (nodeOf (t, r)) :=
  iblk3_1_apply V c (pt3 t.val) r (nodeOf (t, r)) (by rw [pt3_val_of_lt]; rfl)

/-! ## The scratch buffers after point n, as sums over the points so far -/

/-- Row r of point t's share of entry (g, d) of the feature sums. -/
def termS (c : Dev nD) (g d : Fin 64) (t : ℕ) (r : Fin 5000) : EReal :=
  (if bblk V c t (ix2 r 0) = BitVec.ofNat 32 g.val then (1 : EReal) else 0) * max (eblk V c t (ix2 r d)) 0

/-- Row r of point t's share of graph g's node count. -/
def termC (c : Dev nD) (g : Fin 64) (t : ℕ) (r : Fin 5000) : EReal :=
  if bblk V c t (ix2 r 0) = BitVec.ofNat 32 g.val then (1 : EReal) else 0

/-- After point n the feature sums hold the shares of points 0 … n. -/
theorem S3_sum (c : Dev nD) (g d : Fin 64) :
    ∀ n : ℕ, S3 (F := Ideal) V c n (ix2 g d) = ∑ t ∈ Finset.range (n + 1), ∑ r : Fin 5000, termS V c g d t r
  | 0 => by
    rw [Finset.sum_range_one]
    show k3_pay4 (F := Ideal) (eblk V c 0) (bblk V c 0) (k3_pay1 (F := Ideal)) (ix2 g d) = _
    refine (pay4_apply _ _ _ g d).trans ?_
    rw [pay1_apply, zero_add]
    rfl
  | n + 1 => by
    rw [Finset.sum_range_succ, ← S3_sum c g d n]
    show k3_pay4 (F := Ideal) (eblk V c (n + 1)) (bblk V c (n + 1)) (S3 V c n) (ix2 g d) = _
    exact pay4_apply _ _ _ g d

/-- After point n the node counts hold the shares of points 0 … n. -/
theorem C3_sum (c : Dev nD) (g : Fin 64) :
    ∀ n : ℕ, C3 (F := Ideal) V c n (ix2 g 0) = ∑ t ∈ Finset.range (n + 1), ∑ r : Fin 5000, termC V c g t r
  | 0 => by
    rw [Finset.sum_range_one]
    show k3_pay5 (F := Ideal) (bblk V c 0) (k3_pay2 (F := Ideal)) (ix2 g 0) = _
    refine (pay5_apply _ _ g).trans ?_
    rw [pay2_apply, zero_add]
    rfl
  | n + 1 => by
    rw [Finset.sum_range_succ, ← C3_sum c g n]
    show k3_pay5 (F := Ideal) (bblk V c (n + 1)) (C3 V c n) (ix2 g 0) = _
    exact pay5_apply _ _ g

/-! ## The one-hot as membership -/

/-- The one-hot against g selects the words that, read signed, are g: a graph number is below 2³¹. -/
theorem onehot_mul (w : BitVec 32) (g : Fin 64) (x : EReal) :
    (if w = BitVec.ofNat 32 g.val then (1 : EReal) else 0) * x = if w.toInt = (g.val : ℤ) then x else 0 := by
  have hg : (BitVec.ofNat 32 g.val).toInt = (g.val : ℤ) :=
    StableHlo.Predicate.toInt_ofNat_small g.val (by have := g.isLt; omega)
  by_cases h : w = BitVec.ofNat 32 g.val
  · rw [if_pos h, if_pos (by rw [h, hg]), one_mul]
  · rw [if_neg h, if_neg (fun h' => h (BitVec.toInt_inj.mp (h'.trans hg.symm))), zero_mul]

/-- A share's row, read off the arrays: node 5000·t + r. -/
theorem termS_eq (c : Dev nD) (g d : Fin 64) (t : Fin 10) (r : Fin 5000) :
    termS V c g d t.val r
      = if (btArr V c (nodeOf (t, r))).toInt = (g.val : ℤ) then max (embArr V c (ix2 (nodeOf (t, r)) d)) 0 else 0 := by
  unfold termS
  rw [eblk_apply, bblk_apply]
  exact onehot_mul _ g _

theorem termC_eq (c : Dev nD) (g : Fin 64) (t : Fin 10) (r : Fin 5000) :
    termC V c g t.val r = if (btArr V c (nodeOf (t, r))).toInt = (g.val : ℤ) then (1 : EReal) else 0 := by
  unfold termC
  rw [bblk_apply]
  exact (mul_one _).symm.trans (onehot_mul _ g 1)

/-! ## The two scratch buffers after the last point -/

/-- The feature-sum scratch after the last point. -/
theorem S3_closed (c : Dev nD) (g d : Fin 64) :
    S3 (F := Ideal) V c 9 (ix2 g d)
      = Cert.Spec.poolSum (V c (Pipeline.arrRef spec3 0)) (fun n => V c (Pipeline.arrRef spec3 1) (ix2 n 0)) (ix2 g d) := by
  have h : S3 (F := Ideal) V c 9 (ix2 g d) = ∑ t ∈ Finset.range 10, ∑ r : Fin 5000, termS V c g d t r := S3_sum V c g d 9
  rw [h, Finset.sum_range (fun t => ∑ r : Fin 5000, termS V c g d t r)]
  show _ = ∑ n ∈ Cert.Spec.members (btArr V c) g, max (embArr V c (ix2 n d)) 0
  unfold Cert.Spec.members
  rw [Finset.sum_filter, ← Equiv.sum_comp nodeEquiv, Fintype.sum_prod_type]
  exact Finset.sum_congr rfl fun t _ => Finset.sum_congr rfl fun r _ => termS_eq V c g d t r

/-- The node-count scratch after the last point. -/
theorem C3_closed (c : Dev nD) (g : Fin 64) :
    C3 (F := Ideal) V c 9 (ix2 g 0) = Cert.Spec.poolCnt (fun n => V c (Pipeline.arrRef spec3 1) (ix2 n 0)) g := by
  have h : C3 (F := Ideal) V c 9 (ix2 g 0) = ∑ t ∈ Finset.range 10, ∑ r : Fin 5000, termC V c g t r := C3_sum V c g 9
  rw [h, Finset.sum_range (fun t => ∑ r : Fin 5000, termC V c g t r)]
  show _ = ∑ _n ∈ Cert.Spec.members (btArr V c) g, (1 : EReal)
  unfold Cert.Spec.members
  rw [Finset.sum_filter, ← Equiv.sum_comp nodeEquiv, Fintype.sum_prod_type]
  exact Finset.sum_congr rfl fun t _ => Finset.sum_congr rfl fun r _ => termC_eq V c g t r

end Cert.KernelIdeal.Hand

end
-- ==== Proof.KernelIdeal.PoolValue.lean ====
/-
  What the pooling launch leaves in its output array, over the extended reals: after the last point the two
  scratch buffers hold, per graph, the sum of max(emb, 0) over the graph's nodes and the graph's node count (each
  point adds its 5000 nodes' share: the one-hot of a node's batch word against the graph number is 1 exactly when
  the word, read signed, is that number), and the last point stores the mean-pooled head of them.
-/
import proofs.«415663_j86775519249037_1_alg».proof.Proof.KernelIdeal.Pool
import proofs.«415663_j86775519249037_1_alg».proof.Proof.KernelIdeal.PoolValueSum
import proofs.«415663_j86775519249037_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The two linear maps at an entry -/

theorem lhs_lin4_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem lhs_lin4_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem rhs_lin4_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem rhs_lin4_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- A plain product [64, 64] · [64, 64] into the zero accumulator, at entry (g, d). -/
theorem matmul_lin4_apply {φ₁ φ₂ : FTy} (l : FVec Ideal S64x64 φ₁) (w : FVec Ideal S64x64 φ₂) (g d : Fin 64) :
    matmul (F := Ideal) dot_S64x64_S64x64_S64x64_1_0_0_1_n_n none l w (constant S64x64 .f32 0x00000000#32) (ix2 g d)
      = ∑ k : Fin 64, l (ix2 g k) * w (ix2 k d) := by
  refine (Ideal.matmul_constant_zero_apply dot_S64x64_S64x64_S64x64_1_0_0_1_n_n none l w _).trans ?_
  rw [← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 g d) ((contrEquiv1 dot_S64x64_S64x64_S64x64_1_0_0_1_n_n 64 rfl rfl).symm k) = ix2 g k := funext fun a => Fin.ext (by
    match a with
    | ⟨0, _⟩ => exact lhs_lin4_0 _ _
    | ⟨1, _⟩ => exact (lhs_lin4_1 _ _).trans hk)
  have er : dot_S64x64_S64x64_S64x64_1_0_0_1_n_n.rhsIdx (ix2 g d) ((contrEquiv1 dot_S64x64_S64x64_S64x64_1_0_0_1_n_n 64 rfl rfl).symm k) = ix2 k d := funext fun a => Fin.ext (by
    match a with
    | ⟨0, _⟩ => exact (rhs_lin4_0 _ _).trans hk
    | ⟨1, _⟩ => exact rhs_lin4_1 _ _)
  rw [el, er]

theorem lhs_lin5_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem lhs_lin5_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
theorem rhs_lin5_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
theorem rhs_lin5_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- A plain product [64, 64] · [64, 32] into the zero accumulator, at entry (g, d). -/
theorem matmul_lin5_apply {φ₁ φ₂ : FTy} (l : FVec Ideal S64x64 φ₁) (w : FVec Ideal S64x32 φ₂) (g : Fin 64) (d : Fin 32) :
    matmul (F := Ideal) dot_S64x64_S64x32_S64x32_1_0_0_1_n_n none l w (constant S64x32 .f32 0x00000000#32) (ix2 g d)
      = ∑ k : Fin 64, l (ix2 g k) * w (ix2 k d) := by
  refine (Ideal.matmul_constant_zero_apply dot_S64x64_S64x32_S64x32_1_0_0_1_n_n none l w _).trans ?_
  rw [← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have el : dot_S64x64_S64x32_S64x32_1_0_0_1_n_n.lhsIdx (ix2 g d) ((contrEquiv1 dot_S64x64_S64x32_S64x32_1_0_0_1_n_n 64 rfl rfl).symm k) = ix2 g k := funext fun a => Fin.ext (by
    match a with
    | ⟨0, _⟩ => exact lhs_lin5_0 _ _
    | ⟨1, _⟩ => exact (lhs_lin5_1 _ _).trans hk)
  have er : dot_S64x64_S64x32_S64x32_1_0_0_1_n_n.rhsIdx (ix2 g d) ((contrEquiv1 dot_S64x64_S64x32_S64x32_1_0_0_1_n_n 64 rfl rfl).symm k) = ix2 k d := funext fun a => Fin.ext (by
    match a with
    | ⟨0, _⟩ => exact (rhs_lin5_0 _ _).trans hk
    | ⟨1, _⟩ => exact rhs_lin5_1 _ _)
  rw [el, er]

/-! ## What the last point stores, at an entry -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]

/-- What the last point stores, at (g, o): the sums' row g divided by max(count g, 1), through the two linear maps. -/
theorem pay6_apply (S : Vec Ideal S64x64 .f32) (C : Vec Ideal S64x1 .f32) (w4 : Vec Ideal S64x64 .f32) (w5 : Vec Ideal S64x32 .f32)
    (b4 : Vec Ideal S1x64 .f32) (b5 : Vec Ideal S1x32 .f32) (g : Fin 64) (o : Fin 32) :
    k3_pay6 (F := Ideal) S C w4 w5 b4 b5 (ix2 g o)
      = (∑ k : Fin 64, ((∑ l : Fin 64, Ideal.div (S (ix2 g l)) (max (C (ix2 g 0)) 1) * w4 (ix2 l k)) + b4 (ix2 0 k)) * w5 (ix2 k o))
          + b5 (ix2 0 o) := by
  unfold k3_pay6
  simp only [shapeCast_self]
  rw [addf_apply, matmul_lin5_apply, broadcastTo_1b_ab_apply]
  refine congrArg (· + b5 (ix2 0 o)) (Finset.sum_congr rfl fun k _ => ?_)
  rw [truncf_apply, truncf_apply, addf_apply, matmul_lin4_apply, broadcastTo_1b_ab_apply]
  refine congrArg (fun x => (x + b4 (ix2 0 k)) * w5 (ix2 k o)) (Finset.sum_congr rfl fun l _ => ?_)
  rw [truncf_apply, truncf_apply, divf_apply, broadcastTo_a1_ab_apply, maximumf_apply, broadcast_apply]
  show Ideal.div _ (max _ (Ideal.ofBits .f32 0x3F800000#32)) * _ = _
  rw [Ideal.ofBits_one_f32]

variable (V : (c : Dev nD) → (b : Ref sig .tc) → Buf (Elt Ideal) ((c : Thread nD τ).loc b))

/-! ## The four weight blocks are the whole arrays -/

/-- The block indices of windows 2 to 6, decided over the ten points: all zero. -/
theorem idx_zero3 : ∀ t : Fin cfg3.N, win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Window 2's block at any point is the whole first weight matrix. -/
theorem iblk3_2_apply (c : Dev nD) (t : Fin cfg3.N) (l k : Fin 64) :
    (iblk3 V c 2 t : Vec Ideal S64x64 .f32) (ix2 l k) = V c (Pipeline.arrRef spec3 2) (ix2 l k) := by
  obtain ⟨e0, e1, -⟩ := idx_zero3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 64 + 1 * l.val = l.val; rw [e0]; omega
  | ⟨1, _⟩ => show win3_2.index t (1 : Fin 2) * 64 + 1 * k.val = k.val; rw [e1]; omega

/-- Window 3's block at any point is the whole first bias row. -/
theorem iblk3_3_apply (c : Dev nD) (t : Fin cfg3.N) (k : Fin 64) :
    (iblk3 V c 3 t : Vec Ideal S1x64 .f32) (ix2 0 k) = V c (Pipeline.arrRef spec3 3) (ix2 0 k) := by
  obtain ⟨-, -, e0, e1, -⟩ := idx_zero3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 64 + 1 * k.val = k.val; rw [e1]; omega

/-- Window 4's block at any point is the whole second weight matrix. -/
theorem iblk3_4_apply (c : Dev nD) (t : Fin cfg3.N) (k : Fin 64) (o : Fin 32) :
    (iblk3 V c 4 t : Vec Ideal S64x32 .f32) (ix2 k o) = V c (Pipeline.arrRef spec3 4) (ix2 k o) := by
  obtain ⟨-, -, -, -, e0, e1, -⟩ := idx_zero3 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 64 + 1 * k.val = k.val; rw [e0]; omega
  | ⟨1, _⟩ => show win3_4.index t (1 : Fin 2) * 32 + 1 * o.val = o.val; rw [e1]; omega

/-- Window 5's block at any point is the whole second bias row. -/
theorem iblk3_5_apply (c : Dev nD) (t : Fin cfg3.N) (o : Fin 32) :
    (iblk3 V c 5 t : Vec Ideal S1x32 .f32) (ix2 0 o) = V c (Pipeline.arrRef spec3 5) (ix2 0 o) := by
  obtain ⟨-, -, -, -, -, -, e0, e1, -⟩ := idx_zero3 t
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * 0 = 0; rw [e0]
  | ⟨1, _⟩ => show win3_5.index t (1 : Fin 2) * 32 + 1 * o.val = o.val; rw [e1]; omega

/-! ## What the last point stores is the pooled head -/

/-- The pooled head of the six operand arrays as the launch finds them. -/
abbrev G3 (c : Dev nD) : Cert.Spec.Out.Idx → EReal :=
  Cert.Spec.head
    (Cert.Spec.poolSum (V c (Pipeline.arrRef spec3 0)) (fun n => V c (Pipeline.arrRef spec3 1) (ix2 n 0)))
    (Cert.Spec.poolCnt (fun n => V c (Pipeline.arrRef spec3 1) (ix2 n 0)))
    (V c (Pipeline.arrRef spec3 2)) (fun j => V c (Pipeline.arrRef spec3 3) (ix2 0 j))
    (V c (Pipeline.arrRef spec3 4)) (fun j => V c (Pipeline.arrRef spec3 5) (ix2 0 j))

/-- What the last point stores, at (g, o), over the operand arrays. -/
theorem out3_6_apply (c : Dev nD) (g : Fin 64) (o : Fin 32) :
    (out3_6 (F := Ideal) V c : Vec Ideal S64x32 .f32) (ix2 g o)
      = (∑ k : Fin 64, ((∑ l : Fin 64, Ideal.div (Cert.Spec.poolSum (V c (Pipeline.arrRef spec3 0)) (fun n => V c (Pipeline.arrRef spec3 1) (ix2 n 0)) (ix2 g l))
      (max (Cert.Spec.poolCnt (fun n => V c (Pipeline.arrRef spec3 1) (ix2 n 0)) g) 1) * V c (Pipeline.arrRef spec3 2) (ix2 l k)) + V c (Pipeline.arrRef spec3 3) (ix2 0 k)) * V c (Pipeline.arrRef spec3 4) (ix2 k o))
      + V c (Pipeline.arrRef spec3 5) (ix2 0 o) := by
  unfold out3_6
  rw [pay6_apply]
  rw [C3_closed, iblk3_5_apply]
  refine congrArg (· + V c (Pipeline.arrRef spec3 5) (ix2 0 o)) (Finset.sum_congr rfl fun k _ => ?_)
  rw [iblk3_3_apply, iblk3_4_apply]
  refine congrArg (fun x : EReal => (x + (V c (Pipeline.arrRef spec3 3) (ix2 0 k) : EReal)) * (V c (Pipeline.arrRef spec3 4) (ix2 k o) : EReal)) (Finset.sum_congr rfl fun l _ => ?_)
  rw [S3_closed, iblk3_2_apply]

/-- What the last point stores is the pooled head. -/
theorem out3_6_eq (c : Dev nD) : out3_6 (F := Ideal) V c = G3 V c := by
  funext i
  obtain ⟨g, o, rfl⟩ : ∃ (g : Fin 64) (o : Fin 32), i = ix2 g o := ⟨i 0, i 1, eq_ix2 i⟩
  exact out3_6_apply V c g o

/-! ## The one write-back and the cover -/

/-- What a point writes back to the output array is its block of the pooled head (block (0, 0): the whole array). -/
theorem flushed3_6_eq (c : Dev nD) (t : Fin cfg3.N) (hf : (cfg3.win 6).flush t = true) :
    (dat3 (F := Ideal) V c).flushed 6 t = ((cfg3.win 6).blk t).view.read (Elt Ideal) (G3 V c) := by
  obtain ⟨-, -, -, -, -, -, -, -, e0, e1⟩ := idx_zero3 t
  show (cfg3.win 6).cut (grid3.coords t) ((dat3 (F := Ideal) V c).after 6 t) = _
  rw [after3_6, out3_6_eq]
  have hz' : (fun a => win3_6.index t a * main_v51.ty.shape.size a) = fun _ => 0 := funext fun a => by
    match a with
    | ⟨0, _⟩ => show win3_6.index t (0 : Fin 2) * 64 = 0; rw [e0]
    | ⟨1, _⟩ => show win3_6.index t (1 : Fin 2) * 32 = 0; rw [e1]
  exact (Memref.read_access_unit_zero (Elt Ideal) main_v51 hz' (fun a => by rw [congrFun hz' a]; simp) (G3 V c)).symm

/-- The output array after the launch is the pooled head of the six operand arrays. -/
theorem final3 (c : Dev nD) :
    (dat3 (F := Ideal) V c).arrAt 6 cfg3.N
      = Cert.Spec.head
          (Cert.Spec.poolSum (V c (Pipeline.arrRef spec3 0)) (fun n => V c (Pipeline.arrRef spec3 1) (ix2 n 0)))
          (Cert.Spec.poolCnt (fun n => V c (Pipeline.arrRef spec3 1) (ix2 n 0)))
          (V c (Pipeline.arrRef spec3 2)) (fun j => V c (Pipeline.arrRef spec3 3) (ix2 0 j))
          (V c (Pipeline.arrRef spec3 4)) (fun j => V c (Pipeline.arrRef spec3 5) (ix2 0 j)) :=
  (dat3 (F := Ideal) V c).arrAt_eq_of_cover 6 (G3 V c) (flushed3_6_eq V c) fun i =>
    ⟨t3_9, (flush3_6 t3_9).mpr rfl, by
      show i ∈ ((View.whole main_v51).slice (win3_6.rect t3_9)).set
      rw [View.set_slice_whole, Rect.mem_set_unit]
      intro a
      have h0 : (i 0 : Nat) < 64 := (i 0).isLt
      have h1 : (i 1 : Nat) < 32 := (i 1).isLt
      match a with
      | ⟨0, _⟩ =>
        show win3_6.index t3_9 0 * win3_6.size 0 ≤ (i 0 : Nat) ∧ (i 0 : Nat) < win3_6.index t3_9 0 * win3_6.size 0 + win3_6.xsize (grid3.coords t3_9) 0
        rw [show win3_6.index t3_9 0 * win3_6.size 0 = 0 from by decide +kernel, show win3_6.xsize (grid3.coords t3_9) 0 = 64 from by decide +kernel]; omega
      | ⟨1, _⟩ =>
        show win3_6.index t3_9 1 * win3_6.size 1 ≤ (i 1 : Nat) ∧ (i 1 : Nat) < win3_6.index t3_9 1 * win3_6.size 1 + win3_6.xsize (grid3.coords t3_9) 1
        rw [show win3_6.index t3_9 1 * win3_6.size 1 = 0 from by decide +kernel, show win3_6.xsize (grid3.coords t3_9) 1 = 32 from by decide +kernel]; omega⟩

end Cert.KernelIdeal.Hand

end
-- ==== Proof.KernelIdeal.KernelValue.lean ====
/-
  The kernel program's two results as the specification's functions of the sixteen arguments.
  Walking @main from the launch: the first stretch forms the neighbour aggregate of the features, the transposed
  weights and the bias rows; launch 0 leaves h₁ = max(L₁(A(x), x), 0) in its output array; the second stretch forms
  A(h₁), launch 1 leaves h₂; the third forms A(h₂), launch 2 leaves emb = L₃(A(h₂), h₂); the fourth stretch forms the
  head's bias rows and launch 3 leaves the pooled head of emb.  Everything a later item reads that an earlier one
  formed is still there: a stretch writes only its own results, a launch only its output array.
-/
import proofs.«415663_j86775519249037_1_alg».proof.Proof.KernelIdeal.Run
import proofs.«415663_j86775519249037_1_alg».proof.Proof.KernelIdeal.Keep
import proofs.«415663_j86775519249037_1_alg».proof.Proof.KernelIdeal.Stretch
import proofs.«415663_j86775519249037_1_alg».proof.Proof.KernelIdeal.ConvValue0
import proofs.«415663_j86775519249037_1_alg».proof.Proof.KernelIdeal.ConvValue1
import proofs.«415663_j86775519249037_1_alg».proof.Proof.KernelIdeal.ConvValue2
import proofs.«415663_j86775519249037_1_alg».proof.Proof.KernelIdeal.PoolValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first layer's output, the second's, and the first result, as functions of the launch memory. -/
def h1v (c : Dev nD) : Cert.Spec.Rows.Idx → EReal := (Cert.Spec.layerRelu (Cert.Spec.aggOf (W0 m c (Proc.devRef .tc main_arg0)) (Cert.Spec.srcOf (W0 m c (Proc.devRef .tc main_arg1))) (Cert.Spec.dstOf (W0 m c (Proc.devRef .tc main_arg1)))) (W0 m c (Proc.devRef .tc main_arg0)) (Cert.Spec.tr (W0 m c (Proc.devRef .tc main_arg3))) (Cert.Spec.tr (W0 m c (Proc.devRef .tc main_arg5))) (Cert.Spec.vec (W0 m c (Proc.devRef .tc main_arg4))))
def h2v (c : Dev nD) : Cert.Spec.Rows.Idx → EReal := (Cert.Spec.layerRelu (Cert.Spec.aggOf (h1v m c) (Cert.Spec.srcOf (W0 m c (Proc.devRef .tc main_arg1))) (Cert.Spec.dstOf (W0 m c (Proc.devRef .tc main_arg1)))) (h1v m c) (Cert.Spec.tr (W0 m c (Proc.devRef .tc main_arg6))) (Cert.Spec.tr (W0 m c (Proc.devRef .tc main_arg8))) (Cert.Spec.vec (W0 m c (Proc.devRef .tc main_arg7))))
def embv (c : Dev nD) : Cert.Spec.Rows.Idx → EReal := (Cert.Spec.layerLin (Cert.Spec.aggOf (h2v m c) (Cert.Spec.srcOf (W0 m c (Proc.devRef .tc main_arg1))) (Cert.Spec.dstOf (W0 m c (Proc.devRef .tc main_arg1)))) (h2v m c) (Cert.Spec.tr (W0 m c (Proc.devRef .tc main_arg9))) (Cert.Spec.tr (W0 m c (Proc.devRef .tc main_arg11))) (Cert.Spec.vec (W0 m c (Proc.devRef .tc main_arg10))))

/-! ## The edge words, formed by the first stretch, are still there when the later stretches read them -/

theorem src_at1 (c : Dev nD) : (fun e : Fin 800000 => W1 m c (Proc.devRef .tc main_v1) (ix1 e)) = Cert.Spec.srcOf (W0 m c (Proc.devRef .tc main_arg1)) :=
  funext fun e => s0_src (W0 m c) e
theorem dst_at1 (c : Dev nD) : (fun e : Fin 800000 => W1 m c (Proc.devRef .tc main_v3) (ix1 e)) = Cert.Spec.dstOf (W0 m c (Proc.devRef .tc main_arg1)) :=
  funext fun e => s0_dst (W0 m c) e
theorem src_at2 (c : Dev nD) : (fun e : Fin 800000 => W2 m c (Proc.devRef .tc main_v1) (ix1 e)) = Cert.Spec.srcOf (W0 m c (Proc.devRef .tc main_arg1)) := by
  rw [show W2 m c (Proc.devRef .tc main_v1) = W1 m c (Proc.devRef .tc main_v1) from (W2_keep m c main_v1 (by decide))]; exact src_at1 m c
theorem dst_at2 (c : Dev nD) : (fun e : Fin 800000 => W2 m c (Proc.devRef .tc main_v3) (ix1 e)) = Cert.Spec.dstOf (W0 m c (Proc.devRef .tc main_arg1)) := by
  rw [show W2 m c (Proc.devRef .tc main_v3) = W1 m c (Proc.devRef .tc main_v3) from (W2_keep m c main_v3 (by decide))]; exact dst_at1 m c
theorem src_at4 (c : Dev nD) : (fun e : Fin 800000 => W4 m c (Proc.devRef .tc main_v1) (ix1 e)) = Cert.Spec.srcOf (W0 m c (Proc.devRef .tc main_arg1)) := by
  rw [show W4 m c (Proc.devRef .tc main_v1) = W1 m c (Proc.devRef .tc main_v1) from (((W4_keep m c main_v1 (by decide)).trans (s1_kept (W2 m c) main_v1 (by decide))).trans (W2_keep m c main_v1 (by decide)))]; exact src_at1 m c
theorem dst_at4 (c : Dev nD) : (fun e : Fin 800000 => W4 m c (Proc.devRef .tc main_v3) (ix1 e)) = Cert.Spec.dstOf (W0 m c (Proc.devRef .tc main_arg1)) := by
  rw [show W4 m c (Proc.devRef .tc main_v3) = W1 m c (Proc.devRef .tc main_v3) from (((W4_keep m c main_v3 (by decide)).trans (s1_kept (W2 m c) main_v3 (by decide))).trans (W2_keep m c main_v3 (by decide)))]; exact dst_at1 m c

/-! ## The three layers -/

/-- Launch 0 leaves the first layer's output. -/
theorem h1_eq (c : Dev nD) : W2 m c (Proc.devRef .tc main_v24) = h1v m c := by
  refine ((W2_arr m c 5).trans (final0 (V1 m) c)).trans ?_
  have e0 : V1 m c (Pipeline.arrRef spec0 0) = Cert.Spec.aggOf (W0 m c (Proc.devRef .tc main_arg0)) (Cert.Spec.srcOf (W0 m c (Proc.devRef .tc main_arg1))) (Cert.Spec.dstOf (W0 m c (Proc.devRef .tc main_arg1))) := s0_agg (W0 m c)
  have e1 : V1 m c (Pipeline.arrRef spec0 1) = W0 m c (Proc.devRef .tc main_arg0) := s0_kept (W0 m c) main_arg0 (by decide)
  have e2 : V1 m c (Pipeline.arrRef spec0 2) = Cert.Spec.tr (W0 m c (Proc.devRef .tc main_arg3)) := s0_v5 (W0 m c)
  have e4 : V1 m c (Pipeline.arrRef spec0 4) = Cert.Spec.tr (W0 m c (Proc.devRef .tc main_arg5)) := s0_v6 (W0 m c)
  have e3 : (fun j : Fin 64 => V1 m c (Pipeline.arrRef spec0 3) (ix2 0 j)) = Cert.Spec.vec (W0 m c (Proc.devRef .tc main_arg4)) := funext fun j => s0_bias (W0 m c) j
  rw [e0, e1, e2, e4, e3]; rfl

/-- Launch 1 leaves the second layer's output. -/
theorem h2_eq (c : Dev nD) : W4 m c (Proc.devRef .tc main_v36) = h2v m c := by
  refine ((W4_arr m c 5).trans (final1 (V3 m) c)).trans ?_
  have e0 : V3 m c (Pipeline.arrRef spec1 0) = Cert.Spec.aggOf (h1v m c) (Cert.Spec.srcOf (W0 m c (Proc.devRef .tc main_arg1))) (Cert.Spec.dstOf (W0 m c (Proc.devRef .tc main_arg1))) := by
    refine (s1_agg (W2 m c)).trans ?_
    rw [h1_eq m c, src_at2 m c, dst_at2 m c]
  have e1 : V3 m c (Pipeline.arrRef spec1 1) = h1v m c := (s1_kept (W2 m c) main_v24 (by decide)).trans (h1_eq m c)
  have e2 : V3 m c (Pipeline.arrRef spec1 2) = Cert.Spec.tr (W0 m c (Proc.devRef .tc main_arg6)) := ((s1_kept (W2 m c) main_v7 (by decide)).trans (W2_keep m c main_v7 (by decide))).trans (s0_v7 (W0 m c))
  have e4 : V3 m c (Pipeline.arrRef spec1 4) = Cert.Spec.tr (W0 m c (Proc.devRef .tc main_arg8)) := ((s1_kept (W2 m c) main_v8 (by decide)).trans (W2_keep m c main_v8 (by decide))).trans (s0_v8 (W0 m c))
  have e3 : (fun j : Fin 64 => V3 m c (Pipeline.arrRef spec1 3) (ix2 0 j)) = Cert.Spec.vec (W0 m c (Proc.devRef .tc main_arg7)) := funext fun j =>
    (s1_bias (W2 m c) j).trans (congrFun (((W2_keep m c main_arg7 (by decide)).trans (s0_kept (W0 m c) main_arg7 (by decide)))) (ix1 j))
  rw [e0, e1, e2, e4, e3]; rfl

/-- Launch 2 leaves the first result. -/
theorem emb_eq (c : Dev nD) : W6 m c (Proc.devRef .tc main_v48) = embv m c := by
  refine ((W6_arr m c 5).trans (final2 (V5 m) c)).trans ?_
  have e0 : V5 m c (Pipeline.arrRef spec2 0) = Cert.Spec.aggOf (h2v m c) (Cert.Spec.srcOf (W0 m c (Proc.devRef .tc main_arg1))) (Cert.Spec.dstOf (W0 m c (Proc.devRef .tc main_arg1))) := by
    refine (s2_agg (W4 m c)).trans ?_
    rw [h2_eq m c, src_at4 m c, dst_at4 m c]
  have e1 : V5 m c (Pipeline.arrRef spec2 1) = h2v m c := (s2_kept (W4 m c) main_v36 (by decide)).trans (h2_eq m c)
  have e2 : V5 m c (Pipeline.arrRef spec2 2) = Cert.Spec.tr (W0 m c (Proc.devRef .tc main_arg9)) := ((((s2_kept (W4 m c) main_v9 (by decide)).trans (W4_keep m c main_v9 (by decide))).trans (s1_kept (W2 m c) main_v9 (by decide))).trans (W2_keep m c main_v9 (by decide))).trans (s0_v9 (W0 m c))
  have e4 : V5 m c (Pipeline.arrRef spec2 4) = Cert.Spec.tr (W0 m c (Proc.devRef .tc main_arg11)) := ((((s2_kept (W4 m c) main_v10 (by decide)).trans (W4_keep m c main_v10 (by decide))).trans (s1_kept (W2 m c) main_v10 (by decide))).trans (W2_keep m c main_v10 (by decide))).trans (s0_v10 (W0 m c))
  have e3 : (fun j : Fin 64 => V5 m c (Pipeline.arrRef spec2 3) (ix2 0 j)) = Cert.Spec.vec (W0 m c (Proc.devRef .tc main_arg10)) := funext fun j =>
    (s2_bias (W4 m c) j).trans (congrFun (((((W4_keep m c main_arg10 (by decide)).trans (s1_kept (W2 m c) main_arg10 (by decide))).trans (W2_keep m c main_arg10 (by decide))).trans (s0_kept (W0 m c) main_arg10 (by decide)))) (ix1 j))
  rw [e0, e1, e2, e4, e3]; rfl

/-! ## The pooled head -/

/-- Launch 3 leaves the second result. -/
theorem out_eq (c : Dev nD) : W8 m c (Proc.devRef .tc main_v51) = (Cert.Spec.outOf (embv m c) (W0 m c (Proc.devRef .tc main_arg2)) (W0 m c (Proc.devRef .tc main_arg12)) (W0 m c (Proc.devRef .tc main_arg13)) (W0 m c (Proc.devRef .tc main_arg14)) (W0 m c (Proc.devRef .tc main_arg15))) := by
  refine ((W8_arr m c 6).trans (final3 (V7 m) c)).trans ?_
  have e0 : V7 m c (Pipeline.arrRef spec3 0) = embv m c := (s3_kept (W6 m c) main_v48 (by decide)).trans (emb_eq m c)
  have e1 : (fun n : Fin 50000 => V7 m c (Pipeline.arrRef spec3 1) (ix2 n 0)) = Cert.Spec.vec (W0 m c (Proc.devRef .tc main_arg2)) := funext fun n =>
    (congrFun (((((((s3_kept (W6 m c) main_v4 (by decide)).trans (W6_keep m c main_v4 (by decide))).trans (s2_kept (W4 m c) main_v4 (by decide))).trans (W4_keep m c main_v4 (by decide))).trans (s1_kept (W2 m c) main_v4 (by decide))).trans (W2_keep m c main_v4 (by decide)))) (ix2 n 0)).trans (s0_batch (W0 m c) n)
  have e2 : V7 m c (Pipeline.arrRef spec3 2) = Cert.Spec.tr (W0 m c (Proc.devRef .tc main_arg12)) := ((((((s3_kept (W6 m c) main_v11 (by decide)).trans (W6_keep m c main_v11 (by decide))).trans (s2_kept (W4 m c) main_v11 (by decide))).trans (W4_keep m c main_v11 (by decide))).trans (s1_kept (W2 m c) main_v11 (by decide))).trans (W2_keep m c main_v11 (by decide))).trans (s0_v11 (W0 m c))
  have e3 : (fun j : Fin 64 => V7 m c (Pipeline.arrRef spec3 3) (ix2 0 j)) = Cert.Spec.vec (W0 m c (Proc.devRef .tc main_arg13)) := funext fun j =>
    (s3_b4 (W6 m c) j).trans (congrFun (((((((W6_keep m c main_arg13 (by decide)).trans (s2_kept (W4 m c) main_arg13 (by decide))).trans (W4_keep m c main_arg13 (by decide))).trans (s1_kept (W2 m c) main_arg13 (by decide))).trans (W2_keep m c main_arg13 (by decide))).trans (s0_kept (W0 m c) main_arg13 (by decide)))) (ix1 j))
  have e4 : V7 m c (Pipeline.arrRef spec3 4) = Cert.Spec.tr5 (W0 m c (Proc.devRef .tc main_arg14)) := ((((((s3_kept (W6 m c) main_v12 (by decide)).trans (W6_keep m c main_v12 (by decide))).trans (s2_kept (W4 m c) main_v12 (by decide))).trans (W4_keep m c main_v12 (by decide))).trans (s1_kept (W2 m c) main_v12 (by decide))).trans (W2_keep m c main_v12 (by decide))).trans (s0_v12 (W0 m c))
  have e5 : (fun j : Fin 32 => V7 m c (Pipeline.arrRef spec3 5) (ix2 0 j)) = Cert.Spec.vec (W0 m c (Proc.devRef .tc main_arg15)) := funext fun j =>
    (s3_b5 (W6 m c) j).trans (congrFun (((((((W6_keep m c main_arg15 (by decide)).trans (s2_kept (W4 m c) main_arg15 (by decide))).trans (W4_keep m c main_arg15 (by decide))).trans (s1_kept (W2 m c) main_arg15 (by decide))).trans (W2_keep m c main_arg15 (by decide))).trans (s0_kept (W0 m c) main_arg15 (by decide)))) (ix1 j))
  rw [e0, e1, e2, e3, e4, e5]; rfl

/-- The first result is still in its array at the end: the last stretch and launch 3 do not write it. -/
theorem emb_at8 (c : Dev nD) : W8 m c (Proc.devRef .tc main_v48) = embv m c :=
  ((W8_keep m c main_v48 (by decide)).trans (s3_kept (W6 m c) main_v48 (by decide))).trans (emb_eq m c)

/-- No item writes an argument. -/
theorem arg0_at8 (c : Dev nD) : W8 m c (Proc.devRef .tc main_arg0) = W0 m c (Proc.devRef .tc main_arg0) :=
  ((((((((W8_keep m c main_arg0 (by decide)).trans (s3_kept (W6 m c) main_arg0 (by decide))).trans (W6_keep m c main_arg0 (by decide))).trans (s2_kept (W4 m c) main_arg0 (by decide))).trans (W4_keep m c main_arg0 (by decide))).trans (s1_kept (W2 m c) main_arg0 (by decide))).trans (W2_keep m c main_arg0 (by decide))).trans (s0_kept (W0 m c) main_arg0 (by decide)))
theorem arg1_at8 (c : Dev nD) : W8 m c (Proc.devRef .tc main_arg1) = W0 m c (Proc.devRef .tc main_arg1) :=
  ((((((((W8_keep m c main_arg1 (by decide)).trans (s3_kept (W6 m c) main_arg1 (by decide))).trans (W6_keep m c main_arg1 (by decide))).trans (s2_kept (W4 m c) main_arg1 (by decide))).trans (W4_keep m c main_arg1 (by decide))).trans (s1_kept (W2 m c) main_arg1 (by decide))).trans (W2_keep m c main_arg1 (by decide))).trans (s0_kept (W0 m c) main_arg1 (by decide)))
theorem arg2_at8 (c : Dev nD) : W8 m c (Proc.devRef .tc main_arg2) = W0 m c (Proc.devRef .tc main_arg2) :=
  ((((((((W8_keep m c main_arg2 (by decide)).trans (s3_kept (W6 m c) main_arg2 (by decide))).trans (W6_keep m c main_arg2 (by decide))).trans (s2_kept (W4 m c) main_arg2 (by decide))).trans (W4_keep m c main_arg2 (by decide))).trans (s1_kept (W2 m c) main_arg2 (by decide))).trans (W2_keep m c main_arg2 (by decide))).trans (s0_kept (W0 m c) main_arg2 (by decide)))
theorem arg3_at8 (c : Dev nD) : W8 m c (Proc.devRef .tc main_arg3) = W0 m c (Proc.devRef .tc main_arg3) :=
  ((((((((W8_keep m c main_arg3 (by decide)).trans (s3_kept (W6 m c) main_arg3 (by decide))).trans (W6_keep m c main_arg3 (by decide))).trans (s2_kept (W4 m c) main_arg3 (by decide))).trans (W4_keep m c main_arg3 (by decide))).trans (s1_kept (W2 m c) main_arg3 (by decide))).trans (W2_keep m c main_arg3 (by decide))).trans (s0_kept (W0 m c) main_arg3 (by decide)))
theorem arg4_at8 (c : Dev nD) : W8 m c (Proc.devRef .tc main_arg4) = W0 m c (Proc.devRef .tc main_arg4) :=
  ((((((((W8_keep m c main_arg4 (by decide)).trans (s3_kept (W6 m c) main_arg4 (by decide))).trans (W6_keep m c main_arg4 (by decide))).trans (s2_kept (W4 m c) main_arg4 (by decide))).trans (W4_keep m c main_arg4 (by decide))).trans (s1_kept (W2 m c) main_arg4 (by decide))).trans (W2_keep m c main_arg4 (by decide))).trans (s0_kept (W0 m c) main_arg4 (by decide)))
theorem arg5_at8 (c : Dev nD) : W8 m c (Proc.devRef .tc main_arg5) = W0 m c (Proc.devRef .tc main_arg5) :=
  ((((((((W8_keep m c main_arg5 (by decide)).trans (s3_kept (W6 m c) main_arg5 (by decide))).trans (W6_keep m c main_arg5 (by decide))).trans (s2_kept (W4 m c) main_arg5 (by decide))).trans (W4_keep m c main_arg5 (by decide))).trans (s1_kept (W2 m c) main_arg5 (by decide))).trans (W2_keep m c main_arg5 (by decide))).trans (s0_kept (W0 m c) main_arg5 (by decide)))
theorem arg6_at8 (c : Dev nD) : W8 m c (Proc.devRef .tc main_arg6) = W0 m c (Proc.devRef .tc main_arg6) :=
  ((((((((W8_keep m c main_arg6 (by decide)).trans (s3_kept (W6 m c) main_arg6 (by decide))).trans (W6_keep m c main_arg6 (by decide))).trans (s2_kept (W4 m c) main_arg6 (by decide))).trans (W4_keep m c main_arg6 (by decide))).trans (s1_kept (W2 m c) main_arg6 (by decide))).trans (W2_keep m c main_arg6 (by decide))).trans (s0_kept (W0 m c) main_arg6 (by decide)))
theorem arg7_at8 (c : Dev nD) : W8 m c (Proc.devRef .tc main_arg7) = W0 m c (Proc.devRef .tc main_arg7) :=
  ((((((((W8_keep m c main_arg7 (by decide)).trans (s3_kept (W6 m c) main_arg7 (by decide))).trans (W6_keep m c main_arg7 (by decide))).trans (s2_kept (W4 m c) main_arg7 (by decide))).trans (W4_keep m c main_arg7 (by decide))).trans (s1_kept (W2 m c) main_arg7 (by decide))).trans (W2_keep m c main_arg7 (by decide))).trans (s0_kept (W0 m c) main_arg7 (by decide)))
theorem arg8_at8 (c : Dev nD) : W8 m c (Proc.devRef .tc main_arg8) = W0 m c (Proc.devRef .tc main_arg8) :=
  ((((((((W8_keep m c main_arg8 (by decide)).trans (s3_kept (W6 m c) main_arg8 (by decide))).trans (W6_keep m c main_arg8 (by decide))).trans (s2_kept (W4 m c) main_arg8 (by decide))).trans (W4_keep m c main_arg8 (by decide))).trans (s1_kept (W2 m c) main_arg8 (by decide))).trans (W2_keep m c main_arg8 (by decide))).trans (s0_kept (W0 m c) main_arg8 (by decide)))
theorem arg9_at8 (c : Dev nD) : W8 m c (Proc.devRef .tc main_arg9) = W0 m c (Proc.devRef .tc main_arg9) :=
  ((((((((W8_keep m c main_arg9 (by decide)).trans (s3_kept (W6 m c) main_arg9 (by decide))).trans (W6_keep m c main_arg9 (by decide))).trans (s2_kept (W4 m c) main_arg9 (by decide))).trans (W4_keep m c main_arg9 (by decide))).trans (s1_kept (W2 m c) main_arg9 (by decide))).trans (W2_keep m c main_arg9 (by decide))).trans (s0_kept (W0 m c) main_arg9 (by decide)))
theorem arg10_at8 (c : Dev nD) : W8 m c (Proc.devRef .tc main_arg10) = W0 m c (Proc.devRef .tc main_arg10) :=
  ((((((((W8_keep m c main_arg10 (by decide)).trans (s3_kept (W6 m c) main_arg10 (by decide))).trans (W6_keep m c main_arg10 (by decide))).trans (s2_kept (W4 m c) main_arg10 (by decide))).trans (W4_keep m c main_arg10 (by decide))).trans (s1_kept (W2 m c) main_arg10 (by decide))).trans (W2_keep m c main_arg10 (by decide))).trans (s0_kept (W0 m c) main_arg10 (by decide)))
theorem arg11_at8 (c : Dev nD) : W8 m c (Proc.devRef .tc main_arg11) = W0 m c (Proc.devRef .tc main_arg11) :=
  ((((((((W8_keep m c main_arg11 (by decide)).trans (s3_kept (W6 m c) main_arg11 (by decide))).trans (W6_keep m c main_arg11 (by decide))).trans (s2_kept (W4 m c) main_arg11 (by decide))).trans (W4_keep m c main_arg11 (by decide))).trans (s1_kept (W2 m c) main_arg11 (by decide))).trans (W2_keep m c main_arg11 (by decide))).trans (s0_kept (W0 m c) main_arg11 (by decide)))
theorem arg12_at8 (c : Dev nD) : W8 m c (Proc.devRef .tc main_arg12) = W0 m c (Proc.devRef .tc main_arg12) :=
  ((((((((W8_keep m c main_arg12 (by decide)).trans (s3_kept (W6 m c) main_arg12 (by decide))).trans (W6_keep m c main_arg12 (by decide))).trans (s2_kept (W4 m c) main_arg12 (by decide))).trans (W4_keep m c main_arg12 (by decide))).trans (s1_kept (W2 m c) main_arg12 (by decide))).trans (W2_keep m c main_arg12 (by decide))).trans (s0_kept (W0 m c) main_arg12 (by decide)))
theorem arg13_at8 (c : Dev nD) : W8 m c (Proc.devRef .tc main_arg13) = W0 m c (Proc.devRef .tc main_arg13) :=
  ((((((((W8_keep m c main_arg13 (by decide)).trans (s3_kept (W6 m c) main_arg13 (by decide))).trans (W6_keep m c main_arg13 (by decide))).trans (s2_kept (W4 m c) main_arg13 (by decide))).trans (W4_keep m c main_arg13 (by decide))).trans (s1_kept (W2 m c) main_arg13 (by decide))).trans (W2_keep m c main_arg13 (by decide))).trans (s0_kept (W0 m c) main_arg13 (by decide)))
theorem arg14_at8 (c : Dev nD) : W8 m c (Proc.devRef .tc main_arg14) = W0 m c (Proc.devRef .tc main_arg14) :=
  ((((((((W8_keep m c main_arg14 (by decide)).trans (s3_kept (W6 m c) main_arg14 (by decide))).trans (W6_keep m c main_arg14 (by decide))).trans (s2_kept (W4 m c) main_arg14 (by decide))).trans (W4_keep m c main_arg14 (by decide))).trans (s1_kept (W2 m c) main_arg14 (by decide))).trans (W2_keep m c main_arg14 (by decide))).trans (s0_kept (W0 m c) main_arg14 (by decide)))
theorem arg15_at8 (c : Dev nD) : W8 m c (Proc.devRef .tc main_arg15) = W0 m c (Proc.devRef .tc main_arg15) :=
  ((((((((W8_keep m c main_arg15 (by decide)).trans (s3_kept (W6 m c) main_arg15 (by decide))).trans (W6_keep m c main_arg15 (by decide))).trans (s2_kept (W4 m c) main_arg15 (by decide))).trans (W4_keep m c main_arg15 (by decide))).trans (s1_kept (W2 m c) main_arg15 (by decide))).trans (W2_keep m c main_arg15 (by decide))).trans (s0_kept (W0 m c) main_arg15 (by decide)))

/-- The kernel program, run from m: both results are the specification's functions of the arguments, and the
    arguments end unchanged. -/
theorem kernel_run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v48) = Cert.Spec.embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_v51) = Cert.Spec.outOf (Cert.Spec.embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) := by
  refine (θ_run (Cert.KernelIdeal.defs (F := Ideal)) _ _).mono (fun r h c => ?_) (run_all (F := Ideal) m ρ)
  refine ⟨(h c main_v48 (by decide)).trans (emb_at8 m c), (h c main_v51 (by decide)).trans (out_eq m c),
    (h c main_arg0 (by decide)).trans (arg0_at8 m c),
    (h c main_arg1 (by decide)).trans (arg1_at8 m c),
    (h c main_arg2 (by decide)).trans (arg2_at8 m c),
    (h c main_arg3 (by decide)).trans (arg3_at8 m c),
    (h c main_arg4 (by decide)).trans (arg4_at8 m c),
    (h c main_arg5 (by decide)).trans (arg5_at8 m c),
    (h c main_arg6 (by decide)).trans (arg6_at8 m c),
    (h c main_arg7 (by decide)).trans (arg7_at8 m c),
    (h c main_arg8 (by decide)).trans (arg8_at8 m c),
    (h c main_arg9 (by decide)).trans (arg9_at8 m c),
    (h c main_arg10 (by decide)).trans (arg10_at8 m c),
    (h c main_arg11 (by decide)).trans (arg11_at8 m c),
    (h c main_arg12 (by decide)).trans (arg12_at8 m c),
    (h c main_arg13 (by decide)).trans (arg13_at8 m c),
    (h c main_arg14 (by decide)).trans (arg14_at8 m c),
    (h c main_arg15 (by decide)).trans (arg15_at8 m c)⟩

end Cert.KernelIdeal.Hand

end
-- ==== Proof.RefPool.lean ====
/-
  The reference's pooled head: its second result as the specification's pooled head of its first.  The two segment
  sums are accumulating scatters through the batch column — of the rows of max(emb, 0) and of a column of ones into
  zero arrays — so entry g holds the sum over the nodes whose batch word, read signed, is g; the quotient by
  max(count, 1) and the two products with their bias rows are the specification's head.
-/
import proofs.«415663_j86775519249037_1_alg».proof.Proof.Gen.ReferenceIdeal.Read
import proofs.«415663_j86775519249037_1_alg».proof.Proof.Spec
import Idealize.ShloMosaic.Lib.ValueLayout
import Idealize.ShloMosaic.Lib.IdealHost

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx
open Idealize.SL Idealize.SL.Sem

/-! ## The batch column, and the two segment sums at an index -/

/-- The batch column at (n, 0) is the batch word of node n. -/
theorem pool_col (x2 : (⟨S50000, .i32⟩ : BufTy).Contents (Elt Ideal)) (n : Fin 50000) :
    val_main_v62 (F := Ideal) x2 (ix2 n 0) = Cert.Spec.vec x2 n := by
  rw [val_main_v62_apply]
  exact congrArg x2 (funext fun a => match a with | ⟨0, _⟩ => rfl)

/-- The updates that land on row g through the batch column are the nodes of graph g. -/
theorem pool_landing (x2 : (⟨S50000, .i32⟩ : BufTy).Contents (Elt Ideal)) (g : Fin 64) :
    Cert.GcnLib.landing (val_main_v62 (F := Ideal) x2) g = Cert.Spec.members (Cert.Spec.vec x2) g := by
  unfold Cert.GcnLib.landing Cert.Spec.members
  exact Finset.filter_congr fun n _ => by rw [pool_col]

/-- The accumulating scatter of the rows of u into a zero array through the batch column, at (g, l): the sum of
    u(n, l) over the nodes n of graph g. -/
theorem pool_rows (x2 : (⟨S50000, .i32⟩ : BufTy).Contents (Elt Ideal)) (u : (⟨S50000x64, .f32⟩ : BufTy).Contents (Elt Ideal)) (g l : Fin 64) :
    Host.scatterAdd (F := Ideal) (φ := .f32) scatter_S64x64_S50000x1_S50000x64_1_0_0_1 (val_main_v61 (F := Ideal)) (val_main_v62 (F := Ideal) x2) u (ix2 g l)
      = ∑ n ∈ Cert.Spec.members (Cert.Spec.vec x2) g, u (ix2 n l) := by
  unfold Host.scatterAdd
  rw [Ideal.hostScatterAdd_def, Cert.GcnLib.scatterAdd_rows_apply _ rfl rfl rfl rfl, pool_landing, val_main_v61_apply, val_main_cst_7_apply]
  show Ideal.ofBits .f32 0x00000000#32 + _ = _
  rw [Ideal.ofBits_zero_f32, zero_add]

/-- The accumulating scatter of a column of ones into a zero column through the batch column, at (g, 0): the number
    of nodes of graph g. -/
theorem pool_count (x2 : (⟨S50000, .i32⟩ : BufTy).Contents (Elt Ideal)) (g : Fin 64) :
    val_main_v67 (F := Ideal) x2 (ix2 g 0) = Cert.Spec.poolCnt (Cert.Spec.vec x2) g := by
  unfold val_main_v67 Host.scatterAdd Cert.Spec.poolCnt
  rw [Ideal.hostScatterAdd_def, Cert.GcnLib.scatterAdd_rows_apply _ rfl rfl rfl rfl,
    show val_main_v66 (F := Ideal) x2 = val_main_v62 (F := Ideal) x2 from rfl, pool_landing, val_main_v65_apply, val_main_cst_9_apply]
  show Ideal.ofBits .f32 0x00000000#32 + _ = _
  rw [Ideal.ofBits_zero_f32, zero_add]
  refine Finset.sum_congr rfl fun n _ => ?_
  rw [val_main_v64_apply, val_main_cst_8_apply]
  exact Ideal.ofBits_one_f32

/-- The pooled sums: entry (g, l) is the sum over the nodes n of graph g of max(emb(n, l), 0). -/
theorem pool_sum (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (g l : Fin 64) :
    val_main_v63 (F := Ideal) x0 x1 x2 x3 x4 x5 x6 x7 x8 x9 x10 x11 (ix2 g l)
      = Cert.Spec.poolSum (val_main_v59 (F := Ideal) x0 x1 x3 x4 x5 x6 x7 x8 x9 x10 x11) (Cert.Spec.vec x2) (ix2 g l) := by
  unfold val_main_v63 Cert.Spec.poolSum
  rw [pool_rows]
  refine Finset.sum_congr rfl fun n _ => ?_
  rw [val_main_v60_apply, val_main_call2_v0_apply, val_main_call2_cst_apply]
  show max _ (Ideal.ofBits .f32 0x00000000#32) = _
  rw [Ideal.ofBits_zero_f32]

/-- The divisor: max(count, 1), the same along a row. -/
theorem pool_den (x2 : (⟨S50000, .i32⟩ : BufTy).Contents (Elt Ideal)) (g l : Fin 64) :
    val_main_v70 (F := Ideal) x2 (ix2 g l) = max (Cert.Spec.poolCnt (Cert.Spec.vec x2) g) 1 := by
  rw [val_main_v70_apply, val_main_v69_apply, val_main_v68_apply, val_main_cst_10_apply,
    show idx_main_v70 (ix2 g l) = ix2 g 0 from funext fun a => match a with | ⟨0, _⟩ => rfl | ⟨1, _⟩ => rfl, pool_count]
  show max _ (Ideal.ofBits .f32 0x3F800000#32) = _
  rw [Ideal.ofBits_one_f32]

/-! ## The two linear maps at an index -/

theorem pool_w4 (x12 : (⟨S64x64, .f32⟩ : BufTy).Contents (Elt Ideal)) (l k : Fin 64) :
    val_main_v72 (F := Ideal) x12 (ix2 l k) = Cert.Spec.tr x12 (ix2 l k) := by
  rw [val_main_v72_apply]
  exact congrArg x12 (funext fun a => match a with | ⟨0, _⟩ => rfl | ⟨1, _⟩ => rfl)

theorem pool_b4 (x13 : (⟨S64, .f32⟩ : BufTy).Contents (Elt Ideal)) (g k : Fin 64) :
    val_main_v75 (F := Ideal) x13 (ix2 g k) = Cert.Spec.vec x13 k := by
  rw [val_main_v75_apply, val_main_v74_apply]
  exact congrArg x13 (funext fun a => match a with | ⟨0, _⟩ => rfl)

theorem pool_w5 (x14 : (⟨S32x64, .f32⟩ : BufTy).Contents (Elt Ideal)) (k : Fin 64) (o : Fin 32) :
    val_main_v77 (F := Ideal) x14 (ix2 k o) = Cert.Spec.tr5 x14 (ix2 k o) := by
  rw [val_main_v77_apply]
  exact congrArg x14 (funext fun a => match a with | ⟨0, _⟩ => rfl | ⟨1, _⟩ => rfl)

theorem pool_b5 (x15 : (⟨S32, .f32⟩ : BufTy).Contents (Elt Ideal)) (g : Fin 64) (o : Fin 32) :
    val_main_v80 (F := Ideal) x15 (ix2 g o) = Cert.Spec.vec x15 o := by
  rw [val_main_v80_apply, val_main_v79_apply]
  exact congrArg x15 (funext fun a => match a with | ⟨0, _⟩ => rfl)

/-- The first product at (g, k): the sum over l of the pooled mean at (g, l) times the transposed weight at (l, k). -/
theorem pool_lin4 (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (g k : Fin 64) :
    val_main_v73 (F := Ideal) x0 x1 x2 x3 x4 x5 x6 x7 x8 x9 x10 x11 x12 (ix2 g k)
      = ∑ l : Fin 64, val_main_v71 (F := Ideal) x0 x1 x2 x3 x4 x5 x6 x7 x8 x9 x10 x11 (ix2 g l) * val_main_v72 (F := Ideal) x12 (ix2 l k) := by
  rw [val_main_v73_apply]
  refine Finset.sum_congr rfl fun l _ => ?_
  rw [show lidx_main_v73 (ix2 g k) l = ix2 g l from funext fun a => match a with | ⟨0, _⟩ => rfl | ⟨1, _⟩ => rfl,
    show ridx_main_v73 (ix2 g k) l = ix2 l k from funext fun a => match a with | ⟨0, _⟩ => rfl | ⟨1, _⟩ => rfl]

/-- The second product at (g, o). -/
theorem pool_lin5 (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S32x64, .f32⟩ : BufTy).Contents (Elt Ideal)) (g : Fin 64) (o : Fin 32) :
    val_main_v78 (F := Ideal) x0 x1 x2 x3 x4 x5 x6 x7 x8 x9 x10 x11 x12 x13 x14 (ix2 g o)
      = ∑ k : Fin 64, val_main_v76 (F := Ideal) x0 x1 x2 x3 x4 x5 x6 x7 x8 x9 x10 x11 x12 x13 (ix2 g k) * val_main_v77 (F := Ideal) x14 (ix2 k o) := by
  rw [val_main_v78_apply]
  refine Finset.sum_congr rfl fun k _ => ?_
  rw [show lidx_main_v78 (ix2 g o) k = ix2 g k from funext fun a => match a with | ⟨0, _⟩ => rfl | ⟨1, _⟩ => rfl,
    show ridx_main_v78 (ix2 g o) k = ix2 k o from funext fun a => match a with | ⟨0, _⟩ => rfl | ⟨1, _⟩ => rfl]

/-- The second result's stage is the pooled head of the first result's stage. -/
theorem ref_out_of_emb (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) :
    val_main_v81 (F := Ideal) x0 x1 x2 x3 x4 x5 x6 x7 x8 x9 x10 x11 x12 x13 x14 x15
      = Cert.Spec.outOf (val_main_v59 (F := Ideal) x0 x1 x3 x4 x5 x6 x7 x8 x9 x10 x11) x2 x12 x13 x14 x15 := by
  funext i
  obtain ⟨g, o, rfl⟩ : ∃ (g : Fin 64) (o : Fin 32), i = ix2 g o := ⟨i 0, i 1, eq_ix2 i⟩
  rw [val_main_v81_apply, pool_lin5, pool_b5]
  simp only [val_main_v76_apply, pool_lin4, pool_b4, val_main_v71_apply, pool_sum, pool_den, pool_w4, pool_w5]
  generalize val_main_v59 (F := Ideal) x0 x1 x3 x4 x5 x6 x7 x8 x9 x10 x11 = emb
  rfl

end Cert.ReferenceIdeal.Hand

end
-- ==== Proof.RefValue.lean ====
/-
  The reference program's two results as the specification's functions of the sixteen arguments.

  Each of the three layers gathers, for every edge, the features' row its source word names (a negative word wrapped
  by adding N, then clamped into the node range), adds the gathered rows into the rows the destination words name
  (starting from zeros, an out-of-range word dropped): that is the neighbour aggregate a. It then forms
  (a·Wᵀrel + b) + h·Wᵀroot, which over the extended reals is (a·Wᵀrel + h·Wᵀroot) + b, the specification's layer;
  the first two layers are followed by the maximum with zero. The three layers compose into the embedding, the first
  result; the second result is the pooled head of the first.
-/
import proofs.«415663_j86775519249037_1_alg».proof.Proof.Gen.ReferenceIdeal.Read
import proofs.«415663_j86775519249037_1_alg».proof.Proof.Spec
import proofs.«415663_j86775519249037_1_alg».proof.Proof.RefPool
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem

section Layers

open Cert.ReferenceIdeal.Read Cert.Spec Cert.GcnLib

/-- The wrapped source word of edge e, as the gather's index column holds it. -/
theorem src_col (x1 : (⟨S2x800000, .i32⟩ : BufTy).Contents (Elt Ideal)) (e : Fin 800000) :
    val_main_v9 (F := Ideal) x1 (ix2 e 0) = wrapWord 50000#32 (srcOf x1 e) := by
  have h1 : val_main_v1 (F := Ideal) x1 (idx_main_v9 (ix2 e 0)) = srcOf x1 e := by
    rw [val_main_v1_apply, val_main_v0_apply]
    unfold srcOf
    congr 1
    funext a
    match a with
    | ⟨0, _⟩ => rfl
    | ⟨1, _⟩ => exact Fin.ext (Nat.mod_eq_of_lt e.isLt)
  rw [val_main_v9_apply, val_main_v8_apply, val_main_v5_apply, val_main_v7_apply, val_main_v4_apply, val_main_v6_apply,
    val_main_c_apply, val_main_c_0_apply, h1]
  rfl

/-- The destination word of edge e, as the scatter's index column holds it. -/
theorem dst_col (x1 : (⟨S2x800000, .i32⟩ : BufTy).Contents (Elt Ideal)) (e : Fin 800000) :
    val_main_v12 (F := Ideal) x1 (ix2 e 0) = dstOf x1 e := by
  rw [val_main_v12_apply, val_main_v3_apply, val_main_v2_apply]
  unfold dstOf
  congr 1
  funext a
  match a with
  | ⟨0, _⟩ => rfl
  | ⟨1, _⟩ => exact Fin.ext (Nat.mod_eq_of_lt e.isLt)

/-- The accumulating scatter of rows at an entry: the operand's entry plus the sum of the update rows whose word names the row. -/
theorem scatter_rows_read (x : (⟨S50000x64, .f32⟩ : BufTy).Contents (Elt Ideal)) (idx : (⟨S800000x1, .i32⟩ : BufTy).Contents (Elt Ideal))
    (u : (⟨S800000x64, .f32⟩ : BufTy).Contents (Elt Ideal)) (v : Fin 50000) (j : Fin 64) :
    Ideal.hostScatterAdd scatter_S50000x64_S800000x1_S800000x64_1_0_0_1 x idx u (ix2 v j)
    = x (ix2 v j) + ∑ e ∈ landing (N := 50000) idx v, u (ix2 e j) :=
  scatterAdd_rows_apply (N := 50000) (n := 800000) (C := 64) scatter_S50000x64_S800000x1_S800000x64_1_0_0_1 rfl rfl rfl rfl x idx u v j

/-- The host's accumulating scatter is, over the extended reals, the exact sum. -/
theorem scatter_host_eq (x : (⟨S50000x64, .f32⟩ : BufTy).Contents (Elt Ideal)) (idx : (⟨S800000x1, .i32⟩ : BufTy).Contents (Elt Ideal))
    (u : (⟨S800000x64, .f32⟩ : BufTy).Contents (Elt Ideal)) (i : S50000x64.Idx) :
    Host.scatterAdd (F := Ideal) (φ := .f32) scatter_S50000x64_S800000x1_S800000x64_1_0_0_1 x idx u i
    = Ideal.hostScatterAdd scatter_S50000x64_S800000x1_S800000x64_1_0_0_1 x idx u i := rfl

/-- The sum over the edges that land on node v of the gathered rows: each gathered row is the features' row the wrapped, clamped source word names. -/
theorem landing_sum_eq (h : (⟨S50000x64, .f32⟩ : BufTy).Contents (Elt Ideal)) (x1 : (⟨S2x800000, .i32⟩ : BufTy).Contents (Elt Ideal)) (v : Fin 50000) (j : Fin 64) :
    ∑ e ∈ landing (N := 50000) (val_main_v12 (F := Ideal) x1) v, Host.gather gather_S50000x64_S800000x1_S800000x64_1_0_n_n_0_1_164 h (val_main_v9 (F := Ideal) x1) (ix2 e j)
    = ∑ e ∈ Finset.univ.filter (fun e : Fin 800000 => (dstOf x1 e).toInt = (v.val : Int)),
        h (ix2 (clampRow 50000 (by decide) (wrapWord 50000#32 (srcOf x1 e))) j) := by
  have hland : landing (N := 50000) (val_main_v12 (F := Ideal) x1) v
      = Finset.univ.filter (fun e : Fin 800000 => (dstOf x1 e).toInt = (v.val : Int)) := by
    unfold landing
    exact Finset.filter_congr (fun e _ => by rw [dst_col])
  rw [hland]
  refine Finset.sum_congr rfl fun e _ => ?_
  rw [gather_rows_apply (by decide) _ rfl rfl rfl rfl rfl rfl rfl, src_col]

/-- Gathering the rows the source words name and adding them into the rows the destination words name, read at an entry. -/
theorem agg_apply (h : (⟨S50000x64, .f32⟩ : BufTy).Contents (Elt Ideal)) (x1 : (⟨S2x800000, .i32⟩ : BufTy).Contents (Elt Ideal)) (v : Fin 50000) (j : Fin 64) :
    Host.scatterAdd (F := Ideal) (φ := .f32) scatter_S50000x64_S800000x1_S800000x64_1_0_0_1 (val_main_v11 (F := Ideal)) (val_main_v12 (F := Ideal) x1)
      (Host.gather gather_S50000x64_S800000x1_S800000x64_1_0_n_n_0_1_164 h (val_main_v9 (F := Ideal) x1)) (ix2 v j)
    = ∑ e ∈ Finset.univ.filter (fun e : Fin 800000 => (dstOf x1 e).toInt = (v.val : Int)),
        h (ix2 (clampRow 50000 (by decide) (wrapWord 50000#32 (srcOf x1 e))) j) :=
  (scatter_host_eq _ _ _ _).trans ((scatter_rows_read _ _ _ v j).trans (by
    rw [val_main_v11_apply, val_main_cst_apply, Ideal.ofBits_def, Ideal.ofBits_zero_f32, zero_add]
    exact landing_sum_eq h x1 v j))

/-- The neighbour aggregate at an entry. -/
theorem aggOf_apply (h : Rows.Idx → EReal) (s d : Fin 800000 → BitVec 32) (v : Fin 50000) (j : Fin 64) :
    aggOf h s d (ix2 v j) = ∑ e ∈ Finset.univ.filter (fun e : Fin 800000 => (d e).toInt = (v.val : Int)),
        h (ix2 (clampRow 50000 (by decide) (wrapWord 50000#32 (s e))) j) := rfl

/-- The same as whole arrays: the neighbour aggregate. -/
theorem agg_eq (h : (⟨S50000x64, .f32⟩ : BufTy).Contents (Elt Ideal)) (x1 : (⟨S2x800000, .i32⟩ : BufTy).Contents (Elt Ideal)) :
    Host.scatterAdd (F := Ideal) (φ := .f32) scatter_S50000x64_S800000x1_S800000x64_1_0_0_1 (val_main_v11 (F := Ideal)) (val_main_v12 (F := Ideal) x1)
      (Host.gather gather_S50000x64_S800000x1_S800000x64_1_0_n_n_0_1_164 h (val_main_v9 (F := Ideal) x1))
    = aggOf h (srcOf x1) (dstOf x1) := by
  funext i
  obtain ⟨v, j, rfl⟩ : ∃ v j, i = ix2 v j := ⟨i 0, i 1, eq_ix2 i⟩
  exact (agg_apply h x1 v j).trans (aggOf_apply h (srcOf x1) (dstOf x1) v j).symm

/-- A transposed square matrix, read as the specification's transpose. -/
theorem tr_eq (w : (⟨S64x64, .f32⟩ : BufTy).Contents (Elt Ideal)) : val_main_v14 (F := Ideal) w = tr w := by
  funext i
  rw [val_main_v14_apply]
  unfold tr
  congr 1
  funext a
  match a with
  | ⟨0, _⟩ => rfl
  | ⟨1, _⟩ => rfl

/-- The bias row broadcast over the nodes, read at an entry. -/
theorem bias_eq (b : (⟨S64, .f32⟩ : BufTy).Contents (Elt Ideal)) (i : S50000x64.Idx) :
    val_main_v17 (F := Ideal) b i = vec b (i 1) := by
  rw [val_main_v17_apply, val_main_v16_apply]
  unfold vec
  congr 1
  funext a
  match a with
  | ⟨0, _⟩ => rfl

/-- The operand indices of the rows-by-matrix product at result entry i and contraction position q. -/
theorem dlhs_0 (i : S50000x64.Idx) (q : dot_S50000x64_S64x64_S50000x64_1_0_0_1_n_n.contr.Idx) :
    (dot_S50000x64_S64x64_S50000x64_1_0_0_1_n_n.lhsIdx i q 0).val = (i 0).val := lhs_main_v15_0 i q
theorem dlhs_1 (i : S50000x64.Idx) (q : dot_S50000x64_S64x64_S50000x64_1_0_0_1_n_n.contr.Idx) :
    (dot_S50000x64_S64x64_S50000x64_1_0_0_1_n_n.lhsIdx i q 1).val = (q ⟨0, by decide⟩).val := lhs_main_v15_1 i q
theorem drhs_0 (i : S50000x64.Idx) (q : dot_S50000x64_S64x64_S50000x64_1_0_0_1_n_n.contr.Idx) :
    (dot_S50000x64_S64x64_S50000x64_1_0_0_1_n_n.rhsIdx i q 0).val = (q ⟨0, by decide⟩).val := rhs_main_v15_0 i q
theorem drhs_1 (i : S50000x64.Idx) (q : dot_S50000x64_S64x64_S50000x64_1_0_0_1_n_n.contr.Idx) :
    (dot_S50000x64_S64x64_S50000x64_1_0_0_1_n_n.rhsIdx i q 1).val = (i 1).val := rhs_main_v15_1 i q

/-- The product of an array of rows with a square matrix, at one entry: the sum over the shared axis. -/
theorem dot_rows_apply (y0 : (⟨S50000x64, .f32⟩ : BufTy).Contents (Elt Ideal)) (y1 : (⟨S64x64, .f32⟩ : BufTy).Contents (Elt Ideal))
    (i : S50000x64.Idx) :
    Host.dotGeneral (F := Ideal) (φ₁ := .f32) (φ₂ := .f32) dot_S50000x64_S64x64_S50000x64_1_0_0_1_n_n none y0 y1 i
      = ∑ k : Fin 64, y0 (ix2 (i 0) k) * y1 (ix2 k (i 1)) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0) k := funext fun a => Fin.ext (by
    match a with
    | ⟨0, _⟩ => exact dlhs_0 _ _
    | ⟨1, _⟩ => exact (dlhs_1 _ _).trans hk)
  have er : dot_S50000x64_S64x64_S50000x64_1_0_0_1_n_n.rhsIdx i ((ValueIdx.contrEquiv1 dot_S50000x64_S64x64_S50000x64_1_0_0_1_n_n 64 rfl rfl).symm k) = ix2 k (i 1) := funext fun a => Fin.ext (by
    match a with
    | ⟨0, _⟩ => exact (drhs_0 _ _).trans hk
    | ⟨1, _⟩ => exact drhs_1 _ _)
  rw [el, er]
  rfl

/-- The called activation: the maximum with a zero array. -/
theorem relu_eq (y : (⟨S50000x64, .f32⟩ : BufTy).Contents (Elt Ideal)) :
    maximumf (F := Ideal) (φ := .f32) y (val_main_call0_v0 (F := Ideal)) = fun i => max (y i) 0 := by
  funext i
  show FloatOps.maximumf (F := Ideal) (φ := .f32) (y i) (val_main_call0_v0 (F := Ideal) i) = _
  rw [val_main_call0_v0_apply, val_main_call0_cst_apply, Ideal.maximumf_def, Ideal.ofBits_def, Ideal.ofBits_zero_f32]

/-- The arithmetic of one layer from its aggregate a and its features h, as the operations compose it. -/
def coreOp (a h : (⟨S50000x64, .f32⟩ : BufTy).Contents (Elt Ideal))
    (wr : (⟨S64x64, .f32⟩ : BufTy).Contents (Elt Ideal)) (b : (⟨S64, .f32⟩ : BufTy).Contents (Elt Ideal))
    (wo : (⟨S64x64, .f32⟩ : BufTy).Contents (Elt Ideal)) : (⟨S50000x64, .f32⟩ : BufTy).Contents (Elt Ideal) :=
  addf (F := Ideal) (φ := .f32) (addf (F := Ideal) (φ := .f32)
    (Host.dotGeneral (F := Ideal) (φ₁ := .f32) (φ₂ := .f32) dot_S50000x64_S64x64_S50000x64_1_0_0_1_n_n none a (val_main_v14 (F := Ideal) wr))
    (val_main_v17 (F := Ideal) b))
    (Host.dotGeneral (F := Ideal) (φ₁ := .f32) (φ₂ := .f32) dot_S50000x64_S64x64_S50000x64_1_0_0_1_n_n none h (val_main_v19 (F := Ideal) wo))

/-- (a·Wᵀrel + b) + h·Wᵀroot is (a·Wᵀrel + h·Wᵀroot) + b. -/
theorem coreOp_eq (a h : (⟨S50000x64, .f32⟩ : BufTy).Contents (Elt Ideal))
    (wr : (⟨S64x64, .f32⟩ : BufTy).Contents (Elt Ideal)) (b : (⟨S64, .f32⟩ : BufTy).Contents (Elt Ideal))
    (wo : (⟨S64x64, .f32⟩ : BufTy).Contents (Elt Ideal)) :
    coreOp a h wr b wo = layerLin a h (tr wr) (tr wo) (vec b) := by
  unfold coreOp
  have e19 : val_main_v19 (F := Ideal) wo = tr wo := tr_eq wo
  rw [e19, tr_eq]
  funext i
  show FloatOps.addf (F := Ideal) (φ := .f32) (FloatOps.addf (F := Ideal) (φ := .f32) (Host.dotGeneral (F := Ideal) (φ₁ := .f32) (φ₂ := .f32) dot_S50000x64_S64x64_S50000x64_1_0_0_1_n_n none _ _ i) (val_main_v17 (F := Ideal) b i))
    (Host.dotGeneral (F := Ideal) (φ₁ := .f32) (φ₂ := .f32) dot_S50000x64_S64x64_S50000x64_1_0_0_1_n_n none _ _ i) = _
  rw [dot_rows_apply, dot_rows_apply, bias_eq, Ideal.addf_def, Ideal.addf_def]
  unfold layerLin
  exact add_right_comm _ _ _

/-- One layer of the reference, as the operations compose it from the features h. -/
def layerOp (h : (⟨S50000x64, .f32⟩ : BufTy).Contents (Elt Ideal)) (x1 : (⟨S2x800000, .i32⟩ : BufTy).Contents (Elt Ideal))
    (wr : (⟨S64x64, .f32⟩ : BufTy).Contents (Elt Ideal)) (b : (⟨S64, .f32⟩ : BufTy).Contents (Elt Ideal))
    (wo : (⟨S64x64, .f32⟩ : BufTy).Contents (Elt Ideal)) : (⟨S50000x64, .f32⟩ : BufTy).Contents (Elt Ideal) :=
  coreOp (Host.scatterAdd (F := Ideal) (φ := .f32) scatter_S50000x64_S800000x1_S800000x64_1_0_0_1 (val_main_v11 (F := Ideal)) (val_main_v12 (F := Ideal) x1)
        (Host.gather gather_S50000x64_S800000x1_S800000x64_1_0_n_n_0_1_164 h (val_main_v9 (F := Ideal) x1))) h wr b wo

/-- One layer of the reference is the specification's layer. -/
theorem layerOp_eq (h : (⟨S50000x64, .f32⟩ : BufTy).Contents (Elt Ideal)) (x1 : (⟨S2x800000, .i32⟩ : BufTy).Contents (Elt Ideal))
    (wr : (⟨S64x64, .f32⟩ : BufTy).Contents (Elt Ideal)) (b : (⟨S64, .f32⟩ : BufTy).Contents (Elt Ideal))
    (wo : (⟨S64x64, .f32⟩ : BufTy).Contents (Elt Ideal)) :
    layerOp h x1 wr b wo = layerLin (aggOf h (srcOf x1) (dstOf x1)) h (tr wr) (tr wo) (vec b) :=
  (congrArg (fun a => coreOp a h wr b wo) (agg_eq h x1)).trans (coreOp_eq _ h wr b wo)

/-- An activated layer: the maximum of the layer's value with the zero array. -/
theorem relu_layer (y a x : (⟨S50000x64, .f32⟩ : BufTy).Contents (Elt Ideal)) (wr wo : Sq.Idx → EReal) (b : Fin 64 → EReal)
    (hy : y = layerLin a x wr wo b) :
    maximumf (F := Ideal) (φ := .f32) y (val_main_call0_v0 (F := Ideal)) = layerRelu a x wr wo b := by
  subst hy
  rw [relu_eq]
  rfl

/-- The reference's stages are the layer's operations applied to the previous stage (the same operations, three times). -/
theorem v21_is (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v21 (F := Ideal) x0 x1 x3 x4 x5 = layerOp x0 x1 x3 x4 x5 := rfl
theorem v22_is (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v22 (F := Ideal) x0 x1 x3 x4 x5
      = maximumf (F := Ideal) (φ := .f32) (val_main_v21 (F := Ideal) x0 x1 x3 x4 x5) (val_main_call0_v0 (F := Ideal)) := rfl
theorem v40_is (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v40 (F := Ideal) x0 x1 x3 x4 x5 x6 x7 x8 = layerOp (val_main_v22 (F := Ideal) x0 x1 x3 x4 x5) x1 x6 x7 x8 := rfl
theorem v41_is (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v41 (F := Ideal) x0 x1 x3 x4 x5 x6 x7 x8
      = maximumf (F := Ideal) (φ := .f32) (val_main_v40 (F := Ideal) x0 x1 x3 x4 x5 x6 x7 x8) (val_main_call0_v0 (F := Ideal)) := rfl
theorem v59_is (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) :
    val_main_v59 (F := Ideal) x0 x1 x3 x4 x5 x6 x7 x8 x9 x10 x11 = layerOp (val_main_v41 (F := Ideal) x0 x1 x3 x4 x5 x6 x7 x8) x1 x9 x10 x11 := rfl

/-- The first activated layer. -/
theorem h1_eq (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v22 (F := Ideal) x0 x1 x3 x4 x5 = layerRelu (aggOf x0 (srcOf x1) (dstOf x1)) x0 (tr x3) (tr x5) (vec x4) :=
  (v22_is x0 x1 x3 x4 x5).trans (relu_layer _ _ _ _ _ _ ((v21_is x0 x1 x3 x4 x5).trans (layerOp_eq x0 x1 x3 x4 x5)))

/-- The second activated layer, over any first layer h1. -/
theorem h2_eq (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (h1 : (⟨S50000x64, .f32⟩ : BufTy).Contents (Elt Ideal))
    (e1 : val_main_v22 (F := Ideal) x0 x1 x3 x4 x5 = h1) :
    val_main_v41 (F := Ideal) x0 x1 x3 x4 x5 x6 x7 x8 = layerRelu (aggOf h1 (srcOf x1) (dstOf x1)) h1 (tr x6) (tr x8) (vec x7) :=
  (v41_is x0 x1 x3 x4 x5 x6 x7 x8).trans (relu_layer _ _ _ _ _ _ ((v40_is x0 x1 x3 x4 x5 x6 x7 x8).trans
    ((congrArg (fun h => layerOp h x1 x6 x7 x8) e1).trans (layerOp_eq h1 x1 x6 x7 x8))))

/-- The third layer, over any second layer h2. -/
theorem h3_eq (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (h2 : (⟨S50000x64, .f32⟩ : BufTy).Contents (Elt Ideal))
    (e2 : val_main_v41 (F := Ideal) x0 x1 x3 x4 x5 x6 x7 x8 = h2) :
    val_main_v59 (F := Ideal) x0 x1 x3 x4 x5 x6 x7 x8 x9 x10 x11 = layerLin (aggOf h2 (srcOf x1) (dstOf x1)) h2 (tr x9) (tr x11) (vec x10) :=
  (v59_is x0 x1 x3 x4 x5 x6 x7 x8 x9 x10 x11).trans ((congrArg (fun h => layerOp h x1 x9 x10 x11) e2).trans (layerOp_eq h2 x1 x9 x10 x11))

/-- The reference's first result is the specification's embedding of the arguments. -/
theorem emb_eq (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) :
    val_main_v59 (F := Ideal) x0 x1 x3 x4 x5 x6 x7 x8 x9 x10 x11 = embOf x0 x1 x3 x4 x5 x6 x7 x8 x9 x10 x11 :=
  h3_eq x0 x1 x3 x4 x5 x6 x7 x8 x9 x10 x11 _ (h2_eq x0 x1 x3 x4 x5 x6 x7 x8 _ (h1_eq x0 x1 x3 x4 x5))

end Layers

variable (m : (ℓ : Loc nD τ sig) → Buf (Elt Ideal) ℓ) (ρ : Dev nD → PrngReg)

/-- The reference program, run from m: both results are the specification's functions of the arguments, and the
    arguments end unchanged. -/
theorem ref_run : θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v59) = Cert.Spec.embOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v81) = Cert.Spec.outOf (Cert.Spec.embOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)) := by
  refine (θ_run (Cert.ReferenceIdeal.defs (F := Ideal)) _ _).mono (fun r h c => ?_) (Cert.ReferenceIdeal.Value.run (F := Ideal) m ρ)
  obtain ⟨h59, h81, hargs⟩ := h c
  exact ⟨h59.trans ((Cert.ReferenceIdeal.Read.val_main_v59_eq m c).trans (emb_eq _ _ _ _ _ _ _ _ _ _ _)),
    h81.trans ((Cert.ReferenceIdeal.Read.val_main_v81_eq m c).trans ((ref_out_of_emb _ _ _ _ _ _ _ _ _ _ _ _ _ _ _ _).trans
      (congrArg (fun e => Cert.Spec.outOf e _ _ _ _ _) (emb_eq _ _ _ _ _ _ _ _ _ _ _)))),
    hargs⟩

end Cert.ReferenceIdeal.Hand

end
-- ==== Proof.lean ====
/-
  The certificate: a three-layer graph convolution with a mean-pooled two-layer head, as a kernel program of four
  launches against its plain reference.  Over the extended reals both programs compute, from the sixteen arguments,
      emb = L₃(A(h₂), h₂),  h₂ = max(L₂(A(h₁), h₁), 0),  h₁ = max(L₁(A(x), x), 0),   out = head(pool(max(emb, 0)))
  where A is the neighbour aggregate over the edges, Lᵢ(a, h) = a·Wᵢrelᵀ + h·Wᵢrootᵀ + bᵢ, and pool sums and counts
  the nodes of each graph.  The kernel program forms each layer block by block on a grid and the pooled sums by a
  one-hot product accumulated over the grid; the reference forms them by whole-array products and a segment sum.
  The two arrangements are the same function of the arguments (Spec.embOf, Spec.outOf): each side's run is proved
  to end at that function, and the claims follow.  No finiteness of the inputs is used.
-/
import proofs.«415663_j86775519249037_1_alg».proof.Defs
import proofs.«415663_j86775519249037_1_alg».proof.Proof.Kernel.Run
import proofs.«415663_j86775519249037_1_alg».proof.Proof.KernelIdeal.KernelValue
import proofs.«415663_j86775519249037_1_alg».proof.Proof.RefValue
import proofs.«415663_j86775519249037_1_alg».proof.Proof.Gen.Pre_finite_inputs

noncomputable section

namespace Cert.Proof

open Idealize.ShloMosaic Idealize.SL.Sem

/-- The word-level kernel program runs and leaves its arguments unchanged. -/
theorem frame_k : Cert.frame_Kernel := fun m ρ _ => Cert.Kernel.Hand.frame_run (F := Bits) m ρ

/-- So does the kernel program read over the extended reals. -/
theorem frame_ki : Cert.frame_KernelIdeal := fun m ρ _ => Cert.KernelIdeal.Hand.frame_run (F := Ideal) m ρ

/-- The reference's run, its two results dropped. -/
theorem frame_ri : Cert.frame_ReferenceIdeal := fun m ρ _ =>
  (θ_run (Cert.ReferenceIdeal.defs (F := Ideal)) _ _).mono (fun _ h c => (h c).2.2) (Cert.ReferenceIdeal.Hand.ref_run m ρ)

/-- Both runs end at the same two functions of arguments that agree. -/
theorem algebraic : Cert.algebraic_KernelIdeal_ReferenceIdeal := by
  intro m ρ m' ρ' _ hagree
  refine ⟨fun c => Cert.Spec.embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.outOf (Cert.Spec.embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Hand.kernel_run m ρ, ?_⟩
  refine (θ_run (Cert.ReferenceIdeal.defs (F := Ideal)) _ _).mono (fun _ h c => ?_) (Cert.ReferenceIdeal.Hand.ref_run m' ρ')
  obtain ⟨h1, h2, h3⟩ := h c
  obtain ⟨a0, a1, a2, a3, a4, a5, a6, a7, a8, a9, a10, a11, a12, a13, a14, a15⟩ := hagree c
  have e : Cert.Spec.embOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = Cert.Spec.embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
    rw [a0, a1, a3, a4, a5, a6, a7, a8, a9, a10, a11]
  refine ⟨h1.trans e, ?_, h3⟩
  rw [h2, e, a2, a12, a13, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
